-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S_ : Shape := ⟨0, ![]⟩
abbrev S1x600000 : Shape := ⟨2, ![1, 600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  slices_S2x600000_S1x600000_0_0 : S2x600000.Slices ![0, 0] S1x600000
  shapeCasts_S1x600000_S600000 : S1x600000.ShapeCasts S600000

variable [Facts]

def fn_part1 {F : FTy → Type} [FloatOps F] (main_arg2 : IVec S2x600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : IVec S1x600000 32 := (extractStridedSlice S1x600000 ![0, 0] · slices_S2x600000_S1x600000_0_0) main_arg2
  let main_v20 : IVec S600000 32 := shapeCast S600000 main_v19 shapeCasts_S1x600000_S600000
  let main_c_6 : IVec S_ 32 := constantI S_ 32 0#32
  let main_v21 : IVec S600000 32 := broadcastInDim S600000 ![] bcast_S_S600000 main_c_6
  let main_v22 : IVec S600000 1 := cmpi .sge main_v20 main_v21
  let main_c_7 : IVec S_ 1 := constantI S_ 1 1#1
  let main_v23 : IVec S_ 1 := (fun x v => Host.reduce IntOp.andi x v reducesTo_S600000_S_d0 h_S_) main_v22 main_c_7
  let main_v24 : IVec S_ 1 := andi main_v18 main_v23
  let main_v25 : IVec S1x600000 32 := (extractStridedSlice S1x600000 ![0, 0] · slices_S2x600000_S1x600000_0_0) main_arg2
  let main_v26 : IVec S600000 32 := shapeCast S600000 main_v25 shapeCasts_S1x600000_S600000
  let main_c_8 : IVec S_ 32 := constantI S_ 32 50000#32
  let main_v27 : IVec S600000 32 := broadcastInDim S600000 ![] bcast_S_S600000 main_c_8
  let main_v28 : IVec S600000 1 := cmpi .slt main_v26 main_v27
  let main_c_9 : IVec S_ 1 := constantI S_ 1 1#1
  let main_v29 : IVec S_ 1 := (fun x v => Host.reduce IntOp.andi x v reducesTo_S600000_S_d0 h_S_) main_v28 main_c_9
  let main_v30 : IVec S_ 1 := andi main_v24 main_v29
  main_v30

def fn {F : FTy → Type} [FloatOps F] (main_arg0 : FVec F S50000x128 .f32) (main_arg1 : FVec F S50000x128 .f32) (main_arg2 : IVec S2x600000 32) (main_arg3 : FVec F S600000 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S600000 .f32 := Host.absf main_arg3
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S1x600000 : Shape := ⟨2, ![1, 600000]⟩
abbrev S_ : Shape := ⟨0, ![]⟩
abbrev S600064 : Shape := ⟨1, ![600064]⟩
abbrev S600064x1 : Shape := ⟨2, ![600064, 1]⟩
abbrev S1x600064 : Shape := ⟨2, ![1, 600064]⟩
abbrev S53248x128 : Shape := ⟨2, ![53248, 128]⟩
abbrev S600064x128 : Shape := ⟨2, ![600064, 128]⟩
abbrev S1024x1 : Shape := ⟨2, ![1024, 1]⟩
abbrev S4096x128 : Shape := ⟨2, ![4096, 128]⟩
abbrev S1024x128 : Shape := ⟨2, ![1024, 128]⟩
abbrev S1x4096 : Shape := ⟨2, ![1, 4096]⟩
abbrev S1024x4096 : Shape := ⟨2, ![1024, 4096]⟩
abbrev S1x1024 : Shape := ⟨2, ![1, 1024]⟩
abbrev S4096x1 : Shape := ⟨2, ![4096, 1]⟩
abbrev S4096x1024 : Shape := ⟨2, ![4096, 1024]⟩

abbrev nBuf : Space → Nat
  | .hbm => 31
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x600000, .i32⟩
  | .hbm, ⟨3, _⟩ => ⟨S600000, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S_, .i32⟩
  | .hbm, ⟨11, _⟩ => ⟨S600064, .i32⟩
  | .hbm, ⟨12, _⟩ => ⟨S600064x1, .i32⟩
  | .hbm, ⟨13, _⟩ => ⟨S_, .i32⟩
  | .hbm, ⟨14, _⟩ => ⟨S_, .i32⟩
  | .hbm, ⟨15, _⟩ => ⟨S600064, .i32⟩
  | .hbm, ⟨16, _⟩ => ⟨S1x600064, .i32⟩
  | .hbm, ⟨17, _⟩ => ⟨S_, .i32⟩
  | .hbm, ⟨18, _⟩ => ⟨S_, .f32⟩
  | .hbm, ⟨19, _⟩ => ⟨S600064, .f32⟩
  | .hbm, ⟨20, _⟩ => ⟨S600064x1, .f32⟩
  | .hbm, ⟨21, _⟩ => ⟨S_, .i32⟩
  | .hbm, ⟨22, _⟩ => ⟨S_, .f32⟩
  | .hbm, ⟨23, _⟩ => ⟨S53248x128, .f32⟩
  | .hbm, ⟨24, _⟩ => ⟨S_, .i32⟩
  | .hbm, ⟨25, _⟩ => ⟨S_, .f32⟩
  | .hbm, ⟨26, _⟩ => ⟨S53248x128, .f32⟩
  | .hbm, ⟨27, _⟩ => ⟨S128x128, .f32⟩
  | .hbm, ⟨28, _⟩ => ⟨S600064x128, .bf16⟩
  | .hbm, ⟨29, _⟩ => ⟨S53248x128, .f32⟩
  | .hbm, ⟨30, _⟩ => ⟨S50000x128, .f32⟩
  | .local _ .vmem, ⟨0, _⟩ => ⟨S1024x1, .i32⟩
  | .local _ .vmem, ⟨1, _⟩ => ⟨S1024x1, .i32⟩
  | .local _ .vmem, ⟨2, _⟩ => ⟨S1024x1, .f32⟩
  | .local _ .vmem, ⟨3, _⟩ => ⟨S1024x1, .f32⟩
  | .local _ .vmem, ⟨4, _⟩ => ⟨S4096x128, .f32⟩
  | .local _ .vmem, ⟨5, _⟩ => ⟨S4096x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1x1024, .i32⟩
  | .local _ .vmem, ⟨10, _⟩ => ⟨S1x1024, .i32⟩
  | .local _ .vmem, ⟨11, _⟩ => ⟨S1024x128, .bf16⟩
  | .local _ .vmem, ⟨12, _⟩ => ⟨S1024x128, .bf16⟩
  | .local _ .vmem, ⟨13, _⟩ => ⟨S4096x128, .f32⟩
  | .local _ .vmem, ⟨14, _⟩ => ⟨S4096x128, .f32⟩
  | .local _ .vmem, ⟨15, _⟩ => ⟨S128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_c_3 : Ref sig .tc := ⟨.hbm, 24, rfl⟩
abbrev main_call4_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![586, 13], ![false, false]⟩

def k0_cond2 (i : grid0.Coords) : BitVec 1 :=
  let arg1 : BitVec 32 := BitVec.ofNat 32 (i 1).val
  let c12_i32 : BitVec 32 := 12#32
  let v28 : BitVec 1 := Scalar.cmpi .eq arg1 c12_i32
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![13, 586], ![false, false]⟩

def k1_cond2 (i : grid1.Coords) : BitVec 1 :=
  let arg1 : BitVec 32 := BitVec.ofNat 32 (i 1).val
  let c585_i32 : BitVec 32 := 585#32
  let v23 : BitVec 1 := Scalar.cmpi .eq arg1 c585_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S600064_0640 : S600000.Pads (![0] : Fin 1 → Nat) ![64] ![0] S600064
  h_S_ : 0 < S_.numel
  shapeCasts_S600064_S600064x1 : S600064.ShapeCasts S600064x1
  shapeCasts_S600064_S1x600064 : S600064.ShapeCasts S1x600064
  pads_S50000x128_S53248x128_032480_000 : S50000x128.Pads (![0, 0] : Fin 2 → Nat) ![3248, 0] ![0, 0] S53248x128
  transposes_S128x128_S128x128_1_0 : S128x128.Transposes [1, 0] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1x4096_d1_w32 : S1x4096.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1024x1_S1024x128 : S1024x1.Broadcasts S1024x128
  packedbf16_S1024x128_S1024x128_0_0 : (Rect.unit (s := S1024x128) ![0, 0] S1024x128.size inb_S1024x128_S1024x128_0_0).PackedRows (EltTy.packing .bf16)
  iota_S4096x1_d0_w32 : S4096x1.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S4096x1_S4096x1024 : S4096x1.Broadcasts S4096x1024
  broadcasts_S1x1024_S4096x1024 : S1x1024.Broadcasts S4096x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S53248x128_S50000x128_0_0 : S53248x128.Slices ![0, 0] S50000x128
  dot_S1024x4096_S4096x128_S1024x128_1_0_0_1_n_n_wf : DotDims.WF S1024x4096 S4096x128 S1024x128 [1] [0] [0] [1] [] []
  dot_S4096x1024_S1024x128_S4096x128_1_0_0_1_n_n_wf : DotDims.WF S4096x1024 S1024x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S600064x1.size a
  hwx0_0 : ∀ i : grid0.Coords, EltTy.bits .i32 = 32 ∨ (Rect.block (s := S600064x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S600064x1.size a
  hwx0_1 : ∀ i : grid0.Coords, EltTy.bits .f32 = 32 ∨ (Rect.block (s := S600064x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S53248x128.size a
  hwx0_2 : ∀ i : grid0.Coords, EltTy.bits .f32 = 32 ∨ (Rect.block (s := S53248x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S600064x128.size a
  hwx0_3 : ∀ i : grid0.Coords, EltTy.bits .bf16 = 32 ∨ (Rect.block (s := S600064x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x600064.size a
  hwx1_0 : ∀ i : grid1.Coords, EltTy.bits .i32 = 32 ∨ (Rect.block (s := S1x600064) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S600064x128.size a
  hwx1_1 : ∀ i : grid1.Coords, EltTy.bits .bf16 = 32 ∨ (Rect.block (s := S600064x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S53248x128.size a
  hwx1_2 : ∀ i : grid1.Coords, EltTy.bits .f32 = 32 ∨ (Rect.block (s := S53248x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S53248x128.size a
  hwx1_4 : ∀ i : grid1.Coords, EltTy.bits .f32 = 32 ∨ (Rect.block (s := S53248x128) S4096x128.size (cc1_transform_4 i) (hinb1_4 i)).WholeWords (EltTy.packing .f32)

variable [Facts₀]

def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v5) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x600000, .i32⟩
  | .hbm, ⟨3, _⟩ => ⟨S600000, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x1, .f32⟩
  | .hbm, ⟨19, _⟩ => ⟨S600000x128, .f32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.GatherFrame.lean ====
/-
  The first kernel region (the gather): its proof data and body obligation, at any float family.

  The grid is 586 edge tiles × 13 node tiles, the node tile innermost.  At a point the body resets a scratch
  accumulator if the node tile is the first, adds to it the edge weights times the product of the 0/1 matrix
  `[src e = n]` with the node tile's features, and at the last node tile stores the accumulator, narrowed, into the
  output block.  What the scratch holds after point `n` is therefore a recursion over the points (`accAt`), and the
  output block written back at an edge tile's last point is its narrowing (`outAt`).
-/
import proofs.«401625_j82231443849285_1_alg».proof.Proof.Gen.KernelIdeal.Launch
import proofs.«401625_j82231443849285_1_alg».proof.Proof.Gen.KernelIdeal.Skeleton
import proofs.«401625_j82231443849285_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditionals along the grid -/

/-- The body's first conditional: the node tile is the edge tile's first. -/
abbrev atFirst (i : grid0.Coords) : Prop :=
  (Scalar.cmpi .ne (Scalar.extui (Scalar.cmpi .eq (BitVec.ofNat 32 (i 1).val) 0#32)) 0#32) = 1#1
/-- The body's second conditional: the node tile is the edge tile's last. -/
abbrev atLast (i : grid0.Coords) : Prop := k0_cond2 i = 1#1

/-- Along the row-major order of the 586 × 13 grid the node tile is the position's residue mod 13. -/
theorem atFirst_iff : ∀ t : Fin cfg0.N, atFirst (grid0.coords t) ↔ t.val % 13 = 0 :=
  (by decide +kernel : ∀ t : Fin grid0.N, atFirst (grid0.coords t) ↔ t.val % 13 = 0)
theorem atLast_iff : ∀ t : Fin cfg0.N, atLast (grid0.coords t) ↔ t.val % 13 = 12 :=
  (by decide +kernel : ∀ t : Fin grid0.N, atLast (grid0.coords t) ↔ t.val % 13 = 12)

/-- The whole-block rectangle's offsets are zero. -/
theorem off0 : (![0, 0] : Fin 2 → Nat) = fun _ => 0 := funext fun a => by fin_cases a <;> rfl

/-! ## Where the windows are idle -/

/-- The inputs are never idle. -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
/-- The output is idle exactly off an edge tile's last node tile, where the body stores nothing into it, -/
theorem out_idle (t : Fin cfg0.N) (h : ¬atLast (grid0.coords t)) : cfg0.idle 3 (grid0.coords t) = true := by
  show (!(k0_cond2 (grid0.coords t) == 1#1)) = true
  rw [Bool.not_eq_true', beq_eq_false_iff_ne]; exact h
theorem out_live (t : Fin cfg0.N) (h : atLast (grid0.coords t)) : cfg0.idle 3 (grid0.coords t) = false := by
  show (!(k0_cond2 (grid0.coords t) == 1#1)) = false
  rw [Bool.not_eq_false', beq_iff_eq]; exact h
/-- and there the pipeline does not write it back. -/
theorem out_noFlush (t : Fin cfg0.N) (h : ¬atLast (grid0.coords t)) : (cfg0.win 3).flush t = false :=
  Bool.eq_false_iff.mpr fun hf => h ((atLast_iff t).mpr ((flush0_3 t).mp hf))

/-! ## The body's three runs

The printed body is its skeleton of loads and stores over the payloads; on whole memrefs each store covers its buffer, so
what a run leaves in a buffer is its last store's payload, and a load after a store reads that store's payload. -/

set_option maxHeartbeats 1000000 in
/-- The body at an edge tile's first node tile: on whole memrefs, the inputs at their contents, the output's at `y` and
    the scratch at anything, it hands everything back as found but the scratch, which holds the update of the zero fill
    (the fill is stored, read back, and the update stored over it). -/
theorem run_first (c : Dev nD) (i : grid0.Coords)
    (a2 : Memref sig .tc .vmem S1024x1 .i32) (h2 : a2.IsWhole) (a3 : Memref sig .tc .vmem S1024x1 .f32) (h3 : a3.IsWhole)
    (a4 : Memref sig .tc .vmem S4096x128 .f32) (h4 : a4.IsWhole) (a5 : Memref sig .tc .vmem S1024x128 .bf16) (h5 : a5.IsWhole)
    (a6 : Memref sig .tc .vmem S1024x128 .f32) (h6 : a6.IsWhole) (hf : atFirst i) (hl : ¬atLast i)
    (x0 : Vec F S1024x1 .i32) (x1 : Vec F S1024x1 .f32) (x2 : Vec F S4096x128 .f32) (y : Vec F S1024x128 .bf16)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare y
            ∗ owns (c : Thread nD τ) a6 fullShare (k0_pay2 i x0 x2 (k0_pay1 (F := F)) x1)) -∗ K ⟨⟩))
      ⊢ wp frame (wpE (defs₀ (F := F)) Variants.none c none) E (cc0__gather_scale_kernel i a2 h2 a3 h3 a4 h4 a5 h5 a6 h6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := h2.eq_unread hf0; obtain rfl := h3.eq_unread hf1; obtain rfl := h4.eq_unread hf2
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (fun y => ⟨_, List.mem_cons_self .., View.mem_set_unit_zero off0 inb_S1024x128_S1024x128_0_0 y⟩)]
  rw [View.canon_cons_unit_zero (S := S1024x128) off0, View.readCov_unit_zero (S := S1024x128) _ off0]
  simp only [View.readAt_eq_ld, h2.read_unread, h3.read_unread, h4.read_unread, h6.read_unread,
    View.ld_unit_zero (S := S1024x1) off0, View.ld_unit_zero (S := S4096x128) off0, View.ld_unit_zero (S := S1024x128) off0]

set_option maxHeartbeats 1000000 in
/-- The body at a node tile that is neither first nor last: the scratch at `xs` is left at its update, the rest as found. -/
theorem run_mid (c : Dev nD) (i : grid0.Coords)
    (a2 : Memref sig .tc .vmem S1024x1 .i32) (h2 : a2.IsWhole) (a3 : Memref sig .tc .vmem S1024x1 .f32) (h3 : a3.IsWhole)
    (a4 : Memref sig .tc .vmem S4096x128 .f32) (h4 : a4.IsWhole) (a5 : Memref sig .tc .vmem S1024x128 .bf16) (h5 : a5.IsWhole)
    (a6 : Memref sig .tc .vmem S1024x128 .f32) (h6 : a6.IsWhole) (hf : ¬atFirst i) (hl : ¬atLast i)
    (x0 : Vec F S1024x1 .i32) (x1 : Vec F S1024x1 .f32) (x2 : Vec F S4096x128 .f32) (y : Vec F S1024x128 .bf16)
    (xs : Vec F S1024x128 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare xs
        ∗ (iprop(owns (c : Thread nD τ) a2 fullShare x0 ∗ owns (c : Thread nD τ) a3 fullShare x1 ∗ owns (c : Thread nD τ) a4 fullShare x2
            ∗ owns (c : Thread nD τ) a5 fullShare y
            ∗ owns (c : Thread nD τ) a6 fullShare (k0_pay2 i x0 x2 xs x1)) -∗ K ⟨⟩))
      ⊢ wp frame (wpE (defs₀ (F := F)) Variants.none c none) E (cc0__gather_scale_kernel i a2 h2 a3 h3 a4 h4 a5 h5 a6 h6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := h2.eq_unread hf0; obtain rfl := h3.eq_unread hf1; obtain rfl := h4.eq_unread hf2; obtain rfl := h6.eq_unread hfs
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (fun y => ⟨_, List.mem_cons_self .., View.mem_set_unit_zero off0 inb_S1024x128_S1024x128_0_0 y⟩)]
  rw [View.canon_unit_zero (S := S1024x128) off0]
  simp only [View.readAt_eq_ld, h2.read_unread, h3.read_unread, h4.read_unread, h6.read_unread,
    View.ld_unit_zero (S := S1024x1) off0, View.ld_unit_zero (S := S4096x128) off0, View.ld_unit_zero (S := S1024x128) off0]

set_option maxHeartbeats 1000000 in
/-- The body at an edge tile's last node tile: the scratch at `xs` is left at its update, and the output's memref, found
    at anything, at the update narrowed. -/
theorem run_last (c : Dev nD) (i : grid0.Coords)
    (a2 : Memref sig .tc .vmem S1024x1 .i32) (h2 : a2.IsWhole) (a3 : Memref sig .tc .vmem S1024x1 .f32) (h3 : a3.IsWhole)
    (a4 : Memref sig .tc .vmem S4096x128 .f32) (h4 : a4.IsWhole) (a5 : Memref sig .tc .vmem S1024x128 .bf16) (h5 : a5.IsWhole)
    (a6 : Memref sig .tc .vmem S1024x128 .f32) (h6 : a6.IsWhole) (hf : ¬atFirst i) (hl : atLast i)
    (x0 : Vec F S1024x1 .i32) (x1 : Vec F S1024x1 .f32) (x2 : Vec F S4096x128 .f32)
    (xs : Vec F S1024x128 .f32) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare xs
        ∗ (iprop(owns (c : Thread nD τ) a2 fullShare x0 ∗ owns (c : Thread nD τ) a3 fullShare x1 ∗ owns (c : Thread nD τ) a4 fullShare x2
            ∗ owns (c : Thread nD τ) a5 fullShare (k0_pay3 (k0_pay2 i x0 x2 xs x1))
            ∗ owns (c : Thread nD τ) a6 fullShare (k0_pay2 i x0 x2 xs x1)) -∗ K ⟨⟩))
      ⊢ wp frame (wpE (defs₀ (F := F)) Variants.none c none) E (cc0__gather_scale_kernel i a2 h2 a3 h3 a4 h4 a5 h5 a6 h6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := h2.eq_unread hf0; obtain rfl := h3.eq_unread hf1; obtain rfl := h4.eq_unread hf2; obtain rfl := h6.eq_unread hfs
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (fun y => ⟨_, List.mem_cons_self .., View.mem_set_unit_zero off0 inb_S1024x128_S1024x128_0_0 y⟩)]
    rw [View.canon_unit_zero (S := S1024x128) off0, View.readCov_unit_zero (S := S1024x128) _ off0]
    simp only [View.readAt_eq_ld, h2.read_unread, h3.read_unread, h4.read_unread, h6.read_unread,
    View.ld_unit_zero (S := S1024x1) off0, View.ld_unit_zero (S := S4096x128) off0, View.ld_unit_zero (S := S1024x128) off0]
  iexists _; isplitr
  swap; · iexact HS
  ipureintro
  sl_unfold_words
  rw [View.read_writes_eq_canon _ _ _ (fun y => ⟨_, List.mem_cons_self .., View.mem_set_unit_zero off0 inb_S1024x128_S1024x128_0_0 y⟩)]
  rw [View.canon_unit_zero (S := S1024x128) off0]
  simp only [View.readAt_eq_ld, h2.read_unread, h3.read_unread, h4.read_unread, h6.read_unread,
    View.ld_unit_zero (S := S1024x1) off0, View.ld_unit_zero (S := S4096x128) off0, View.ld_unit_zero (S := S1024x128) off0]

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks at their literal types: the source words, the edge weights, the node features. -/
abbrev srcBlk (c : Dev nD) (t : Fin cfg0.N) : Vec F S1024x1 .i32 := iblk V c 0 t
abbrev nrmBlk (c : Dev nD) (t : Fin cfg0.N) : Vec F S1024x1 .f32 := iblk V c 1 t
abbrev xBlk (c : Dev nD) (t : Fin cfg0.N) : Vec F S4096x128 .f32 := iblk V c 2 t

/-- What the scratch accumulator holds after the body at point `n`: the point's update of zero at an edge tile's
    first point, of what the point before left otherwise. -/
def accAt (c : Dev nD) : (n : ℕ) → n < cfg0.N → Vec F S1024x128 .f32
  | 0, hn => k0_pay2 (grid0.coords ⟨0, hn⟩) (srcBlk V c ⟨0, hn⟩) (xBlk V c ⟨0, hn⟩) (k0_pay1 (F := F)) (nrmBlk V c ⟨0, hn⟩)
  | n + 1, hn => k0_pay2 (grid0.coords ⟨n + 1, hn⟩) (srcBlk V c ⟨n + 1, hn⟩) (xBlk V c ⟨n + 1, hn⟩)
      (if (n + 1) % 13 = 0 then k0_pay1 (F := F) else accAt c n (Nat.lt_of_succ_lt hn)) (nrmBlk V c ⟨n + 1, hn⟩)

/-- What the output block holds after the body at point `t` when the body stores it (an edge tile's last point);
    at the other points the window is idle and this value is never consulted. -/
def outAt (c : Dev nD) (t : Fin cfg0.N) : Vec F S1024x128 .bf16 := k0_pay3 (accAt V c t.val t.isLt)

/-- The scratch operand as a memref. -/
abbrev scM : Memref sig .tc .vmem S1024x128 .f32 := Memref.whole cc0_scratch0

/-! ## The scoped rest -/

/-- A scoped buffer of the core, whole, at some contents. -/
def held (c : Dev nD) (b : Ref sig .tc) : sProp 𝕄 :=
  iprop(∃ f : Buf (Elt F) ((c : Thread nD τ).loc b), ((c : Thread nD τ).loc b) ↦{fullShare} f)

/-- The other region's staging and scratch buffers, each at some contents. -/
def others (c : Dev nD) : sProp 𝕄 :=
  iprop(held (F := F) c cc1_stg0_0 ∗ held (F := F) c cc1_stg0_1 ∗ held (F := F) c cc1_stg1_0 ∗ held (F := F) c cc1_stg1_1
      ∗ held (F := F) c cc1_stg2_0 ∗ held (F := F) c cc1_stg2_1 ∗ held (F := F) c cc1_stg3_0 ∗ held (F := F) c cc1_stg4_0
      ∗ held (F := F) c cc1_stg4_1 ∗ held (F := F) c cc1_scratch0)

/-- What the invariant carries through this region untouched: those buffers and the generator register at some state. -/
def restS (c : Dev nD) : sProp 𝕄 := iprop(others (F := F) c ∗ (∃ r, prngReg c r))

/-- The launch's scoped rest is this region's scratch, at some contents, beside what it carries through. -/
theorem PhiA_eq (c : Dev nD) :
    (Pipeline.ΦA spec0 c : sProp 𝕄) = iprop((∃ d, owns (c : Thread nD τ) scM fullShare d) ∗ restS (F := F) c) := by
  have e : (Pipeline.ΦA spec0 c : sProp 𝕄)
      = iprop(((∃ d, owns (c : Thread nD τ) scM fullShare d) ∗ others (F := F) c) ∗ (∃ r, prngReg c r)) := by
    unfold Pipeline.ΦA others held; rw [scopedRest0_eq]; simp only [scM, owns_whole]; try rfl
  have h₁ : (iprop(((∃ d, owns (c : Thread nD τ) scM fullShare d) ∗ others (F := F) c) ∗ (∃ r, prngReg c r)) : sProp 𝕄)
      ⊢ iprop((∃ d, owns (c : Thread nD τ) scM fullShare d) ∗ restS (F := F) c) := by
    unfold restS
    iintro ⟨⟨HA, HR⟩, Hg⟩
    isplitl [HA]; · iexact HA
    isplitl [HR]; · iexact HR
    iexact Hg
  have h₂ : (iprop((∃ d, owns (c : Thread nD τ) scM fullShare d) ∗ restS (F := F) c) : sProp 𝕄)
      ⊢ iprop(((∃ d, owns (c : Thread nD τ) scM fullShare d) ∗ others (F := F) c) ∗ (∃ r, prngReg c r)) := by
    unfold restS
    iintro ⟨HA, HR, Hg⟩
    isplitl [HA HR]
    · isplitl [HA]; · iexact HA
      iexact HR
    iexact Hg
  rw [e]; exact BI.equiv_iff.mp ⟨h₁, h₂⟩

/-- The region invariant before position `n`: before the first point every scoped buffer the pipeline does not stage at
    anything; afterwards the scratch at what the point before left, the rest carried through. -/
def PhiS (c : Dev nD) : (n : ℕ) → n ≤ cfg0.N → sProp 𝕄
  | 0, _ => Pipeline.ΦA spec0 c
  | n + 1, hn => iprop(owns (c : Thread nD τ) scM fullShare (accAt V c n hn) ∗ restS (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (accAt V c n hn) ∗ restS (F := F) c) := rfl

theorem PhiS_pos (c : Dev nD) (n : ℕ) (h : n ≤ cfg0.N) (hz : n ≠ 0) :
    PhiS V c n h = iprop(owns (c : Thread nD τ) scM fullShare (accAt V c (n - 1) (by omega)) ∗ restS (F := F) c) := by
  cases n with
  | zero => exact absurd rfl hz
  | succ n => rfl

/-- The proof data: the arrays as the region finds them; after the body each input's buffer at its block, the
    output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = outAt V c t := by dsimp only [dat0]

/-! ## The accumulator's recursion at a point -/

/-- At an edge tile's first node tile the accumulator is the point's update of the zero fill; -/
theorem accAt_first (c : Dev nD) (t : Fin cfg0.N) (h : t.val % 13 = 0) :
    accAt V c t.val t.isLt
      = k0_pay2 (grid0.coords t) (srcBlk V c t) (xBlk V c t) (k0_pay1 (F := F)) (nrmBlk V c t) := by
  obtain ⟨n, hn⟩ := t
  cases n with
  | zero => rfl
  | succ n =>
    have h' : (n + 1) % 13 = 0 := h
    show k0_pay2 _ _ _ (if (n + 1) % 13 = 0 then k0_pay1 (F := F) else accAt V c n (Nat.lt_of_succ_lt hn)) _ = _
    rw [if_pos h']

/-- elsewhere the point's update of what the point before left. -/
theorem accAt_next (c : Dev nD) (t : Fin cfg0.N) (h : ¬t.val % 13 = 0) :
    accAt V c t.val t.isLt
      = k0_pay2 (grid0.coords t) (srcBlk V c t) (xBlk V c t)
          (accAt V c (t.val - 1) (Nat.lt_of_le_of_lt (Nat.sub_le _ _) t.isLt)) (nrmBlk V c t) := by
  obtain ⟨n, hn⟩ := t
  cases n with
  | zero => exact absurd (Nat.zero_mod _) h
  | succ n =>
    have h' : ¬(n + 1) % 13 = 0 := h
    show k0_pay2 _ _ _ (if (n + 1) % 13 = 0 then k0_pay1 (F := F) else accAt V c n (Nat.lt_of_succ_lt hn)) _ = _
    rw [if_neg h']; rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## What the body finds in the inputs' buffers -/

/-- Each input's current staging buffer holds its block at every point, fetched there or not: where the pipeline does
    not fetch it the block index has not moved, and the body left the block in place. -/
theorem before_0 (c : Dev nD) (t : Fin cfg0.N) (d) : (dat0 V c).before 0 t d = iblk V c 0 t :=
  ((dat0 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- Each window's current staging memref at point `t`, as the pipeline passes it, and its wholeness. -/
abbrev ms0 (t : Fin cfg0.N) : Memref sig .tc .vmem S1024x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the position's residue mod 13 says which of the three
    runs applies; the invariant hands the body the scratch (at anything before the first point, else at what the point
    before left) and takes it back at this point's accumulator; the output's memref goes back untouched where the window
    is idle and at the accumulator narrowed at an edge tile's last node tile; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live_0 t], after_0]
  rw [show (dat0 V c).leavesExact 1 t = owns (c : Thread nD τ) (ms1 t) fullShare ((dat0 V c).after 1 t) from by
    unfold Dat.leavesExact; rw [live_1 t], after_1]
  rw [show (dat0 V c).leavesExact 2 t = owns (c : Thread nD τ) (ms2 t) fullShare ((dat0 V c).after 2 t) from by
    unfold Dat.leavesExact; rw [live_2 t], after_2]
  have hN : t.val < 7618 := lt_of_lt_of_eq t.isLt (show cfg0.N = 7618 from N_0)
  by_cases h0 : t.val % 13 = 0
  · have hF : atFirst (grid0.coords t) := (atFirst_iff t).mpr h0
    have hL : ¬atLast (grid0.coords t) := fun h => by have := (atLast_iff t).mp h; omega
    rw [Dat.leavesExact_idle (dat0 V c) 3 t (out_idle t hL) (out_noFlush t hL)]
    rw [accAt_first V c t h0]
    by_cases hz : t.val = 0
    · rw [PhiS_castSucc V c t, PhiS_zero V c _ _ hz, PhiA_eq]
      iintro ⟨⟨HS, HR⟩, Ho, ⟨%d0, H0⟩, ⟨%d1, H1⟩, ⟨%d2, H2⟩, ⟨%d3, H3⟩⟩
      iapply (run_first c (grid0.coords t) _ (hs0 t) _ (hs1 t) _ (hs2 t) _ (hs3 t) _ (Memref.isWhole_whole _) hF hL
        (srcBlk V c t) (nrmBlk V c t) (xBlk V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, HR⟩, Ho, ⟨%d0, H0⟩, ⟨%d1, H1⟩, ⟨%d2, H2⟩, ⟨%d3, H3⟩⟩
      iapply (run_first c (grid0.coords t) _ (hs0 t) _ (hs1 t) _ (hs2 t) _ (hs3 t) _ (Memref.isWhole_whole _) hF hL
        (srcBlk V c t) (nrmBlk V c t) (xBlk V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3
  · have hF : ¬atFirst (grid0.coords t) := fun h => h0 ((atFirst_iff t).mp h)
    have hz : t.val ≠ 0 := fun e => h0 (by rw [e])
    rw [accAt_next V c t h0]
    rw [PhiS_castSucc V c t, PhiS_pos V c _ _ hz]
    by_cases h1 : t.val % 13 = 12
    · have hL : atLast (grid0.coords t) := (atLast_iff t).mpr h1
      rw [show (dat0 V c).leavesExact 3 t = owns (c : Thread nD τ) (ms3 t) fullShare ((dat0 V c).after 3 t) from by
        unfold Dat.leavesExact; rw [out_live t hL], after_3]
      unfold outAt
      rw [accAt_next V c t h0]
      iintro ⟨⟨HS, HR⟩, Ho, ⟨%d0, H0⟩, ⟨%d1, H1⟩, ⟨%d2, H2⟩, ⟨%d3, H3⟩⟩
      iapply (run_last c (grid0.coords t) _ (hs0 t) _ (hs1 t) _ (hs2 t) _ (hs3 t) _ (Memref.isWhole_whole _) hF hL
        (srcBlk V c t) (nrmBlk V c t) (xBlk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · have hL : ¬atLast (grid0.coords t) := fun h => h1 ((atLast_iff t).mp h)
      rw [Dat.leavesExact_idle (dat0 V c) 3 t (out_idle t hL) (out_noFlush t hL)]
      iintro ⟨⟨HS, HR⟩, Ho, ⟨%d0, H0⟩, ⟨%d1, H1⟩, ⟨%d2, H2⟩, ⟨%d3, H3⟩⟩
      iapply (run_mid c (grid0.coords t) _ (hs0 t) _ (hs1 t) _ (hs2 t) _ (hs3 t) _ (Memref.isWhole_whole _) hF hL
        (srcBlk V c t) (nrmBlk V c t) (xBlk V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]

/-- After any point the invariant gives the scoped rest back: the scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨HS, HR⟩
  isplitl [HS]
  · iexists _; iexact HS
  iexact HR

/-- After the last point the invariant gives the scoped rest back, the scratch's contents forgotten. -/
theorem hout (c : Dev nD) : (dat0 V c).Φ (Fin.last cfg0.N) ⊢ Pipeline.ΦA spec0 c :=
  Phi_out V c _ (by rw [Fin.val_last]; have : cfg0.N = 7618 := N_0; omega)

end Cert.KernelIdeal.Gather

end
-- ==== Proof.ScatterFrame.lean ====
/-
  The second kernel region (the sum into destinations, the residual mix and the linear blend): its proof data and
  body obligation, at any float family.

  The grid is 13 node tiles × 586 edge tiles, the edge tile innermost.  At a point the body resets a scratch
  accumulator if the edge tile is the first, adds to it the product of the 0/1 matrix `[n = dst e]` with the edge
  tile's messages, and at the last edge tile mixes the accumulator with the initial features, multiplies the mix by
  the transposed weights and stores the blend into the output block.  What the scratch holds after point `n` is a
  recursion over the points (`accAt`); the output block written back at a node tile's last point is `outAt`.
-/
import proofs.«401625_j82231443849285_1_alg».proof.Proof.Gen.KernelIdeal.Launch
import proofs.«401625_j82231443849285_1_alg».proof.Proof.Gen.KernelIdeal.Skeleton
import proofs.«401625_j82231443849285_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks at their literal types: the destination words, the messages, the initial features, the transposed weights. -/
abbrev dstBlk (c : Dev nD) (t : Fin cfg1.N) : Vec F S1x1024 .i32 := iblk V c 0 t
abbrev msgBlk (c : Dev nD) (t : Fin cfg1.N) : Vec F S1024x128 .bf16 := iblk V c 1 t
abbrev x0Blk (c : Dev nD) (t : Fin cfg1.N) : Vec F S4096x128 .f32 := iblk V c 2 t
abbrev wtBlk (c : Dev nD) (t : Fin cfg1.N) : Vec F S128x128 .f32 := iblk V c 3 t

/-- What the scratch accumulator holds after the body at point `n`: the point's update of zero at a node tile's
    first point, of what the point before left otherwise. -/
def accAt (c : Dev nD) : (n : ℕ) → n < cfg1.N → Vec F S4096x128 .f32
  | 0, hn => k1_pay2 (grid1.coords ⟨0, hn⟩) (dstBlk V c ⟨0, hn⟩) (msgBlk V c ⟨0, hn⟩) (k1_pay1 (F := F))
  | n + 1, hn => k1_pay2 (grid1.coords ⟨n + 1, hn⟩) (dstBlk V c ⟨n + 1, hn⟩) (msgBlk V c ⟨n + 1, hn⟩)
      (if (n + 1) % 586 = 0 then k1_pay1 (F := F) else accAt c n (Nat.lt_of_succ_lt hn))

/-- What the output block holds after the body at point `t` when the body stores it (a node tile's last point);
    at the other points the window is idle and this value is never consulted. -/
def outAt (c : Dev nD) (t : Fin cfg1.N) : Vec F S4096x128 .f32 :=
  k1_pay3 (accAt V c t.val t.isLt) (x0Blk V c t) (wtBlk V c t)

/-- The scratch operand as a memref. -/
abbrev scM : Memref sig .tc .vmem S4096x128 .f32 := Memref.whole cc1_scratch0

/-! ## The scoped rest: this region's scratch, and what the other region owns -/

/-- The other region's staging buffers and scratch, each whole at some contents, and the generator register at some
    state: what this region's body never touches and every point hands on unchanged. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ r, prngReg c r))

/-- The region invariant before position `n`: before the first point what the launch hands the region; afterwards
    the scratch at what the point before left in it (`accAt`), beside the rest, unchanged. -/
def PhiS (c : Dev nD) : (n : ℕ) → n ≤ cfg1.N → sProp 𝕄
  | 0, _ => Pipeline.ΦA spec1 c
  | n + 1, hn => iprop(owns (c : Thread nD τ) scM fullShare (accAt V c n hn) ∗ restS (F := F) c)

/-- The proof data: the arrays as the region finds them; after the body each input's buffer at its block, the
    output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat1 V c).A w = V c (Pipeline.arrRef spec1 w) := by
  dsimp only [dat1]

theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = outAt V c t := by dsimp only [dat1]

/-! ## The body's two conditions, decided over the grid -/

/-- The first conditional's test: the edge-tile coordinate is zero. -/
abbrev condFirst (i : grid1.Coords) : Prop :=
  (Scalar.cmpi .ne (Scalar.extui (Scalar.cmpi .eq (BitVec.ofNat 32 (i 1).val) 0#32)) 0#32) = 1#1
/-- It holds exactly at a node tile's first point. -/
theorem hcondFirst : ∀ t : Fin cfg1.N, condFirst (grid1.coords t) ↔ t.val % 586 = 0 :=
  (by decide +kernel : ∀ t : Fin grid1.N, condFirst (grid1.coords t) ↔ t.val % 586 = 0)

/-- The second conditional's test: the edge-tile coordinate is the last. -/
abbrev condLast (i : grid1.Coords) : Prop := k1_cond2 i = 1#1
/-- It holds exactly at a node tile's last point. -/
theorem hcondLast : ∀ t : Fin cfg1.N, condLast (grid1.coords t) ↔ t.val % 586 = 585 :=
  (by decide +kernel : ∀ t : Fin grid1.N, condLast (grid1.coords t) ↔ t.val % 586 = 585)

/-! ## Where the output window is idle -/

/-- Away from a node tile's last point the output window is idle -/
theorem idle_out : ∀ t : Fin cfg1.N, ¬condLast (grid1.coords t) → cfg1.idle 4 (grid1.coords t) = true := by decide +kernel
/-- and is not written back; -/
theorem noFlush_out : ∀ t : Fin cfg1.N, ¬condLast (grid1.coords t) → (cfg1.win 4).flush t = false := by decide +kernel
/-- at the last point it is live. -/
theorem live_out : ∀ t : Fin cfg1.N, condLast (grid1.coords t) → cfg1.idle 4 (grid1.coords t) = false := by decide +kernel

/-! ## The inputs' staging buffers hold their blocks -/

/-- The destination words' current buffer holds the point's block, fetched there or not. -/
theorem before_0 (c : Dev nD) (t : Fin cfg1.N) (d) : (dat1 V c).before 0 t d = iblk V c 0 t :=
  ((dat1 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- So does the messages', -/
theorem before_1 (c : Dev nD) (t : Fin cfg1.N) (d) : (dat1 V c).before 1 t d = iblk V c 1 t :=
  ((dat1 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- the initial features' (fetched only at a node tile's first point: in between the block index does not move), -/
theorem before_2 (c : Dev nD) (t : Fin cfg1.N) (d) : (dat1 V c).before 2 t d = iblk V c 2 t :=
  ((dat1 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- and the transposed weights' (fetched once). -/
theorem before_3 (c : Dev nD) (t : Fin cfg1.N) (d) : (dat1 V c).before 3 t d = iblk V c 3 t :=
  ((dat1 V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- What the launch hands the region splits into this region's scratch at some contents and the rest. -/
theorem PhiA_split (c : Dev nD) :
    (Pipeline.ΦA spec1 c : sProp 𝕄) ⊢ iprop((∃ d, owns (c : Thread nD τ) scM fullShare d) ∗ restS (F := F) c) := by
  unfold Pipeline.ΦA restS; rw [scopedRest1_eq]; simp only [scM, owns_whole]
  iintro ⟨⟨H0, H1, H2, H3, H4, H5, H6, H7, H8, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hg

/-- And back: the scratch's contents forgotten. -/
theorem PhiA_join (c : Dev nD) :
    iprop((∃ d, owns (c : Thread nD τ) scM fullShare d) ∗ restS (F := F) c) ⊢ (Pipeline.ΦA spec1 c : sProp 𝕄) := by
  unfold Pipeline.ΦA restS; rw [scopedRest1_eq]; simp only [scM, owns_whole]
  iintro ⟨HS, H0, H1, H2, H3, H4, H5, H6, H7, H8, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-! ## The body's three runs -/

set_option maxHeartbeats 1000000 in
/-- AT A NODE TILE'S FIRST POINT (first conditional taken, second not). On whole memrefs — the inputs' at their
    contents, the output's at contents handed back untouched, the scratch at anything — the body runs to a continuation
    holding the inputs and the output as they were and the scratch with the pieces `LS` written: the reset, then the
    update that reads it back. The pieces are the witness the run finds. -/
noncomputable def runFirst (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : condFirst i) (hc1 : ¬condLast i)
    (x0 : Vec F S1x1024 .i32) (x1 : Vec F S1024x128 .bf16) (x2 : Vec F S4096x128 .f32) (x3 : Vec F S128x128 .f32) :
    { LS : List (View.Piece (Elt F) S4096x128 .f32) //
      ∀ (xi4 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__scatter_finalize_kernel i arg2 harg2 arg3 harg3 arg4 harg4 arg5 harg5 arg6 harg6 arg7 harg7) K } := by
  refine ⟨?_, fun xi4 E K => ?run⟩
  case run =>
    simp only [cc1__scatter_finalize_kernel_eq_skeleton]; unfold cc1__scatter_finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- AT A MIDDLE POINT (neither conditional taken): the same with the scratch at the contents `xs` the point before
    left; the one piece written is the update of `xs`. -/
noncomputable def runMiddle (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : ¬condLast i)
    (x0 : Vec F S1x1024 .i32) (x1 : Vec F S1024x128 .bf16) (x2 : Vec F S4096x128 .f32) (x3 : Vec F S128x128 .f32) (xs : Vec F S4096x128 .f32) :
    { LS : List (View.Piece (Elt F) S4096x128 .f32) //
      ∀ (xi4 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__scatter_finalize_kernel i arg2 harg2 arg3 harg3 arg4 harg4 arg5 harg5 arg6 harg6 arg7 harg7) K } := by
  refine ⟨?_, fun xi4 E K => ?run⟩
  case run =>
    simp only [cc1__scatter_finalize_kernel_eq_skeleton]; unfold cc1__scatter_finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- AT A NODE TILE'S LAST POINT (first conditional not taken, second taken): the output's memref at anything; the
    body updates the scratch as at a middle point, reads it back with the initial features and the weights, and stores
    the blend over the whole output block (`LO`). -/
noncomputable def runLast (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : condLast i)
    (x0 : Vec F S1x1024 .i32) (x1 : Vec F S1024x128 .bf16) (x2 : Vec F S4096x128 .f32) (x3 : Vec F S128x128 .f32) (xs : Vec F S4096x128 .f32) :
    Σ' (LO : List (View.Piece (Elt F) S4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__scatter_finalize_kernel i arg2 harg2 arg3 harg3 arg4 harg4 arg5 harg5 arg6 harg6 arg7 harg7) K } := by
  refine ⟨?_, ?_, fun E K => ?run⟩
  case run =>
    simp only [cc1__scatter_finalize_kernel_eq_skeleton]; unfold cc1__scatter_finalize_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each run leaves, read back as the payload terms -/

/-- Both index offsets are zero. -/
theorem zeroOffs : (![0, 0] : Fin 2 → Nat) = fun _ => 0 := funext fun a => by fin_cases a <;> rfl

/-- The first point's pieces cover the scratch (each is a store of the whole buffer). -/
theorem coverFirst (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : condFirst i) (hc1 : ¬condLast i)
    (x0 : Vec F S1x1024 .i32) (x1 : Vec F S1024x128 .bf16) (x2 : Vec F S4096x128 .f32) (x3 : Vec F S128x128 .f32) (y : S4096x128.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S4096x128.size (by sl_kernel_rfl) y

/-- What the first point leaves in the scratch, through any view and over any prior contents: the update of the zero
    fill by the point's destination words and messages (the later store covers; it read the fill back). -/
theorem leftFirst (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : condFirst i) (hc1 : ¬condLast i)
    (x0 : Vec F S1x1024 .i32) (x1 : Vec F S1024x128 .bf16) (x2 : Vec F S4096x128 .f32) (x3 : Vec F S128x128 .f32) (v : View sig .tc .vmem S4096x128 .f32) (f : v.ty.Contents (Elt F)) :
    v.read (Elt F) (v.writes (Elt F) f (runFirst c i arg2 harg2 arg3 harg3 arg4 harg4 arg5 harg5 arg6 harg6 arg7 harg7 hc0 hc1 x0 x1 x2 x3).1)
      = k1_pay2 i x0 x1 (k1_pay1 (F := F)) := by
  rw [View.read_writes_eq_canon _ _ _ (coverFirst c i arg2 harg2 arg3 harg3 arg4 harg4 arg5 harg5 arg6 harg6 arg7 harg7 hc0 hc1 x0 x1 x2 x3)]
  unfold runFirst; dsimp only; sl_unfold_words
  rw [View.canon_cons_unit_zero (S := S4096x128) zeroOffs]
  simp only [View.readAt_eq_ld, harg2.read_unread, harg3.read_unread, View.ld_unit_zero (S := S1x1024) zeroOffs,
    View.ld_unit_zero (S := S1024x128) zeroOffs, View.readCov_unit_zero (S := S4096x128) _ zeroOffs]

/-- A middle point's one piece covers the scratch. -/
theorem coverMiddle (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : ¬condLast i)
    (x0 : Vec F S1x1024 .i32) (x1 : Vec F S1024x128 .bf16) (x2 : Vec F S4096x128 .f32) (x3 : Vec F S128x128 .f32) (xs : Vec F S4096x128 .f32) (y : S4096x128.Idx) :
    ∃ pc ∈ (runMiddle c i arg2 harg2 arg3 harg3 arg4 harg4 arg5 harg5 arg6 harg6 arg7 harg7 hc0 hc1 x0 x1 x2 x3 xs).1, y ∈ pc.1.set :=
  View.cover_of_tiledL (runMiddle c i arg2 harg2 arg3 harg3 arg4 harg4 arg5 harg5 arg6 harg6 arg7 harg7 hc0 hc1 x0 x1 x2 x3 xs).1 S4096x128.size (by sl_kernel_rfl) y

/-- What a middle point leaves in the scratch: the update of what it found there. -/
theorem leftMiddle (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : ¬condLast i)
    (x0 : Vec F S1x1024 .i32) (x1 : Vec F S1024x128 .bf16) (x2 : Vec F S4096x128 .f32) (x3 : Vec F S128x128 .f32) (xs : Vec F S4096x128 .f32) (v : View sig .tc .vmem S4096x128 .f32) (f : v.ty.Contents (Elt F)) :
    v.read (Elt F) (v.writes (Elt F) f (runMiddle c i arg2 harg2 arg3 harg3 arg4 harg4 arg5 harg5 arg6 harg6 arg7 harg7 hc0 hc1 x0 x1 x2 x3 xs).1)
      = k1_pay2 i x0 x1 xs := by
  rw [View.read_writes_eq_canon _ _ _ (coverMiddle c i arg2 harg2 arg3 harg3 arg4 harg4 arg5 harg5 arg6 harg6 arg7 harg7 hc0 hc1 x0 x1 x2 x3 xs)]
  unfold runMiddle; dsimp only; sl_unfold_words
  rw [View.canon_unit_zero (S := S4096x128) zeroOffs]
  simp only [View.readAt_eq_ld, harg2.read_unread, harg3.read_unread, harg7.read_unread, View.ld_unit_zero (S := S1x1024) zeroOffs,
    View.ld_unit_zero (S := S1024x128) zeroOffs, View.ld_unit_zero (S := S4096x128) zeroOffs]

/-- The last point's scratch piece covers the scratch, -/
theorem coverLastAcc (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : condLast i)
    (x0 : Vec F S1x1024 .i32) (x1 : Vec F S1024x128 .bf16) (x2 : Vec F S4096x128 .f32) (x3 : Vec F S128x128 .f32) (xs : Vec F S4096x128 .f32) (y : S4096x128.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S4096x128.size (by sl_kernel_rfl) y

/-- and its output piece the output block. -/
theorem coverLastOut (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : condLast i)
    (x0 : Vec F S1x1024 .i32) (x1 : Vec F S1024x128 .bf16) (x2 : Vec F S4096x128 .f32) (x3 : Vec F S128x128 .f32) (xs : Vec F S4096x128 .f32) (y : S4096x128.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S4096x128.size (by sl_kernel_rfl) y

/-- What the last point leaves in the scratch: the update of what it found, as at a middle point. -/
theorem leftLastAcc (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : condLast i)
    (x0 : Vec F S1x1024 .i32) (x1 : Vec F S1024x128 .bf16) (x2 : Vec F S4096x128 .f32) (x3 : Vec F S128x128 .f32) (xs : Vec F S4096x128 .f32) (v : View sig .tc .vmem S4096x128 .f32) (f : v.ty.Contents (Elt F)) :
    v.read (Elt F) (v.writes (Elt F) f (runLast c i arg2 harg2 arg3 harg3 arg4 harg4 arg5 harg5 arg6 harg6 arg7 harg7 hc0 hc1 x0 x1 x2 x3 xs).2.1)
      = k1_pay2 i x0 x1 xs := by
  rw [View.read_writes_eq_canon _ _ _ (coverLastAcc c i arg2 harg2 arg3 harg3 arg4 harg4 arg5 harg5 arg6 harg6 arg7 harg7 hc0 hc1 x0 x1 x2 x3 xs)]
  unfold runLast; dsimp only; sl_unfold_words
  rw [View.canon_unit_zero (S := S4096x128) zeroOffs]
  simp only [View.readAt_eq_ld, harg2.read_unread, harg3.read_unread, harg7.read_unread, View.ld_unit_zero (S := S1x1024) zeroOffs,
    View.ld_unit_zero (S := S1024x128) zeroOffs, View.ld_unit_zero (S := S4096x128) zeroOffs]

/-- What the last point leaves in the output block: the blend of that updated accumulator (read back from the scratch)
    with the initial features and the transposed weights. -/
theorem leftLastOut (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S4096x128 .f32) (harg4 : arg4.IsWhole) (arg5 : Memref sig .tc .vmem S128x128 .f32) (harg5 : arg5.IsWhole) (arg6 : Memref sig .tc .vmem S4096x128 .f32) (harg6 : arg6.IsWhole) (arg7 : Memref sig .tc .vmem S4096x128 .f32) (harg7 : arg7.IsWhole) (hc0 : ¬condFirst i) (hc1 : condLast i)
    (x0 : Vec F S1x1024 .i32) (x1 : Vec F S1024x128 .bf16) (x2 : Vec F S4096x128 .f32) (x3 : Vec F S128x128 .f32) (xs : Vec F S4096x128 .f32) (v : View sig .tc .vmem S4096x128 .f32) (f : v.ty.Contents (Elt F)) :
    v.read (Elt F) (v.writes (Elt F) f (runLast c i arg2 harg2 arg3 harg3 arg4 harg4 arg5 harg5 arg6 harg6 arg7 harg7 hc0 hc1 x0 x1 x2 x3 xs).1)
      = k1_pay3 (k1_pay2 i x0 x1 xs) x2 x3 := by
  rw [View.read_writes_eq_canon _ _ _ (coverLastOut c i arg2 harg2 arg3 harg3 arg4 harg4 arg5 harg5 arg6 harg6 arg7 harg7 hc0 hc1 x0 x1 x2 x3 xs)]
  unfold runLast; dsimp only; sl_unfold_words
  rw [View.canon_unit_zero (S := S4096x128) zeroOffs]
  simp only [View.readAt_eq_ld, harg2.read_unread, harg3.read_unread, harg4.read_unread, harg5.read_unread, harg7.read_unread,
    View.ld_unit_zero (S := S1x1024) zeroOffs, View.ld_unit_zero (S := S1024x128) zeroOffs, View.ld_unit_zero (S := S4096x128) zeroOffs,
    View.ld_unit_zero (S := S128x128) zeroOffs, View.readCov_unit_zero (S := S4096x128) _ zeroOffs]

/-! ## The accumulator, point by point -/

/-- At a node tile's first point the accumulator is the point's update of zero. -/
theorem accAt_first (c : Dev nD) (t : Fin cfg1.N) (h0 : t.val % 586 = 0) :
    accAt V c t.val t.isLt = k1_pay2 (grid1.coords t) (dstBlk V c t) (msgBlk V c t) (k1_pay1 (F := F)) := by
  obtain ⟨n, hn⟩ := t
  cases n with
  | zero => rfl
  | succ n => unfold accAt; rw [if_pos h0]

/-- At any other point it is the point's update of what the point before left. -/
theorem accAt_next (c : Dev nD) (t : Fin cfg1.N) (h0 : ¬t.val % 586 = 0) :
    accAt V c t.val t.isLt = k1_pay2 (grid1.coords t) (dstBlk V c t) (msgBlk V c t)
      (accAt V c (t.val - 1) (Nat.lt_of_le_of_lt (Nat.sub_le _ _) t.isLt)) := by
  obtain ⟨n, hn⟩ := t
  cases n with
  | zero => exact absurd (Nat.zero_mod _) h0
  | succ n =>
    have e : accAt V c (n + 1) hn = k1_pay2 (grid1.coords ⟨n + 1, hn⟩) (dstBlk V c ⟨n + 1, hn⟩) (msgBlk V c ⟨n + 1, hn⟩)
        (if (n + 1) % 586 = 0 then k1_pay1 (F := F) else accAt V c n (Nat.lt_of_succ_lt hn)) := rfl
    rw [if_neg h0] at e
    exact e

/-! ## The invariant -/

/-- What the launch hands the region IS this region's scratch at some contents beside the rest. -/
theorem PhiA_eq (c : Dev nD) :
    (Pipeline.ΦA spec1 c : sProp 𝕄) = iprop((∃ d, owns (c : Thread nD τ) scM fullShare d) ∗ restS (F := F) c) :=
  BI.equiv_iff.mp ⟨PhiA_split c, PhiA_join c⟩

theorem PhiS_zero (c : Dev nD) (n : ℕ) (h : n ≤ cfg1.N) (hn : n = 0) : PhiS V c n h = Pipeline.ΦA spec1 c := by
  subst hn; rfl

/-- After point `n`: the scratch at that point's accumulator, the rest as it was. -/
theorem PhiS_succ (c : Dev nD) (n : ℕ) (hn : n < cfg1.N) :
    PhiS V c (n + 1) hn = iprop(owns (c : Thread nD τ) scM fullShare (accAt V c n hn) ∗ restS (F := F) c) := rfl

/-- Before a point that is not the first: the scratch at what the point before left. -/
theorem PhiS_pos (c : Dev nD) (n : ℕ) (h : n ≤ cfg1.N) (hn : n ≠ 0) :
    PhiS V c n h = iprop(owns (c : Thread nD τ) scM fullShare (accAt V c (n - 1) (by omega)) ∗ restS (F := F) c) := by
  cases n with
  | zero => exact absurd rfl hn
  | succ n => rfl

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-! ## The body obligation, at a generic point -/

/-- Each window's current staging memref at point `t`, as the pipeline passes it, and its wholeness. -/
abbrev ms0 (t : Fin cfg1.N) : Memref sig .tc .vmem S1x1024 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S4096x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S4096x128 .f32 := win1_4.stage (cfg1.slots t 4)
abbrev hs4 (t : Fin cfg1.N) : (ms4 t).IsWhole := hstage1_4 ((cfg1.slots t 4).cast nbuf1_4)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The inputs are never idle: each is left at its block. -/
theorem leaves_0 (c : Dev nD) (t : Fin cfg1.N) :
    (dat1 V c).leavesExact 0 t = owns (c : Thread nD τ) (ms0 t) fullShare (iblk V c 0 t) := by
  rw [show (dat1 V c).leavesExact 0 t = owns (c : Thread nD τ) (ms0 t) fullShare ((dat1 V c).after 0 t) from rfl, after_0]
theorem leaves_1 (c : Dev nD) (t : Fin cfg1.N) :
    (dat1 V c).leavesExact 1 t = owns (c : Thread nD τ) (ms1 t) fullShare (iblk V c 1 t) := by
  rw [show (dat1 V c).leavesExact 1 t = owns (c : Thread nD τ) (ms1 t) fullShare ((dat1 V c).after 1 t) from rfl, after_1]
theorem leaves_2 (c : Dev nD) (t : Fin cfg1.N) :
    (dat1 V c).leavesExact 2 t = owns (c : Thread nD τ) (ms2 t) fullShare (iblk V c 2 t) := by
  rw [show (dat1 V c).leavesExact 2 t = owns (c : Thread nD τ) (ms2 t) fullShare ((dat1 V c).after 2 t) from rfl, after_2]
theorem leaves_3 (c : Dev nD) (t : Fin cfg1.N) :
    (dat1 V c).leavesExact 3 t = owns (c : Thread nD τ) (ms3 t) fullShare (iblk V c 3 t) := by
  rw [show (dat1 V c).leavesExact 3 t = owns (c : Thread nD τ) (ms3 t) fullShare ((dat1 V c).after 3 t) from rfl, after_3]

set_option maxHeartbeats 4800000 in
/-- The body at any point. The inputs' memrefs hold their blocks; the point's position modulo 586 says which run
    applies. The invariant hands the body the scratch at what the point before left (at anything before the very first
    point), and takes it back at this point's accumulator: at a node tile's first point the update of zero, elsewhere
    the update of what was found. The output's buffer is handed back untouched away from a node tile's last point,
    and there holds the blend of this point's accumulator. The rest and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [leaves_0, leaves_1, leaves_2, leaves_3]
  have hN : t.val < 7618 := lt_of_lt_of_eq t.isLt (show cfg1.N = 7618 from N_1)
  by_cases h0 : t.val % 586 = 0
  · have h1 : ¬t.val % 586 = 585 := by omega
    have hc0 : condFirst (grid1.coords t) := (hcondFirst t).mpr h0
    have hc1 : ¬condLast (grid1.coords t) := fun h => h1 ((hcondLast t).mp h)
    rw [Dat.leavesExact_idle (dat1 V c) 4 t (idle_out t hc1) (noFlush_out t hc1)]
    rw [accAt_first V c t h0]
    by_cases hfirst : t.val = 0
    · rw [PhiS_castSucc V c t, PhiS_zero V c _ _ hfirst, PhiA_eq]
      iintro ⟨⟨HS, Hr⟩, Ho, ⟨%d0, H0⟩, ⟨%d1, H1⟩, ⟨%d2, H2⟩, ⟨%d3, H3⟩, ⟨%d4, H4⟩⟩
      iapply ((runFirst c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hr]
      · isplitl [HS]
        · unfold owns; iexists _; isplitr
          swap; · iexact HS
          ipureintro; exact leftFirst c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) scM.view es
        iexact Hr
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hfirst]
      iintro ⟨⟨HS, Hr⟩, Ho, ⟨%d0, H0⟩, ⟨%d1, H1⟩, ⟨%d2, H2⟩, ⟨%d3, H3⟩, ⟨%d4, H4⟩⟩
      iapply ((runFirst c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hr]
      · isplitl [HS]
        · unfold owns; iexists _; isplitr
          swap; · iexact HS
          ipureintro; exact leftFirst c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) scM.view es
        iexact Hr
      isplitl [Ho]; · iexact Ho
      isplitl [H0]; · iexact H0
      isplitl [H1]; · iexact H1
      isplitl [H2]; · iexact H2
      isplitl [H3]; · iexact H3
      iexists _; iexact H4
  · have hc0 : ¬condFirst (grid1.coords t) := fun h => h0 ((hcondFirst t).mp h)
    have hfirst : t.val ≠ 0 := fun e => h0 (by rw [e])
    by_cases h1 : t.val % 586 = 585
    · have hc1 : condLast (grid1.coords t) := (hcondLast t).mpr h1
      rw [show (dat1 V c).leavesExact 4 t = owns (c : Thread nD τ) (ms4 t) fullShare ((dat1 V c).after 4 t) from by
        unfold Dat.leavesExact; rw [live_out t hc1], after_4]
      unfold outAt
      rw [accAt_next V c t h0]
      rw [PhiS_castSucc V c t, PhiS_pos V c _ _ hfirst]
      iintro ⟨⟨HS, Hr⟩, Ho, ⟨%d0, H0⟩, ⟨%d1, H1⟩, ⟨%d2, H2⟩, ⟨%d3, H3⟩, ⟨%d4, H4⟩⟩
      iapply ((runLast c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hr]
      · isplitl [HS]
        · unfold owns; iexists _; isplitr
          swap; · iexact HS
          ipureintro; exact leftLastAcc c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) (accAt V c (t.val - 1) (Nat.lt_of_le_of_lt (Nat.sub_le _ _) t.isLt)) scM.view es
        iexact Hr
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact leftLastOut c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) (accAt V c (t.val - 1) (Nat.lt_of_le_of_lt (Nat.sub_le _ _) t.isLt)) (ms4 t).view e4
    · have hc1 : ¬condLast (grid1.coords t) := fun h => h1 ((hcondLast t).mp h)
      rw [Dat.leavesExact_idle (dat1 V c) 4 t (idle_out t hc1) (noFlush_out t hc1)]
      rw [accAt_next V c t h0]
      rw [PhiS_castSucc V c t, PhiS_pos V c _ _ hfirst]
      iintro ⟨⟨HS, Hr⟩, Ho, ⟨%d0, H0⟩, ⟨%d1, H1⟩, ⟨%d2, H2⟩, ⟨%d3, H3⟩, ⟨%d4, H4⟩⟩
      iapply ((runMiddle c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hr]
      · isplitl [HS]
        · unfold owns; iexists _; isplitr
          swap; · iexact HS
          ipureintro; exact leftMiddle c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) (accAt V c (t.val - 1) (Nat.lt_of_le_of_lt (Nat.sub_le _ _) t.isLt)) scM.view es
        iexact Hr
      isplitl [Ho]; · iexact Ho
      isplitl [H0]; · iexact H0
      isplitl [H1]; · iexact H1
      isplitl [H2]; · iexact H2
      isplitl [H3]; · iexact H3
      iexists _; iexact H4

/-- The body obligation at every point. -/
theorem body_obligation (c : Dev nD) : BodyObligation (dat1 (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back what the launch handed over: the scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  iintro ⟨HS, Hr⟩
  isplitl [HS]
  · iexists _; iexact HS
  iexact Hr

/-- After the last point the invariant gives the scoped rest back, the scratch's contents forgotten. -/
theorem hout (c : Dev nD) : (dat1 V c).Φ (Fin.last cfg1.N) ⊢ Pipeline.ΦA spec1 c :=
  Phi_out V c _ (by rw [Fin.val_last]; have : cfg1.N = 7618 := N_1; omega)

end Cert.KernelIdeal.Scatter

end
-- ==== Proof.Run.lean ====
/-
  The whole program's run: host operations, the two kernel regions, the closing slice.  Every unscoped buffer's
  contents are followed from the launch memory through each item of the program; the two regions' outputs are what
  their pipelines' write-backs leave.  The run ends with every unscoped buffer at the last of these contents, from
  which both the frame (the arguments end as launched) and the result's value are read.
-/
import proofs.«401625_j82231443849285_1_alg».proof.Proof.Gen.KernelIdeal.Regions
import proofs.«401625_j82231443849285_1_alg».proof.Proof.GatherFrame
import proofs.«401625_j82231443849285_1_alg».proof.Proof.ScatterFrame
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region's entry contents (after the host operations before it), read at the TensorCore's references. -/
abbrev Vin0 : (c : Dev nD) → (b : Ref sig .tc) → Buf (Elt F) ((c : Thread nD τ).loc b) := fun c b => Gen.V11 m c b
/-- At the first region's exit: its arrays at what the pipeline leaves, every other buffer as entered. -/
def Wmid (c : Dev nD) : Valuation τ sig (Elt F) :=
  Pipeline.withArrays spec0 c (Gen.V11 m c) fun w => (Gather.dat0 (Vin0 m) c).arrAt w cfg0.N
/-- The second region's entry contents, read at the TensorCore's references. -/
abbrev Vin1 : (c : Dev nD) → (b : Ref sig .tc) → Buf (Elt F) ((c : Thread nD τ).loc b) := fun c b => Wmid m c b
/-- At the second region's exit. -/
def Wout (c : Dev nD) : Valuation τ sig (Elt F) :=
  Pipeline.withArrays spec1 c (Wmid m c) fun w => (Scatter.dat1 (Vin1 m) c).arrAt w cfg1.N
/-- After the closing host operation. -/
abbrev Wend (c : Dev nD) : Valuation τ sig (Elt F) := StableHlo.after hostOps2 (Wout m c)

theorem Wmid_arr (c : Dev nD) (w : Fin cfg0.W) :
    Wmid m c (Proc.devRef .tc (Pipeline.arrRef spec0 w)) = (Gather.dat0 (Vin0 m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid m c (Proc.devRef .tc b) = Gen.V11 m c (Proc.devRef .tc b) := by
  unfold Wmid; exact Pipeline.withArrays_of_ne spec0 c _ _ b hb
theorem Wout_arr (c : Dev nD) (w : Fin cfg1.W) :
    Wout m c (Proc.devRef .tc (Pipeline.arrRef spec1 w)) = (Scatter.dat1 (Vin1 m) c).arrAt w cfg1.N := by
  unfold Wout; exact Pipeline.withArrays_arr spec1 launch1.win.arr_inj c _ _ w
theorem Wout_of_ne (c : Dev nD) (b : Ref sig .tc) (hb : ∀ w, Pipeline.arrRef spec1 w ≠ b) :
    Wout m c (Proc.devRef .tc b) = Wmid m c (Proc.devRef .tc b) := by
  unfold Wout; exact Pipeline.withArrays_of_ne spec1 c _ _ b hb

/-- An unscoped TensorCore reference is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No host operation writes an argument, and no region's window array is one: the run's contents at an argument's
buffer walk back, item by item, to the launch memory. -/

/-- A reference none of the host operations before the first region writes is, at that region's entry, as launched. -/
theorem V11_launch (c : Dev nD) (r : Ref sig .tc)
    (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc)))
    (h4 : r ∉ (hostOps0_4_W : List (Ref sig .tc))) (h5 : r ∉ (hostOps0_5_W : List (Ref sig .tc)))
    (h6 : r ∉ (hostOps0_6_W : List (Ref sig .tc))) (h7 : r ∉ (hostOps0_7_W : List (Ref sig .tc)))
    (h8 : r ∉ (hostOps0_8_W : List (Ref sig .tc))) (h9 : r ∉ (hostOps0_9_W : List (Ref sig .tc)))
    (h10 : r ∉ (hostOps0_10_W : List (Ref sig .tc))) :
    Gen.V11 m c (Proc.devRef .tc r) = m ((c : Thread nD τ).loc r) :=
  calc Gen.V11 m c (Proc.devRef .tc r)
    _ = Gen.V10 m c (Proc.devRef .tc r) := Gen.V11_of m c r h10
    _ = Gen.V9 m c (Proc.devRef .tc r) := Gen.V10_of m c r h9
    _ = Gen.V8 m c (Proc.devRef .tc r) := Gen.V9_of m c r h8
    _ = Gen.V7 m c (Proc.devRef .tc r) := Gen.V8_of m c r h7
    _ = Gen.V6 m c (Proc.devRef .tc r) := Gen.V7_of m c r h6
    _ = Gen.V5 m c (Proc.devRef .tc r) := Gen.V6_of m c r h5
    _ = Gen.V4 m c (Proc.devRef .tc r) := Gen.V5_of m c r h4
    _ = Gen.V3 m c (Proc.devRef .tc r) := Gen.V4_of m c r h3
    _ = Gen.V2 m c (Proc.devRef .tc r) := Gen.V3_of m c r h2
    _ = Gen.V1 m c (Proc.devRef .tc r) := Gen.V2_of m c r h1
    _ = Gen.V0 m c (Proc.devRef .tc r) := Gen.V1_of m c r h0
    _ = m ((c : Thread nD τ).loc r) := rfl

/-- A reference that is no window's array of either region, that the closing slice does not write and that no host
    operation before the regions writes ends as launched. -/
theorem Wend_launch (c : Dev nD) (r : Ref sig .tc)
    (hW1 : ∀ w, Pipeline.arrRef spec1 w ≠ r) (hW0 : ∀ w, Pipeline.arrRef spec0 w ≠ r)
    (hE : r ∉ (hostOps2_W : List (Ref sig .tc)))
    (hV : Gen.V11 m c (Proc.devRef .tc r) = m ((c : Thread nD τ).loc r)) :
    Wend m c (Proc.devRef .tc r) = m ((c : Thread nD τ).loc r) :=
  calc Wend m c (Proc.devRef .tc r)
    _ = Wout m c (Proc.devRef .tc r) := StableHlo.after_of_writes_sub hostOps2 _ hostOps2_writes hE
    _ = Wmid m c (Proc.devRef .tc r) := Wout_of_ne m c r hW1
    _ = Gen.V11 m c (Proc.devRef .tc r) := Wmid_of_ne m c r hW0
    _ = m ((c : Thread nD τ).loc r) := hV

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Gather.dat0 (Vin0 m) c
  | ⟨1, _⟩ => fun c => Scatter.dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the last contents, the generator
    register at some state. -/
abbrev Tₙ (c : Dev nD) : sProp 𝕄 := iprop(StableHlo.held (c : Thread nD τ) (Pipeline.ucRefs τ sig) (Wend m c) ∗ ∃ r, prngReg c r)

/-- At a region's exit each of its arrays holds what the pipeline leaves and every other buffer what it held at entry. -/
theorem hF0 (c : Dev nD) (w : Fin cfg0.W) : (Gather.dat0 (Vin0 m) c).arrAt w cfg0.N = Vin1 m c (Pipeline.arrRef spec0 w) :=
  (Wmid_arr m c w).symm
theorem hrest0 (c : Dev nD) : ∀ b, b ∉ Finset.univ.image (Pipeline.arrRef spec0) → Vin1 m c b = Vin0 m c b :=
  fun b hb => Wmid_of_ne m c b fun w e => hb (Finset.mem_image.mpr ⟨w, Finset.mem_univ _, e⟩)
/-- The second region's exit contents, read at the TensorCore's references. -/
abbrev Vout : (c : Dev nD) → (b : Ref sig .tc) → Buf (Elt F) ((c : Thread nD τ).loc b) := fun c b => Wout m c b
theorem hF1 (c : Dev nD) (w : Fin cfg1.W) : (Scatter.dat1 (Vin1 m) c).arrAt w cfg1.N = Vout m c (Pipeline.arrRef spec1 w) :=
  (Wout_arr m c w).symm
theorem hrest1 (c : Dev nD) : ∀ b, b ∉ Finset.univ.image (Pipeline.arrRef spec1) → Vout m c b = Vin1 m c b :=
  fun b hb => Wout_of_ne m c b fun w e => hb (Finset.mem_image.mpr ⟨w, Finset.mem_univ _, e⟩)

/-! ## The regions as segments -/

set_option backward.isDefEq.respectTransparency.types false in
/-- THE FIRST REGION over the thread state: entered from every unscoped buffer at `Vin0`, left at `Wmid`.  Its arrays
    are split out of the unscoped buffers and put back at the exit contents; the generator register and the scoped
    rest enter the region's invariant and come back out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gather.body_obligation (Vin0 m) c).loose
  hwaits := Pipeline.hwaits_of_owed_zero _ _ _ _ L lv 0 fun _ _ => rfl
  pre c := iprop(StableHlo.held (c : Thread nD τ) (Pipeline.ucRefs τ sig) (Gen.V11 m c) ∗ R c)
  post c := iprop(StableHlo.held (c : Thread nD τ) (Pipeline.ucRefs τ sig) (Wmid m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gather.hin (Vin0 m) c)
    unfold Pipeline.ΦA
    iintro ⟨Hp, -, Hr⟩
    isplitl [Hr]; · iexact Hr
    iexact Hp
  hout c := by
    rw [Pipeline.ownSems0_none]
    refine BIBase.Entails.trans (Gather.hout (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `Wmid`, left at `Wout`, in the
    same way as the first. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scatter.body_obligation (Vin1 m) c).loose
  hwaits := Pipeline.hwaits_of_owed_zero _ _ _ _ L lv 1 fun _ _ => rfl
  pre c := iprop(StableHlo.held (c : Thread nD τ) (Pipeline.ucRefs τ sig) (Wmid m c) ∗ R c)
  post c := iprop(StableHlo.held (c : Thread nD τ) (Pipeline.ucRefs τ sig) (Wout m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Scatter.hin (Vin1 m) c)
    unfold Pipeline.ΦA
    iintro ⟨Hp, -, Hr⟩
    isplitl [Hr]; · iexact Hr
    iexact Hp
  hout c := by
    rw [Pipeline.ownSems0_none]
    refine BIBase.Entails.trans (Scatter.hout (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's fourteen items in order: a host segment per stretch from the contents before it, a region per kernel. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .host (hseg hostOps0_7 hostOps0_7_sub hostOps0_7_fresh (Gen.V7 m)),
    .host (hseg hostOps0_8 hostOps0_8_sub hostOps0_8_fresh (Gen.V8 m)),
    .host (hseg hostOps0_9 hostOps0_9_sub hostOps0_9_fresh (Gen.V9 m)),
    .host (hseg hostOps0_10 hostOps0_10_sub hostOps0_10_fresh (Gen.V10 m)),
    .region (reg0 m),
    .region (reg1 m),
    .host (hseg hostOps2 hostOps2_sub hostOps2_fresh (Wout m)) ]

/-- The program is the run of its segments. -/
theorem main_run (c : Dev nD) : main (F := F) c = Pipeline.Seg.run (segs m) := by
  rw [main_chain c, Pipeline.Seg.run_eq_chain]
  rfl

set_option backward.isDefEq.respectTransparency.types false in
/-- THE RUN: every weakly fair execution terminates, nothing faulting, with every unscoped buffer at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wend m c) ∗ R c)
          ⊢ iprop(Tₙ m c ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h => h)

/-- The arguments end as launched. -/
theorem Wend_arg0 (c : Dev nD) : Wend m c (Proc.devRef .tc main_arg0) = m ((c : Thread nD τ).loc main_arg0) :=
  Wend_launch m c main_arg0 (by decide) (by decide) (by decide)
    (V11_launch m c main_arg0 (by decide) (by decide) (by decide) (by decide) (by decide) (by decide) (by decide) (by decide)
      (by decide) (by decide) (by decide))
theorem Wend_arg1 (c : Dev nD) : Wend m c (Proc.devRef .tc main_arg1) = m ((c : Thread nD τ).loc main_arg1) :=
  Wend_launch m c main_arg1 (by decide) (by decide) (by decide)
    (V11_launch m c main_arg1 (by decide) (by decide) (by decide) (by decide) (by decide) (by decide) (by decide) (by decide)
      (by decide) (by decide) (by decide))
theorem Wend_arg2 (c : Dev nD) : Wend m c (Proc.devRef .tc main_arg2) = m ((c : Thread nD τ).loc main_arg2) :=
  Wend_launch m c main_arg2 (by decide) (by decide) (by decide)
    (V11_launch m c main_arg2 (by decide) (by decide) (by decide) (by decide) (by decide) (by decide) (by decide) (by decide)
      (by decide) (by decide) (by decide))
theorem Wend_arg3 (c : Dev nD) : Wend m c (Proc.devRef .tc main_arg3) = m ((c : Thread nD τ).loc main_arg3) :=
  Wend_launch m c main_arg3 (by decide) (by decide) (by decide)
    (V11_launch m c main_arg3 (by decide) (by decide) (by decide) (by decide) (by decide) (by decide) (by decide) (by decide)
      (by decide) (by decide) (by decide))
theorem Wend_arg4 (c : Dev nD) : Wend m c (Proc.devRef .tc main_arg4) = m ((c : Thread nD τ).loc main_arg4) :=
  Wend_launch m c main_arg4 (by decide) (by decide) (by decide)
    (V11_launch m c main_arg4 (by decide) (by decide) (by decide) (by decide) (by decide) (by decide) (by decide) (by decide)
      (by decide) (by decide) (by decide))

/-- THE FRAME, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wend_arg0 m c),
     (h c _ (mem_uc main_arg1 (by decide))).trans (Wend_arg1 m c),
     (h c _ (mem_uc main_arg2 (by decide))).trans (Wend_arg2 m c),
     (h c _ (mem_uc main_arg3 (by decide))).trans (Wend_arg3 m c),
     (h c _ (mem_uc main_arg4 (by decide))).trans (Wend_arg4 m c)⟩) (run_all m ρ)

end Cert.KernelIdeal.Run

end
-- ==== Proof.GraphConv.lean ====
/-
  The mathematics of one graph-convolution layer with an initial residual, over the extended reals.

  Inputs: node features `x`, initial features `x0` (both 50000 × 128), an edge list `ei` (2 × 600000: row 0 the
  source node of each edge, row 1 its destination), a weight per edge `nrm` and a 128 × 128 matrix `W`.
  The layer gathers the source's features along every edge, scales them by the edge's weight and sums them into the
  destination (`agg`); mixes the sum with the initial features (`mix`, weights 9/10 and 1/10 as their f32 words);
  and blends the mix with its product by `Wᵀ` (`layer`, weights `1 − β` and `β` as their f32 words).

  Two spellings of the same function meet here.  The dense one works on arrays padded with zeros to whole tiles
  (600064 edges, 53248 nodes): the gather is a product with a 0/1 matrix `[src e = n]`, the sum into destinations a
  product with `[n = dst e]`.  Because `0 * v = 0` and `v * 0 = 0` for EVERY extended real `v`, those products are
  the plain selections, with no finiteness needed: `dense_eq_layer`.
-/
import Idealize.ShloMosaic.PureOps.Ideal
import Idealize.ShloMosaic.Lib.ValueIdx

noncomputable section

namespace Cert.GraphConv

open Idealize.ShloMosaic Idealize.ShloMosaic.ValueIdx

abbrev SNodes : Shape := ⟨2, ![50000, 128]⟩
abbrev SEdgeIdx : Shape := ⟨2, ![2, 600000]⟩
abbrev SEdges : Shape := ⟨1, ![600000]⟩
abbrev SW : Shape := ⟨2, ![128, 128]⟩
abbrev SNodesP : Shape := ⟨2, ![53248, 128]⟩
abbrev SEdgesCol : Shape := ⟨2, ![600064, 1]⟩
abbrev SEdgesRow : Shape := ⟨2, ![1, 600064]⟩
abbrev SMsgsP : Shape := ⟨2, ![600064, 128]⟩

/-- The four scalar weights, as the f32 words both programs carry. -/
abbrev cKeep : EReal := Ideal.ofBits .f32 0x3F666666#32
abbrev cInit : EReal := Ideal.ofBits .f32 0x3DCCCCCD#32
abbrev cSelf : EReal := Ideal.ofBits .f32 0x3F183370#32
abbrev cLin : EReal := Ideal.ofBits .f32 0x3ECF991F#32

/-! ## The layer, edge by edge -/

/-- The node a source word names: a negative word counts from the end, and the result is clamped into the table. -/
def srcNode (w : BitVec 32) : Fin 50000 :=
  ⟨min (if w.slt 0#32 then w + 50000#32 else w).toInt.toNat 49999, by omega⟩

/-- The weighted sum of source features over the edges whose destination word is the node `i 0`. -/
def agg (x : SNodes.Idx → EReal) (ei : SEdgeIdx.Idx → BitVec 32) (nrm : SEdges.Idx → EReal) : SNodes.Idx → EReal :=
  fun i => ∑ e : Fin 600000, if (ei (ix2 1 e)).toInt = ((i 0).val : ℤ) then x (ix2 (srcNode (ei (ix2 0 e))) (i 1)) * nrm (ix1 e) else 0

/-- The mix with the initial features. -/
def mix (x x0 : SNodes.Idx → EReal) (ei : SEdgeIdx.Idx → BitVec 32) (nrm : SEdges.Idx → EReal) : SNodes.Idx → EReal :=
  fun i => cKeep * agg x ei nrm i + cInit * x0 i

/-- The layer's result. -/
def layer (x x0 : SNodes.Idx → EReal) (ei : SEdgeIdx.Idx → BitVec 32) (nrm : SEdges.Idx → EReal) (W : SW.Idx → EReal) :
    SNodes.Idx → EReal :=
  fun i => cSelf * mix x x0 ei nrm i + cLin * ∑ k : Fin 128, mix x x0 ei nrm (ix2 (i 0) k) * W (ix2 (i 1) k)

/-! ## The padded arrays -/

/-- The source words as a column, padded with zero words to 600064. -/
def padSrc (ei : SEdgeIdx.Idx → BitVec 32) : SEdgesCol.Idx → BitVec 32 :=
  fun i => if h : (i 0).val < 600000 then ei (ix2 0 ⟨(i 0).val, h⟩) else 0#32
/-- The destination words as a row, padded with zero words to 600064. -/
def padDst (ei : SEdgeIdx.Idx → BitVec 32) : SEdgesRow.Idx → BitVec 32 :=
  fun i => if h : (i 1).val < 600000 then ei (ix2 1 ⟨(i 1).val, h⟩) else 0#32
/-- The edge weights as a column, padded with zeros. -/
def padNrm (nrm : SEdges.Idx → EReal) : SEdgesCol.Idx → EReal :=
  fun i => if h : (i 0).val < 600000 then nrm (ix1 ⟨(i 0).val, h⟩) else 0
/-- Node features padded with zero rows to 53248. -/
def padNodes (x : SNodes.Idx → EReal) : SNodesP.Idx → EReal :=
  fun i => if h : (i 0).val < 50000 then x (ix2 ⟨(i 0).val, h⟩ (i 1)) else 0
/-- The transposed matrix. -/
def transp (W : SW.Idx → EReal) : SW.Idx → EReal := fun i => W (ix2 (i 1) (i 0))

/-! ## The dense spelling -/

/-- Edge messages by selection out of the padded node table: the weight times the row the source word names, zero
    when the word names no row of the padded table. -/
def gatherScale (src : SEdgesCol.Idx → BitVec 32) (nrm : SEdgesCol.Idx → EReal) (xp : SNodesP.Idx → EReal) :
    SMsgsP.Idx → EReal :=
  fun i => if h : (src (ix2 (i 0) 0)).toNat < 53248 then nrm (ix2 (i 0) 0) * xp (ix2 ⟨(src (ix2 (i 0) 0)).toNat, h⟩ (i 1)) else 0

/-- The messages summed into the node whose number is the destination word. -/
def scatterSum (dst : SEdgesRow.Idx → BitVec 32) (M : SMsgsP.Idx → EReal) : SNodesP.Idx → EReal :=
  fun i => ∑ e : Fin 600064, if dst (ix2 0 e) = BitVec.ofNat 32 (i 0).val then M (ix2 e (i 1)) else 0

/-- The mix over the padded node table. -/
def mixP (dst : SEdgesRow.Idx → BitVec 32) (M : SMsgsP.Idx → EReal) (x0p : SNodesP.Idx → EReal) : SNodesP.Idx → EReal :=
  fun i => cKeep * scatterSum dst M i + cInit * x0p i

/-- The dense layer over the padded node table (`wt` is `Wᵀ`). -/
def scatterMix (dst : SEdgesRow.Idx → BitVec 32) (M : SMsgsP.Idx → EReal) (x0p : SNodesP.Idx → EReal)
    (wt : SW.Idx → EReal) : SNodesP.Idx → EReal :=
  fun i => cSelf * mixP dst M x0p i + cLin * ∑ k : Fin 128, mixP dst M x0p (ix2 (i 0) k) * wt (ix2 k (i 1))

/-- The first 50000 rows of a padded table. -/
def firstRows (y : SNodesP.Idx → EReal) : SNodes.Idx → EReal :=
  fun i => y (ix2 ⟨(i 0).val, by have := idx2_lt0 i; omega⟩ (i 1))

/-! ## Sums whose tail vanishes -/

/-- A sum over Fin m whose terms vanish from n on is the sum of its first n terms. -/
theorem sum_fin_castLE {M : Type*} [AddCommMonoid M] {n m : ℕ} (h : n ≤ m) (f : Fin m → M)
    (hf : ∀ e : Fin m, n ≤ e.val → f e = 0) : ∑ e : Fin m, f e = ∑ e : Fin n, f (Fin.castLE h e) := by
  obtain ⟨k, rfl⟩ := Nat.exists_eq_add_of_le h
  rw [Fin.sum_univ_add]
  have hz : ∑ i : Fin k, f (Fin.natAdd n i) = 0 :=
    Finset.sum_eq_zero (fun i _ => hf _ (by simp))
  rw [hz, add_zero]
  rfl

/-! ## Words that are node numbers -/

/-- A word below 50000 reads the same signed and unsigned. -/
theorem toInt_of_small (w : BitVec 32) (h : w.toNat < 50000) : w.toInt = (w.toNat : ℤ) :=
  BitVec.toInt_eq_toNat_of_lt (by omega)

/-- A word is the node number n exactly when its signed reading is n. -/
theorem eq_ofNat_iff_toInt (w : BitVec 32) (n : ℕ) (hn : n < 50000) :
    w = BitVec.ofNat 32 n ↔ w.toInt = (n : ℤ) := by
  have hw := w.isLt
  rw [BitVec.toInt_eq_toNat_cond]
  constructor
  · rintro rfl
    have hm : n % 2 ^ 32 = n := Nat.mod_eq_of_lt (by omega)
    simp only [BitVec.toNat_ofNat, hm]
    split <;> omega
  · intro h
    apply BitVec.eq_of_toNat_eq
    rw [BitVec.toNat_ofNat, Nat.mod_eq_of_lt (by omega)]
    split at h <;> omega

/-- A source word that is a node number names that node. -/
theorem srcNode_of_lt (w : BitVec 32) (h : w.toNat < 50000) : srcNode w = ⟨w.toNat, h⟩ := by
  have hi := toInt_of_small w h
  have hs : w.slt 0#32 = false := by
    rw [BitVec.slt_eq_decide, BitVec.toInt_zero, hi]
    exact decide_eq_false (by omega)
  apply Fin.ext
  simp only [srcNode, hs, Bool.false_eq_true, if_false, hi, Int.toNat_natCast]
  omega

/-! ## The padded edge list read at an edge -/

/-- The real edges sit at the front of the padded edge list. -/
theorem le_edges : 600000 ≤ 600064 := by omega

section Bridge
variable (x x0 : SNodes.Idx → EReal) (ei : SEdgeIdx.Idx → BitVec 32) (nrm : SEdges.Idx → EReal)

/-- Where the source word names a row of the padded table, the message is the weight times that row. -/
theorem gatherScale_of_lt (src : SEdgesCol.Idx → BitVec 32) (w : SEdgesCol.Idx → EReal) (xp : SNodesP.Idx → EReal)
    (e : Fin 600064) (d : Fin 128) (h : (src (ix2 e 0)).toNat < 53248) :
    gatherScale src w xp (ix2 e d) = w (ix2 e 0) * xp (ix2 ⟨(src (ix2 e 0)).toNat, h⟩ d) :=
  dif_pos h

/-- At a real edge the padded source word is the edge's source word … -/
theorem padSrc_real (e : Fin 600000) : padSrc ei (ix2 (Fin.castLE le_edges e) 0) = ei (ix2 0 e) :=
  dif_pos e.isLt
/-- … the padded destination word its destination word … -/
theorem padDst_real (e : Fin 600000) : padDst ei (ix2 0 (Fin.castLE le_edges e)) = ei (ix2 1 e) :=
  dif_pos e.isLt
/-- … and the padded weight its weight. -/
theorem padNrm_real (e : Fin 600000) : padNrm nrm (ix2 (Fin.castLE le_edges e) 0) = nrm (ix1 e) :=
  dif_pos e.isLt
/-- A padded node table reads the table at a real node. -/
theorem padNodes_real (y : SNodes.Idx → EReal) (n : Fin 50000) (hn : n.val < 53248) (d : Fin 128) :
    padNodes y (ix2 ⟨n.val, hn⟩ d) = y (ix2 n d) :=
  dif_pos n.isLt

/-- (1a) The message of a real edge: its weight times its source's features. -/
theorem gatherScale_real (hsrc : ∀ e : Fin 600000, (ei (ix2 0 e)).toNat < 50000) (e : Fin 600000) (d : Fin 128) :
    gatherScale (padSrc ei) (padNrm nrm) (padNodes x) (ix2 (Fin.castLE le_edges e) d)
      = nrm (ix1 e) * x (ix2 ⟨(ei (ix2 0 e)).toNat, hsrc e⟩ d) := by
  have h53 : (padSrc ei (ix2 (Fin.castLE le_edges e) 0)).toNat < 53248 := by
    rw [padSrc_real]; have := hsrc e; omega
  rw [gatherScale_of_lt _ _ _ _ _ h53, padNrm_real]
  congr 1
  have hp : ∀ (w : BitVec 32) (hw : w.toNat < 53248) (hw' : w.toNat < 50000),
      padNodes x (ix2 ⟨w.toNat, hw⟩ d) = x (ix2 ⟨w.toNat, hw'⟩ d) := fun w hw hw' => dif_pos hw'
  have hg : ∀ (w w' : BitVec 32) (hw : w.toNat < 53248) (hw' : w'.toNat < 50000), w = w' →
      padNodes x (ix2 ⟨w.toNat, hw⟩ d) = x (ix2 ⟨w'.toNat, hw'⟩ d) := by
    intro w w' hw hw' hww; subst hww; exact hp w hw hw'
  exact hg _ _ h53 (hsrc e) (padSrc_real ei e)

/-- (1b) The message of a padding edge is zero: its weight is. -/
theorem gatherScale_pad (e : Fin 600064) (he : 600000 ≤ e.val) (d : Fin 128) :
    gatherScale (padSrc ei) (padNrm nrm) (padNodes x) (ix2 e d) = 0 := by
  have hlt : ¬ e.val < 600000 := by omega
  have hs : padSrc ei (ix2 e 0) = 0#32 := dif_neg hlt
  have hn : padNrm nrm (ix2 e 0) = 0 := dif_neg hlt
  have h53 : (padSrc ei (ix2 e 0)).toNat < 53248 := by rw [hs]; decide
  rw [gatherScale_of_lt _ _ _ _ _ h53, hn, zero_mul]

/-- (2)+(3) The messages summed into a real node are the layer's weighted sum over its incoming edges. -/
theorem scatterSum_real (hsrc : ∀ e : Fin 600000, (ei (ix2 0 e)).toNat < 50000) (n : Fin 50000) (hn : n.val < 53248)
    (d : Fin 128) :
    scatterSum (padDst ei) (gatherScale (padSrc ei) (padNrm nrm) (padNodes x)) (ix2 ⟨n.val, hn⟩ d)
      = agg x ei nrm (ix2 n d) := by
  show (∑ e : Fin 600064, if padDst ei (ix2 0 e) = BitVec.ofNat 32 n.val
      then gatherScale (padSrc ei) (padNrm nrm) (padNodes x) (ix2 e d) else 0)
    = ∑ e : Fin 600000, if (ei (ix2 1 e)).toInt = (n.val : ℤ)
      then x (ix2 (srcNode (ei (ix2 0 e))) d) * nrm (ix1 e) else 0
  rw [sum_fin_castLE le_edges _ (fun e he => by rw [gatherScale_pad x ei nrm e he d]; exact ite_self 0)]
  refine Finset.sum_congr rfl (fun e _ => ?_)
  rw [padDst_real, gatherScale_real x ei nrm hsrc, srcNode_of_lt _ (hsrc e)]
  by_cases hc : ei (ix2 1 e) = BitVec.ofNat 32 n.val
  · rw [if_pos hc, if_pos ((eq_ofNat_iff_toInt _ _ n.isLt).mp hc), mul_comm]
  · rw [if_neg hc, if_neg (fun h => hc ((eq_ofNat_iff_toInt _ _ n.isLt).mpr h))]

/-- (4) The padded mix at a real node is the mix. -/
theorem mixP_real (hsrc : ∀ e : Fin 600000, (ei (ix2 0 e)).toNat < 50000) (n : Fin 50000) (hn : n.val < 53248)
    (k : Fin 128) :
    mixP (padDst ei) (gatherScale (padSrc ei) (padNrm nrm) (padNodes x)) (padNodes x0) (ix2 ⟨n.val, hn⟩ k)
      = mix x x0 ei nrm (ix2 n k) := by
  show cKeep * scatterSum (padDst ei) (gatherScale (padSrc ei) (padNrm nrm) (padNodes x)) (ix2 ⟨n.val, hn⟩ k)
      + cInit * padNodes x0 (ix2 ⟨n.val, hn⟩ k) = cKeep * agg x ei nrm (ix2 n k) + cInit * x0 (ix2 n k)
  rw [scatterSum_real x ei nrm hsrc, padNodes_real]

end Bridge

/-- THE BRIDGE: with every source word a node number, the dense spelling over the padded arrays is the layer. -/
theorem dense_eq_layer (x x0 : SNodes.Idx → EReal) (ei : SEdgeIdx.Idx → BitVec 32) (nrm : SEdges.Idx → EReal)
    (W : SW.Idx → EReal) (hsrc : ∀ e : Fin 600000, (ei (ix2 0 e)).toNat < 50000) :
    firstRows (scatterMix (padDst ei) (gatherScale (padSrc ei) (padNrm nrm) (padNodes x)) (padNodes x0) (transp W))
      = layer x x0 ei nrm W := by
  funext i
  obtain ⟨n, d, rfl⟩ : ∃ (n : Fin 50000) (d : Fin 128), i = ix2 n d := ⟨i 0, i 1, eq_ix2 i⟩
  have hn : n.val < 53248 := by have := n.isLt; omega
  show cSelf * mixP (padDst ei) (gatherScale (padSrc ei) (padNrm nrm) (padNodes x)) (padNodes x0) (ix2 ⟨n.val, hn⟩ d)
      + cLin * ∑ k : Fin 128,
          mixP (padDst ei) (gatherScale (padSrc ei) (padNrm nrm) (padNodes x)) (padNodes x0) (ix2 ⟨n.val, hn⟩ k)
            * W (ix2 d k)
    = cSelf * mix x x0 ei nrm (ix2 n d) + cLin * ∑ k : Fin 128, mix x x0 ei nrm (ix2 n k) * W (ix2 d k)
  simp only [mixP_real x x0 ei nrm hsrc]

end Cert.GraphConv

end
-- ==== Proof.GatherValueSel.lean ====
/-
  A sum over a node tile of `[w = n] · f n` picks one term or none, and the running selection it builds.

  The word `w` of an edge names at most one row of the padded node table.  Summing `[w = 4096·k + j] · f j` over the
  4096 rows `j` of node tile `k` gives `f (w − 4096·k)` when `w` lies in the tile and `0` otherwise: the factor `1`
  keeps its term, the factor `0` kills its term, and both hold for every extended real, the infinities included.
  Adding the tiles in order therefore builds "the weight times the row `w` names if that row lies below the tiles seen
  so far, else zero" (`selBelow`), which after all thirteen tiles is the edge message of `gatherScale`.
-/
import proofs.«401625_j82231443849285_1_alg».proof.Proof.GraphConv

noncomputable section

open scoped BigOperators

namespace Cert.KernelIdeal.GatherValue

open Cert.GraphConv Idealize.ShloMosaic Idealize.ShloMosaic.ValueIdx

/-- A 32-bit word is the literal of a number below `2^32` exactly when that number is its value. -/
theorem eq_ofNat_iff (w : BitVec 32) (q : ℕ) (hq : q < 4294967296) : w = BitVec.ofNat 32 q ↔ w.toNat = q := by
  constructor
  · rintro rfl
    rw [BitVec.toNat_ofNat]
    exact Nat.mod_eq_of_lt hq
  · intro h
    apply BitVec.eq_of_toNat_eq
    rw [BitVec.toNat_ofNat, Nat.mod_eq_of_lt hq]
    exact h

/-- The sum over node tile `k` of `[w = 4096·k + j] · f j`: the term of the row `w` names if it lies in the tile, else
    nothing. -/
theorem sum_onehot (w : BitVec 32) (k : ℕ) (hk : k < 13) (f : Fin 4096 → EReal) :
    ∑ j : Fin 4096, (if w = BitVec.ofNat 32 (j.val + 4096 * k) then (1 : EReal) else 0) * f j
      = if h : 4096 * k ≤ w.toNat ∧ w.toNat < 4096 * (k + 1) then f ⟨w.toNat - 4096 * k, by omega⟩ else 0 := by
  split
  · rename_i h
    rw [Finset.sum_eq_single (⟨w.toNat - 4096 * k, by omega⟩ : Fin 4096)]
    · rw [if_pos ((eq_ofNat_iff w _ (by dsimp only; omega)).mpr (by dsimp only; omega)), one_mul]
    · intro j _ hj
      have hjlt : j.val < 4096 := j.isLt
      rw [if_neg, zero_mul]
      intro he
      have hv := (eq_ofNat_iff w _ (by omega)).mp he
      exact hj (Fin.ext (by dsimp only; omega))
    · intro h'
      exact absurd (Finset.mem_univ _) h'
  · rename_i h
    refine Finset.sum_eq_zero fun j _ => ?_
    have hjlt : j.val < 4096 := j.isLt
    rw [if_neg, zero_mul]
    intro he
    have hv := (eq_ofNat_iff w _ (by omega)).mp he
    exact h (by omega)

/-- The running selection: the weight `a` times row `w` of the padded node table at feature `d` if `w` names a row below
    `b` (and a row of the table at all), else zero. -/
def selBelow (xp : SNodesP.Idx → EReal) (w : BitVec 32) (a : EReal) (d : Fin 128) (b : ℕ) : EReal :=
  if h : w.toNat < 53248 then (if w.toNat < b then a * xp (ix2 ⟨w.toNat, h⟩ d) else 0) else 0

/-- Before any tile nothing is selected. -/
theorem selBelow_zero (xp : SNodesP.Idx → EReal) (w : BitVec 32) (a : EReal) (d : Fin 128) : selBelow xp w a d 0 = 0 := by
  unfold selBelow
  split
  · rw [if_neg (Nat.not_lt_zero _)]
  · rfl

/-- One node tile more: adding the weight times the tile's one-hot sum moves the bound up by the tile. -/
theorem selBelow_step (xp : SNodesP.Idx → EReal) (w : BitVec 32) (a : EReal) (d : Fin 128) (k : ℕ) (hk : k < 13)
    (xb : Fin 4096 → EReal) (hxb : ∀ j : Fin 4096, xb j = xp (ix2 ⟨4096 * k + j.val, by have := j.isLt; omega⟩ d)) :
    selBelow xp w a d (4096 * k)
        + a * ∑ j : Fin 4096, (if w = BitVec.ofNat 32 (j.val + 4096 * k) then (1 : EReal) else 0) * xb j
      = selBelow xp w a d (4096 * (k + 1)) := by
  rw [sum_onehot w k hk xb]
  unfold selBelow
  by_cases hin : 4096 * k ≤ w.toNat ∧ w.toNat < 4096 * (k + 1)
  · -- the word names a row of this tile: nothing so far, this tile's term now
    have hlt : w.toNat < 53248 := by omega
    rw [dif_pos hin, dif_pos hlt, dif_pos hlt, if_neg (by omega), if_pos hin.2, zero_add, hxb]
    congr 2
    funext e
    match e with
    | ⟨0, _⟩ => exact Fin.ext (by dsimp only; omega)
    | ⟨1, _⟩ => rfl
  · rw [dif_neg hin, mul_zero, add_zero]
    by_cases hlt : w.toNat < 53248
    · rw [dif_pos hlt, dif_pos hlt]
      by_cases hb : w.toNat < 4096 * k
      · rw [if_pos hb, if_pos (by omega)]
      · rw [if_neg hb, if_neg (by omega)]
    · rw [dif_neg hlt, dif_neg hlt]

/-- After all thirteen tiles the running selection is the edge message. -/
theorem gatherScale_eq_selBelow (src : SEdgesCol.Idx → BitVec 32) (nrm : SEdgesCol.Idx → EReal) (xp : SNodesP.Idx → EReal)
    (e : Fin 600064) (d : Fin 128) :
    gatherScale src nrm xp (ix2 e d) = selBelow xp (src (ix2 e 0)) (nrm (ix2 e 0)) d 53248 := by
  unfold gatherScale selBelow
  by_cases h : (src (ix2 e 0)).toNat < 53248
  · rw [dif_pos h, dif_pos h, if_pos h]
  · rw [dif_neg h, dif_neg h]

end Cert.KernelIdeal.GatherValue

end
-- ==== Proof.GatherValuePay.lean ====
/-
  The gather body's arithmetic read at one element, at the ideal instance.

  At a grid point with node tile `k` the body forms the 1024 × 4096 matrix whose entry (r, j) is `1` if the source word
  of edge row `r` is the number `4096·k + j` and `0` otherwise (a comparison bit, widened and converted; the narrowing to
  bf16 is the identity on extended reals), multiplies it with the tile's 4096 × 128 node features into a zero
  accumulator, scales row `r` by its edge weight and adds the result to what the scratch held.  Read at (r, d) that is
      prev (r, d) + weight r · ∑ j, [src r = 4096·k + j] · x (j, d).
-/
import proofs.«401625_j82231443849285_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.GatherValue

open Cert.KernelIdeal Cert.KernelIdeal.Gen
open Idealize.ShloMosaic Idealize.ShloMosaic.ValueIdx

/-! ## The product's operand indices, axis by axis -/

theorem lhs_axis0 (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem lhs_axis1 (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
theorem rhs_axis0 (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
theorem rhs_axis1 (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- The product into the zero accumulator at (r, d): the sum over the 4096 contracted rows. -/
theorem matmul_zero_apply (L : FVec Ideal S1024x4096 .bf16) (R : FVec Ideal S4096x128 .bf16) (r : Fin 1024) (d : Fin 128) :
    matmul dot_S1024x4096_S4096x128_S1024x128_1_0_0_1_n_n none L R (constant (F := Ideal) S1024x128 .f32 0x00000000#32) (ix2 r d)
      = ∑ k : Fin 4096, L (ix2 r k) * R (ix2 k d) := by
  simp only [matmul]
  rw [Ideal.matmul_constant_zero_apply, ← Equiv.sum_comp (contrEquiv1 dot_S1024x4096_S4096x128_S1024x128_1_0_0_1_n_n 4096 rfl rfl).symm]
  refine Finset.sum_congr rfl fun k _ => ?_
  have hk := contrEquiv1_symm_val dot_S1024x4096_S4096x128_S1024x128_1_0_0_1_n_n 4096 rfl rfl k
  have el : dot_S1024x4096_S4096x128_S1024x128_1_0_0_1_n_n.lhsIdx (ix2 r d) ((contrEquiv1 dot_S1024x4096_S4096x128_S1024x128_1_0_0_1_n_n 4096 rfl rfl).symm k) = ix2 r k := funext fun a => Fin.ext (by
    match a with
    | ⟨0, _⟩ => exact lhs_axis0 _ _
    | ⟨1, _⟩ => exact (lhs_axis1 _ _).trans hk)
  have er : dot_S1024x4096_S4096x128_S1024x128_1_0_0_1_n_n.rhsIdx (ix2 r d) ((contrEquiv1 dot_S1024x4096_S4096x128_S1024x128_1_0_0_1_n_n 4096 rfl rfl).symm k) = ix2 k d := funext fun a => Fin.ext (by
    match a with
    | ⟨0, _⟩ => exact (rhs_axis0 _ _).trans hk
    | ⟨1, _⟩ => exact rhs_axis1 _ _)
  rw [el, er]

/-! ## The 0/1 matrix -/

/-- A comparison bit, widened to a word and converted, is `1` where the words agree and `0` where they differ. -/
theorem eqBit_toReal (w c : BitVec 32) :
    (FloatOps.sitofp .f32 ((IntOp.cmpi .eq w c).setWidth 32) : Ideal .f32) = if w = c then 1 else 0 := by
  show (((((IntOp.cmpi .eq w c).setWidth 32).toInt : ℤ) : ℝ) : EReal) = _
  by_cases h : w = c
  · have hb : IntOp.cmpi .eq w c = 1#1 := by simp [IntOp.cmpi, h]
    have h1 : ((1#1 : BitVec 1).setWidth 32).toInt = 1 := by decide
    rw [hb, if_pos h, h1]
    simp
  · have hb : IntOp.cmpi .eq w c = 0#1 := by
      show BitVec.ofBool (w == c) = 0#1
      rw [beq_eq_false_iff_ne.mpr h]
      rfl
    have h0 : ((0#1 : BitVec 1).setWidth 32).toInt = 0 := by decide
    rw [hb, if_neg h, h0]
    simp

/-- The numbers of node tile `k`'s rows as words: the lane number plus `4096·k`, with no wrap-around. -/
theorem rowWord (j k : ℕ) : BitVec.ofNat 32 j + BitVec.ofNat 32 k * 4096#32 = BitVec.ofNat 32 (j + 4096 * k) := by
  rw [show (4096#32 : BitVec 32) = BitVec.ofNat 32 4096 from rfl, ← BitVec.ofNat_mul, ← BitVec.ofNat_add, Nat.mul_comm k 4096]

/-- The 0/1 matrix the body builds at node tile `i 1` from the block of source words. -/
def onehot (i : grid0.Coords) (src : Vec Ideal S1024x1 .i32) : FVec Ideal S1024x4096 .bf16 :=
  truncf .bf16
    (sitofp .f32
      (extui 32
        (cmpi .eq
          (broadcastTo S1024x4096 (shapeCast S1024x1 src shapeCasts_S1024x1_S1024x1) broadcasts_S1024x1_S1024x4096)
          (broadcastTo S1024x4096
            (addi (iota .tc S1x4096 32 [1] iota_S1x4096_d1_w32) (broadcast S1x4096 (Scalar.muli (BitVec.ofNat 32 (i 1).val) 4096#32)))
            broadcasts_S1x4096_S1024x4096))
        natLt_1_32))
    bitsLt_bf16_f32

/-- Its entry (r, j): `1` if row `r`'s source word is the number `4096·(i 1) + j`, else `0`. -/
theorem onehot_apply (i : grid0.Coords) (src : Vec Ideal S1024x1 .i32) (r : Fin 1024) (j : Fin 4096) :
    onehot i src (ix2 r j) = if src (ix2 r 0) = BitVec.ofNat 32 (j.val + 4096 * (i 1).val) then 1 else 0 := by
  unfold onehot
  refine (eqBit_toReal _ _).trans ?_
  have e1 : broadcastTo S1024x4096 (shapeCast S1024x1 src shapeCasts_S1024x1_S1024x1) broadcasts_S1024x1_S1024x4096 (ix2 r j)
      = src (ix2 r 0) := by
    refine (broadcastTo_apply _ _ (ix2 r j) (ix2 r 0) ?_).trans (congrFun (shapeCast_self _ _) _)
    intro a
    match a with
    | ⟨0, _⟩ => rfl
    | ⟨1, _⟩ => rfl
  have e2 : broadcastTo S1024x4096
        (addi (iota .tc S1x4096 32 [1] iota_S1x4096_d1_w32) (broadcast S1x4096 (Scalar.muli (BitVec.ofNat 32 (i 1).val) 4096#32)))
        broadcasts_S1x4096_S1024x4096 (ix2 r j)
      = BitVec.ofNat 32 (j.val + 4096 * (i 1).val) := by
    refine (broadcastTo_apply _ _ (ix2 r j) (ix2 (0 : Fin 1) j) ?_).trans ?_
    · intro a
      match a with
      | ⟨0, _⟩ => rfl
      | ⟨1, _⟩ => rfl
    · show IntOp.addi (iota .tc S1x4096 32 [1] iota_S1x4096_d1_w32 (ix2 (0 : Fin 1) j)) (IntOp.muli (BitVec.ofNat 32 (i 1).val) 4096#32) = _
      rw [iota_single_apply]
      exact rowWord _ _
  rw [e1, e2]

/-! ## The payloads at an element -/

/-- The reset value is zero everywhere. -/
theorem pay1_apply (y : S1024x128.Idx) : (k0_pay1 (F := Ideal)) y = 0 := by
  unfold k0_pay1
  refine (congrFun (shapeCast_self _ _) y).trans ?_
  exact Ideal.ofBits_zero_f32

/-- The update at (r, d) at node tile `k`: what the scratch held, plus the edge weight times the one-hot sum over the
    tile's rows. -/
theorem pay2_apply (i : grid0.Coords) (src : Vec Ideal S1024x1 .i32) (x : Vec Ideal S4096x128 .f32) (prev : Vec Ideal S1024x128 .f32)
    (nrm : Vec Ideal S1024x1 .f32) (r : Fin 1024) (d : Fin 128) (k : ℕ) (hk : (i 1).val = k) :
    k0_pay2 (F := Ideal) i src x prev nrm (ix2 r d)
      = prev (ix2 r d) + nrm (ix2 r 0)
          * ∑ j : Fin 4096, (if src (ix2 r 0) = BitVec.ofNat 32 (j.val + 4096 * k) then (1 : EReal) else 0) * x (ix2 j d) := by
  subst hk
  have hform : k0_pay2 (F := Ideal) i src x prev nrm
      = shapeCast S1024x128
          (addf prev
            (mulf (broadcastTo S1024x128 (shapeCast S1024x1 nrm shapeCasts_S1024x1_S1024x1) broadcasts_S1024x1_S1024x128)
              (matmul dot_S1024x4096_S4096x128_S1024x128_1_0_0_1_n_n none (onehot i src)
                (truncf .bf16 (shapeCast S4096x128 x shapeCasts_S4096x128_S4096x128) bitsLt_bf16_f32)
                (constant (F := Ideal) S1024x128 .f32 0x00000000#32))))
          shapeCasts_S1024x128_S1024x128 := rfl
  rw [hform]
  refine (congrFun (shapeCast_self _ _) (ix2 r d)).trans ?_
  refine (addf_apply _ _ _).trans ?_
  refine congrArg (prev (ix2 r d) + ·) ?_
  refine (mulf_apply _ _ _).trans ?_
  have eN : broadcastTo S1024x128 (shapeCast S1024x1 nrm shapeCasts_S1024x1_S1024x1) broadcasts_S1024x1_S1024x128 (ix2 r d)
      = nrm (ix2 r 0) := by
    refine (broadcastTo_apply _ _ (ix2 r d) (ix2 r 0) ?_).trans (congrFun (shapeCast_self _ _) _)
    intro a
    match a with
    | ⟨0, _⟩ => rfl
    | ⟨1, _⟩ => rfl
  rw [eN, matmul_zero_apply]
  refine congrArg (nrm (ix2 r 0) * ·) (Finset.sum_congr rfl fun j _ => ?_)
  rw [onehot_apply]
  refine congrArg ((if src (ix2 r 0) = BitVec.ofNat 32 (j.val + 4096 * (i 1).val) then (1 : EReal) else 0) * ·) ?_
  show shapeCast S4096x128 x shapeCasts_S4096x128_S4096x128 (ix2 j d) = x (ix2 j d)
  exact congrFun (shapeCast_self _ _) _

end Cert.KernelIdeal.GatherValue

end
-- ==== Proof.GatherValue.lean ====
/-
  What the first kernel region leaves in its output array, at the ideal instance: the edge messages by selection
  (GraphConv.lean's `gatherScale`).  The accumulator's recursion over the thirteen node tiles of an edge tile adds,
  per tile, the edge weight times the sum over the tile's 4096 rows of `[src e = n] · x n`; a 0/1 factor selects or
  kills its term on every extended real, so the thirteen summands are one `weight · x (src e)` and twelve zeros.

  The steps: each window's block at a grid point is a rectangle of its array (edge tile `t / 13`, node tile `t % 13`);
  after the point with node tile `k` the scratch at (r, d) holds the weight of edge `1024·(t / 13) + r` times the row
  its source word names if that row lies below `4096·(k + 1)`, else zero (induction on the point); at node tile 12 that
  bound is the whole padded table, the block is written back, and the 586 written blocks tile the output array.
-/
import proofs.«401625_j82231443849285_1_alg».proof.Proof.GraphConv
import proofs.«401625_j82231443849285_1_alg».proof.Proof.GatherFrame
import proofs.«401625_j82231443849285_1_alg».proof.Proof.GatherValueSel
import proofs.«401625_j82231443849285_1_alg».proof.Proof.GatherValuePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GatherValue

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

section Steps

variable (V : (c : Dev nD) → (b : Ref sig .tc) → Buf (Elt Ideal) ((c : Thread nD τ).loc b))

/-- The three input arrays as the region finds them, at their literal types: the source words, the edge weights, the
    padded node features. -/
abbrev srcArr (c : Dev nD) : SEdgesCol.Idx → BitVec 32 := V c main_v5
abbrev nrmArr (c : Dev nD) : SEdgesCol.Idx → EReal := V c main_v9
abbrev xArr (c : Dev nD) : SNodesP.Idx → EReal := V c main_v10

/-! ## The schedule: which block each window holds at a point -/

/-- The printed index maps, decided over the grid: the edge windows and the output sit at edge tile `t / 13`, the node
    window at node tile `t % 13`, which is also the body's second grid coordinate. -/
theorem idx_facts : ∀ t : Fin cfg0.N,
      win0_0.index t (0 : Fin 2) = t.val / 13 ∧ win0_0.index t (1 : Fin 2) = 0
    ∧ win0_1.index t (0 : Fin 2) = t.val / 13 ∧ win0_1.index t (1 : Fin 2) = 0
    ∧ win0_2.index t (0 : Fin 2) = t.val % 13 ∧ win0_2.index t (1 : Fin 2) = 0
    ∧ win0_3.index t (0 : Fin 2) = t.val / 13 ∧ win0_3.index t (1 : Fin 2) = 0
    ∧ (grid0.coords t 1).val = t.val % 13 :=
  (by decide +kernel : ∀ t : Fin grid0.N, _)

/-- Row `r` of the source-word block at point `t` is row `1024·(t / 13) + r` of the array. -/
theorem srcBlk_apply (c : Dev nD) (t : Fin cfg0.N) (r : Fin 1024) (z : Fin 1) (e : Fin 600064)
    (he : e.val = 1024 * (t.val / 13) + r.val) :
    Gather.srcBlk V c t (ix2 r z) = srcArr V c (ix2 e 0) := by
  obtain ⟨h0, h1, -⟩ := idx_facts t
  show Gather.iblk V c 0 t (ix2 r z) = _
  unfold Gather.iblk
  rw [View.read_apply]
  show V c main_v5 _ = V c main_v5 _
  congr 1
  funext a
  apply Fin.ext
  match a with
  | ⟨0, _⟩ => show win0_0.index t (0 : Fin 2) * 1024 + 1 * r.val = e.val; rw [h0, he]; omega
  | ⟨1, _⟩ => show win0_0.index t (1 : Fin 2) * 1 + 1 * z.val = 0; rw [h1]; omega

/-- The same for the edge weights. -/
theorem nrmBlk_apply (c : Dev nD) (t : Fin cfg0.N) (r : Fin 1024) (z : Fin 1) (e : Fin 600064)
    (he : e.val = 1024 * (t.val / 13) + r.val) :
    Gather.nrmBlk V c t (ix2 r z) = nrmArr V c (ix2 e 0) := by
  obtain ⟨-, -, h0, h1, -⟩ := idx_facts t
  show Gather.iblk V c 1 t (ix2 r z) = _
  unfold Gather.iblk
  rw [View.read_apply]
  show V c main_v9 _ = V c main_v9 _
  congr 1
  funext a
  apply Fin.ext
  match a with
  | ⟨0, _⟩ => show win0_1.index t (0 : Fin 2) * 1024 + 1 * r.val = e.val; rw [h0, he]; omega
  | ⟨1, _⟩ => show win0_1.index t (1 : Fin 2) * 1 + 1 * z.val = 0; rw [h1]; omega

/-- Row `j` of the node-feature block at point `t` is row `4096·(t % 13) + j` of the padded table. -/
theorem xBlk_apply (c : Dev nD) (t : Fin cfg0.N) (j : Fin 4096) (d : Fin 128) (q : Fin 53248)
    (hq : q.val = 4096 * (t.val % 13) + j.val) :
    Gather.xBlk V c t (ix2 j d) = xArr V c (ix2 q d) := by
  obtain ⟨-, -, -, -, h0, h1, -⟩ := idx_facts t
  show Gather.iblk V c 2 t (ix2 j d) = _
  unfold Gather.iblk
  rw [View.read_apply]
  show V c main_v10 _ = V c main_v10 _
  congr 1
  funext a
  apply Fin.ext
  match a with
  | ⟨0, _⟩ => show win0_2.index t (0 : Fin 2) * 4096 + 1 * j.val = q.val; rw [h0, hq]; omega
  | ⟨1, _⟩ => show win0_2.index t (1 : Fin 2) * 128 + 1 * d.val = d.val; rw [h1]; omega

/-! ## The accumulator after each point -/

/-- One point: if the scratch held the running selection below this node tile, the update leaves the running selection
    below the next. -/
theorem point_step (c : Dev nD) (t : Fin cfg0.N) (prev : Vec Ideal S1024x128 .f32) (r : Fin 1024) (d : Fin 128) (e : Fin 600064)
    (he : e.val = 1024 * (t.val / 13) + r.val)
    (hprev : prev (ix2 r d) = selBelow (xArr V c) (srcArr V c (ix2 e 0)) (nrmArr V c (ix2 e 0)) d (4096 * (t.val % 13))) :
    k0_pay2 (F := Ideal) (grid0.coords t) (Gather.srcBlk V c t) (Gather.xBlk V c t) prev (Gather.nrmBlk V c t) (ix2 r d)
      = selBelow (xArr V c) (srcArr V c (ix2 e 0)) (nrmArr V c (ix2 e 0)) d (4096 * (t.val % 13 + 1)) := by
  have hk : t.val % 13 < 13 := Nat.mod_lt _ (by decide)
  obtain ⟨-, -, -, -, -, -, -, -, hc1⟩ := idx_facts t
  refine (pay2_apply (grid0.coords t) (Gather.srcBlk V c t) (Gather.xBlk V c t) prev (Gather.nrmBlk V c t) r d (t.val % 13) hc1).trans ?_
  rw [hprev, srcBlk_apply V c t r 0 e he, nrmBlk_apply V c t r 0 e he]
  exact selBelow_step (xArr V c) (srcArr V c (ix2 e 0)) (nrmArr V c (ix2 e 0)) d (t.val % 13) hk
    (fun j => Gather.xBlk V c t (ix2 j d))
    (fun j => xBlk_apply V c t j d ⟨4096 * (t.val % 13) + j.val, by have := j.isLt; omega⟩ rfl)

/-- After the point `n` the scratch at (r, d) holds the weight of edge `1024·(n / 13) + r` times the row its source word
    names if that row lies below `4096·(n % 13 + 1)`, else zero: by induction on the point. -/
theorem acc_eq (c : Dev nD) : ∀ (n : ℕ) (hn : n < cfg0.N) (r : Fin 1024) (d : Fin 128) (e : Fin 600064)
    (he : e.val = 1024 * (n / 13) + r.val),
    Gather.accAt V c n hn (ix2 r d)
      = selBelow (xArr V c) (srcArr V c (ix2 e 0)) (nrmArr V c (ix2 e 0)) d (4096 * (n % 13 + 1))
  | 0, hn, r, d, e, he => by
    rw [Gather.accAt]
    refine point_step V c ⟨0, hn⟩ (k0_pay1 (F := Ideal)) r d e he ?_
    rw [pay1_apply]
    exact (selBelow_zero _ _ _ _).symm
  | n + 1, hn, r, d, e, he => by
    rw [Gather.accAt]
    by_cases h0 : (n + 1) % 13 = 0
    · rw [if_pos h0]
      refine point_step V c ⟨n + 1, hn⟩ (k0_pay1 (F := Ideal)) r d e he ?_
      rw [pay1_apply]
      show (0 : EReal) = selBelow _ _ _ _ (4096 * ((n + 1) % 13))
      rw [h0]
      exact (selBelow_zero _ _ _ _).symm
    · rw [if_neg h0]
      refine point_step V c ⟨n + 1, hn⟩ (Gather.accAt V c n (Nat.lt_of_succ_lt hn)) r d e he ?_
      rw [acc_eq c n (Nat.lt_of_succ_lt hn) r d e (by omega)]
      show selBelow _ _ _ _ (4096 * (n % 13 + 1)) = selBelow _ _ _ _ (4096 * ((n + 1) % 13))
      rw [show (n + 1) % 13 = n % 13 + 1 by omega]

/-! ## From the written blocks to the array -/

/-- What a point with node tile 12 writes back is its block of the edge messages. -/
theorem flushed_eq (c : Dev nD) (t : Fin cfg0.N) (hf : (cfg0.win 3).flush t = true) :
    (Gather.dat0 V c).flushed 3 t
      = ((cfg0.win 3).blk t).view.read (Elt Ideal) (gatherScale (srcArr V c) (nrmArr V c) (xArr V c)) := by
  have h12 : t.val % 13 = 12 := (flush0_3 t).mp hf
  have hN : cfg0.N = 7618 := N_0
  have htlt : t.val < 7618 := hN ▸ t.isLt
  obtain ⟨-, -, -, -, -, -, h30, h31, -⟩ := idx_facts t
  show (cfg0.win 3).cut (grid0.coords t) ((Gather.dat0 V c).after 3 t) = _
  rw [Gather.after_3]
  funext y
  rw [View.read_apply]
  have hy0 : (y 0).val < 1024 := (y 0).isLt
  have hy1 : (y 1).val < 128 := (y 1).isLt
  show Gather.accAt V c t.val t.isLt ((cfg0.win 3).xinj (grid0.coords t) y)
    = gatherScale (srcArr V c) (nrmArr V c) (xArr V c) (((cfg0.win 3).blk t).view.emb y)
  have ex : (cfg0.win 3).xinj (grid0.coords t) y = ix2 (⟨(y 0).val, hy0⟩ : Fin 1024) (⟨(y 1).val, hy1⟩ : Fin 128) := by
    funext a
    match a with
    | ⟨0, _⟩ => rfl
    | ⟨1, _⟩ => rfl
  have ee : ((cfg0.win 3).blk t).view.emb y
      = ix2 (⟨1024 * (t.val / 13) + (y 0).val, by omega⟩ : Fin 600064) (⟨(y 1).val, hy1⟩ : Fin 128) := by
    funext a
    apply Fin.ext
    match a with
    | ⟨0, _⟩ => show win0_3.index t (0 : Fin 2) * 1024 + 1 * (y 0).val = 1024 * (t.val / 13) + (y 0).val; rw [h30]; omega
    | ⟨1, _⟩ => show win0_3.index t (1 : Fin 2) * 128 + 1 * (y 1).val = (y 1).val; rw [h31]; omega
  rw [ex, ee, acc_eq V c t.val t.isLt ⟨(y 0).val, hy0⟩ ⟨(y 1).val, hy1⟩ ⟨1024 * (t.val / 13) + (y 0).val, by omega⟩ rfl,
    gatherScale_eq_selBelow, show 4096 * (t.val % 13 + 1) = 53248 by omega]

/-- Every element of the output array lies in the block some point with node tile 12 writes back: the one of its edge
    tile. -/
theorem covered (c : Dev nD) (i : S600064x128.Idx) :
    ∃ t : Fin cfg0.N, (cfg0.win 3).flush t = true ∧ i ∈ ((cfg0.win 3).blk t).view.set := by
  have hi0 : (i 0).val < 600064 := idx2_lt0 i
  have hi1 : (i 1).val < 128 := idx2_lt1 i
  have hN : cfg0.N = 7618 := N_0
  have hlt : 13 * ((i 0).val / 1024) + 12 < cfg0.N := by rw [hN]; omega
  obtain ⟨-, -, -, -, -, -, h30, h31, -⟩ := idx_facts ⟨13 * ((i 0).val / 1024) + 12, hlt⟩
  refine ⟨⟨13 * ((i 0).val / 1024) + 12, hlt⟩, (flush0_3 _).mpr (by dsimp only; omega), ?_⟩
  show i ∈ ((View.whole main_v13).slice (win0_3.rect ⟨13 * ((i 0).val / 1024) + 12, hlt⟩)).set
  rw [View.set_slice_whole, Rect.mem_set_unit]
  intro a
  match a with
  | ⟨0, _⟩ =>
    show win0_3.index ⟨13 * ((i 0).val / 1024) + 12, hlt⟩ (0 : Fin 2) * 1024 ≤ (i 0).val
      ∧ (i 0).val < win0_3.index ⟨13 * ((i 0).val / 1024) + 12, hlt⟩ (0 : Fin 2) * 1024 + 1024
    rw [h30]; dsimp only; omega
  | ⟨1, _⟩ =>
    show win0_3.index ⟨13 * ((i 0).val / 1024) + 12, hlt⟩ (1 : Fin 2) * 128 ≤ (i 1).val
      ∧ (i 1).val < win0_3.index ⟨13 * ((i 0).val / 1024) + 12, hlt⟩ (1 : Fin 2) * 128 + 128
    rw [h31]; omega

end Steps

/-- The output array after the region's last write-back is the edge messages of the arrays the region was entered with. -/
theorem region_value (V : (c : Dev nD) → (b : Ref sig .tc) → Buf (Elt Ideal) ((c : Thread nD τ).loc b)) (c : Dev nD) :
    ((Gather.dat0 (F := Ideal) V c).arrAt 3 cfg0.N : S600064x128.Idx → EReal)
      = gatherScale (V c main_v5) (V c main_v9) (V c main_v10) :=
  (Gather.dat0 (F := Ideal) V c).arrAt_eq_of_cover 3 (gatherScale (V c main_v5) (V c main_v9) (V c main_v10))
    (fun t hf => flushed_eq V c t hf) (fun i => covered c i)

end Cert.KernelIdeal.GatherValue

end
-- ==== Proof.ScatterValueIdx.lean ====
/-
  Where the second region's blocks sit.  The grid is 13 node tiles × 586 edge tiles, the edge tile innermost: point
  `t` has node tile `t / 586` and edge tile `t % 586`.  The destination words' block is column block `t % 586` of
  their one row, the messages' block row block `t % 586`, the initial features' and the output's blocks row block
  `t / 586`, and the weights' block the whole matrix.  Decided once over the 7618 points.
-/
import proofs.«401625_j82231443849285_1_alg».proof.Proof.Gen.KernelIdeal.Points
import proofs.«401625_j82231443849285_1_alg».proof.Proof.Gen.KernelIdeal.Launch

set_option Elab.async false

noncomputable section

namespace Cert.KernelIdeal.ScatterValue

open Cert.KernelIdeal Cert.KernelIdeal.Gen
open Idealize.ShloMosaic Idealize.ShloMosaic.TcCoe Idealize.SL.Sem

/-- The grid coordinates of point `t`: the node tile and the edge tile. -/
theorem coords_facts : ∀ t : Fin cfg1.N,
    (grid1.coords t (0 : Fin 2)).val = t.val / 586 ∧ (grid1.coords t (1 : Fin 2)).val = t.val % 586 :=
  (by decide +kernel : ∀ t : Fin grid1.N, _)

/-- The block index of each window at point `t`, axis by axis. -/
theorem idx_facts : ∀ t : Fin cfg1.N,
    win1_0.index t (0 : Fin 2) = 0 ∧ win1_0.index t (1 : Fin 2) = t.val % 586
    ∧ win1_1.index t (0 : Fin 2) = t.val % 586 ∧ win1_1.index t (1 : Fin 2) = 0
    ∧ win1_2.index t (0 : Fin 2) = t.val / 586 ∧ win1_2.index t (1 : Fin 2) = 0
    ∧ win1_3.index t (0 : Fin 2) = 0 ∧ win1_3.index t (1 : Fin 2) = 0
    ∧ win1_4.index t (0 : Fin 2) = t.val / 586 ∧ win1_4.index t (1 : Fin 2) = 0 :=
  (by decide +kernel : ∀ t : Fin grid1.N, _)

end Cert.KernelIdeal.ScatterValue

end
-- ==== Proof.ScatterValueTile.lean ====
/-
  The second region's payloads at an index, at the ideal instance.

  The reset stores zero.  The update adds to the accumulator the product of the 0/1 matrix `[n = dst e]` (rows the
  node tile's 4096 nodes, columns the edge tile's 1024 edges) with the edge tile's messages: at row `r`, column `q`
  it adds the sum over the tile's edges of the message's entry where the destination word is the node's number and
  of zero elsewhere — `1 * v = v` and `0 * v = 0` for every extended real `v`.  The final blend is the mix
  `cKeep · acc + cInit · x0` weighted by `cSelf`, plus `cLin` times the mix's product with the transposed weights.
-/
import proofs.«401625_j82231443849285_1_alg».proof.Proof.GraphConv
import proofs.«401625_j82231443849285_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScatterValue

open Cert.KernelIdeal Cert.KernelIdeal.Gen Cert.GraphConv
open Idealize.ShloMosaic Idealize.ShloMosaic.ValueIdx

/-! ## The two products at an index -/

/-- The product of a [4096, 1024] matrix with a [1024, 128] one: the operand indices, axis by axis. -/
theorem edgeLhs_0 (i : S4096x128.Idx) (p : dot_S4096x1024_S1024x128_S4096x128_1_0_0_1_n_n.contr.Idx) :
    (dot_S4096x1024_S1024x128_S4096x128_1_0_0_1_n_n.lhsIdx i p 0).val = (i 0).val := by
  unfold DotDims.lhsIdx
  rw [dif_neg (show ¬(0 : Fin S4096x1024.rank) ∈ dot_S4096x1024_S1024x128_S4096x128_1_0_0_1_n_n.lhsBatch by decide),
    dif_pos (show (0 : Fin S4096x1024.rank) ∈ dot_S4096x1024_S1024x128_S4096x128_1_0_0_1_n_n.lhsNonContracting by decide)]
  rfl
theorem edgeLhs_1 (i : S4096x128.Idx) (p : dot_S4096x1024_S1024x128_S4096x128_1_0_0_1_n_n.contr.Idx) :
    (dot_S4096x1024_S1024x128_S4096x128_1_0_0_1_n_n.lhsIdx i p 1).val = (p ⟨0, by decide⟩).val :=
  dot_S4096x1024_S1024x128_S4096x128_1_0_0_1_n_n.lhsIdx_val_of_single rfl i p
theorem edgeRhs_0 (i : S4096x128.Idx) (p : dot_S4096x1024_S1024x128_S4096x128_1_0_0_1_n_n.contr.Idx) :
    (dot_S4096x1024_S1024x128_S4096x128_1_0_0_1_n_n.rhsIdx i p 0).val = (p ⟨0, by decide⟩).val :=
  dot_S4096x1024_S1024x128_S4096x128_1_0_0_1_n_n.rhsIdx_val_of_single rfl i p
theorem edgeRhs_1 (i : S4096x128.Idx) (p : dot_S4096x1024_S1024x128_S4096x128_1_0_0_1_n_n.contr.Idx) :
    (dot_S4096x1024_S1024x128_S4096x128_1_0_0_1_n_n.rhsIdx i p 1).val = (i 1).val := by
  unfold DotDims.rhsIdx
  rw [dif_neg (show ¬(1 : Fin S1024x128.rank) ∈ dot_S4096x1024_S1024x128_S4096x128_1_0_0_1_n_n.rhsBatch by decide),
    dif_pos (show (1 : Fin S1024x128.rank) ∈ dot_S4096x1024_S1024x128_S4096x128_1_0_0_1_n_n.rhsNonContracting by decide)]
  rfl

/-- Into a zero accumulator it is, at row `r` and column `q`, the sum over the 1024 edges of the products. -/
theorem edgeProduct_apply (a : FVec Ideal S4096x1024 .bf16) (b : FVec Ideal S1024x128 .bf16) (r : Fin 4096) (q : Fin 128) :
    matmul dot_S4096x1024_S1024x128_S4096x128_1_0_0_1_n_n none a b (constant (F := Ideal) S4096x128 .f32 0x00000000#32) (ix2 r q)
      = ∑ k : Fin 1024, a (ix2 r k) * b (ix2 k q) := by
  simp only [matmul]
  rw [Ideal.matmul_constant_zero_apply,
    ← Equiv.sum_comp (contrEquiv1 dot_S4096x1024_S1024x128_S4096x128_1_0_0_1_n_n 1024 rfl rfl).symm]
  refine Finset.sum_congr rfl fun k _ => ?_
  have hk := contrEquiv1_symm_val dot_S4096x1024_S1024x128_S4096x128_1_0_0_1_n_n 1024 rfl rfl k
  have el : dot_S4096x1024_S1024x128_S4096x128_1_0_0_1_n_n.lhsIdx (ix2 r q)
      ((contrEquiv1 dot_S4096x1024_S1024x128_S4096x128_1_0_0_1_n_n 1024 rfl rfl).symm k) = ix2 r k :=
    funext fun a => Fin.ext (by
      match a with
      | ⟨0, _⟩ => exact edgeLhs_0 _ _
      | ⟨1, _⟩ => exact (edgeLhs_1 _ _).trans hk)
  have er : dot_S4096x1024_S1024x128_S4096x128_1_0_0_1_n_n.rhsIdx (ix2 r q)
      ((contrEquiv1 dot_S4096x1024_S1024x128_S4096x128_1_0_0_1_n_n 1024 rfl rfl).symm k) = ix2 k q :=
    funext fun a => Fin.ext (by
      match a with
      | ⟨0, _⟩ => exact (edgeRhs_0 _ _).trans hk
      | ⟨1, _⟩ => exact edgeRhs_1 _ _)
  rw [el, er]

/-- The product of a [4096, 128] matrix with a [128, 128] one: the operand indices, axis by axis. -/
theorem featLhs_0 (i : S4096x128.Idx) (p : dot_S4096x128_S128x128_S4096x128_1_0_0_1_n_n.contr.Idx) :
    (dot_S4096x128_S128x128_S4096x128_1_0_0_1_n_n.lhsIdx i p 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem featLhs_1 (i : S4096x128.Idx) (p : dot_S4096x128_S128x128_S4096x128_1_0_0_1_n_n.contr.Idx) :
    (dot_S4096x128_S128x128_S4096x128_1_0_0_1_n_n.lhsIdx i p 1).val = (p ⟨0, by decide⟩).val :=
  dot_S4096x128_S128x128_S4096x128_1_0_0_1_n_n.lhsIdx_val_of_single rfl i p
theorem featRhs_0 (i : S4096x128.Idx) (p : dot_S4096x128_S128x128_S4096x128_1_0_0_1_n_n.contr.Idx) :
    (dot_S4096x128_S128x128_S4096x128_1_0_0_1_n_n.rhsIdx i p 0).val = (p ⟨0, by decide⟩).val :=
  dot_S4096x128_S128x128_S4096x128_1_0_0_1_n_n.rhsIdx_val_of_single rfl i p
theorem featRhs_1 (i : S4096x128.Idx) (p : dot_S4096x128_S128x128_S4096x128_1_0_0_1_n_n.contr.Idx) :
    (dot_S4096x128_S128x128_S4096x128_1_0_0_1_n_n.rhsIdx i p 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- Into a zero accumulator it is, at row `r` and column `q`, the sum over the 128 features of the products. -/
theorem featProduct_apply (a : FVec Ideal S4096x128 .bf16) (b : FVec Ideal S128x128 .bf16) (r : Fin 4096) (q : Fin 128) :
    matmul dot_S4096x128_S128x128_S4096x128_1_0_0_1_n_n none a b (constant (F := Ideal) S4096x128 .f32 0x00000000#32) (ix2 r q)
      = ∑ k : Fin 128, a (ix2 r k) * b (ix2 k q) := by
  simp only [matmul]
  rw [Ideal.matmul_constant_zero_apply,
    ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r q)
      ((contrEquiv1 dot_S4096x128_S128x128_S4096x128_1_0_0_1_n_n 128 rfl rfl).symm k) = ix2 r k :=
    funext fun a => Fin.ext (by
      match a with
      | ⟨0, _⟩ => exact featLhs_0 _ _
      | ⟨1, _⟩ => exact (featLhs_1 _ _).trans hk)
  have er : dot_S4096x128_S128x128_S4096x128_1_0_0_1_n_n.rhsIdx (ix2 r q)
      ((contrEquiv1 dot_S4096x128_S128x128_S4096x128_1_0_0_1_n_n 128 rfl rfl).symm k) = ix2 k q :=
    funext fun a => Fin.ext (by
      match a with
      | ⟨0, _⟩ => exact (featRhs_0 _ _).trans hk
      | ⟨1, _⟩ => exact featRhs_1 _ _)
  rw [el, er]

/-! ## The 0/1 factor -/

/-- The equality test of two words, widened and read as a float: 1 where they agree, 0 where they differ. -/
theorem eqTest_float (x y : BitVec 32) :
    FloatOps.sitofp (F := Ideal) .f32 ((IntOp.cmpi .eq x y).setWidth 32) = if x = y then 1 else 0 := by
  show (((BitVec.setWidth 32 (IntOp.cmpi .eq x y)).toInt : ℝ) : EReal) = _
  unfold IntOp.cmpi
  by_cases h : x = y
  · have e : (BitVec.setWidth 32 (BitVec.ofBool true)).toInt = 1 := by decide
    rw [if_pos h, h, beq_self_eq_true, e]; simp
  · have e : (BitVec.setWidth 32 (BitVec.ofBool false)).toInt = 0 := by decide
    rw [if_neg h, beq_false_of_ne h, e]; simp

/-- The node numbers of a tile as words: row `r` of node tile `n` is node `4096 · n + r`. -/
theorem nodeWord (r n : ℕ) : BitVec.ofNat 32 r + BitVec.ofNat 32 n * 4096#32 = BitVec.ofNat 32 (4096 * n + r) := by
  rw [show (4096#32 : BitVec 32) = BitVec.ofNat 32 4096 from rfl, ← BitVec.ofNat_mul, ← BitVec.ofNat_add]
  congr 1; omega

/-- A column `[a, 1]` broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads -/

/-- The reset value is zero everywhere. -/
theorem reset_apply (j : S4096x128.Idx) : k1_pay1 (F := Ideal) j = 0 := by
  unfold k1_pay1
  simp only [shapeCast_self]
  exact Ideal.ofBits_zero_f32

/-- The update at row `r`, column `q`: what was there plus the messages of the tile's edges whose destination word
    is the row's node number. -/
theorem update_apply (i : grid1.Coords) (d : Vec Ideal S1x1024 .i32) (m : Vec Ideal S1024x128 .bf16)
    (prev : Vec Ideal S4096x128 .f32) (r : Fin 4096) (q : Fin 128) :
    k1_pay2 (F := Ideal) i d m prev (ix2 r q)
      = prev (ix2 r q) + ∑ j : Fin 1024, if d (ix2 0 j) = BitVec.ofNat 32 (4096 * (i 0).val + r.val) then m (ix2 j q) else 0 := by
  unfold k1_pay2
  simp only [shapeCast_self]
  rw [addf_apply, edgeProduct_apply]
  refine congrArg (prev (ix2 r q) + ·) (Finset.sum_congr rfl fun j _ => ?_)
  rw [truncf_apply, sitofp_apply, extui_apply]
  show FloatOps.sitofp (F := Ideal) .f32 ((IntOp.cmpi .eq (broadcastTo S4096x1024 _ _ (ix2 r j)) (broadcastTo S4096x1024 _ _ (ix2 r j))).setWidth 32) * _ = _
  rw [eqTest_float, broadcastTo_a1_ab_apply, broadcastTo_1b_ab_apply]
  show (if IntOp.addi (iota .tc S4096x1 32 [0] iota_S4096x1_d0_w32 (ix2 r (0 : Fin 1))) (Scalar.muli (BitVec.ofNat 32 (i 0).val) 4096#32) = d (ix2 (0 : Fin 1) j) then (1 : EReal) else 0) * _ = _
  rw [iota_single_apply]
  show (if BitVec.ofNat 32 r.val + BitVec.ofNat 32 (i 0).val * 4096#32 = d (ix2 (0 : Fin 1) j) then (1 : EReal) else 0) * _ = _
  rw [nodeWord, ite_mul, one_mul, zero_mul]
  exact if_congr eq_comm rfl rfl

/-- The blend at row `r`, column `q`. -/
theorem blend_apply (acc x0 : Vec Ideal S4096x128 .f32) (wt : Vec Ideal S128x128 .f32) (r : Fin 4096) (q : Fin 128) :
    k1_pay3 (F := Ideal) acc x0 wt (ix2 r q)
      = cSelf * (cKeep * acc (ix2 r q) + cInit * x0 (ix2 r q))
        + cLin * ∑ k : Fin 128, (cKeep * acc (ix2 r k) + cInit * x0 (ix2 r k)) * wt (ix2 k q) := by
  unfold k1_pay3
  simp only [shapeCast_self]
  rw [addf_apply, mulf_apply, mulf_apply, featProduct_apply]
  simp only [truncf_apply, addf_apply, mulf_apply, broadcast_apply]
  rfl

end Cert.KernelIdeal.ScatterValue

end
-- ==== Proof.ScatterValueAcc.lean ====
/-
  The accumulator of the second region, read at an index.

  Within node tile `tn` the accumulator is reset at edge tile 0 and each edge tile adds, at row `r` and column `q`,
  the messages of its 1024 edges whose destination word is node `4096 · tn + r`.  After edge tile `te` it therefore
  holds the sum of those messages over the first `1024 · (te + 1)` edges, and after the last edge tile the sum over
  all 600064 edges: the row of `scatterSum`.
-/
import proofs.«401625_j82231443849285_1_alg».proof.Proof.GraphConv
import proofs.«401625_j82231443849285_1_alg».proof.Proof.ScatterFrame
import proofs.«401625_j82231443849285_1_alg».proof.Proof.ScatterValueIdx
import proofs.«401625_j82231443849285_1_alg».proof.Proof.ScatterValueTile
import Idealize.ShloMosaic.Lib.Pipeline.Value
import Idealize.ShloMosaic.Lib.ValueIdx

set_option maxRecDepth 16384

noncomputable section

namespace Cert.KernelIdeal.ScatterValue

open Cert.KernelIdeal Cert.KernelIdeal.Gen Cert.GraphConv
open Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- The arrays the region is entered with, at their literal types: the destination words, the messages, the
    initial features, the transposed weights. -/
abbrev dstArr : S1x600064.Idx → BitVec 32 := V c main_v7
abbrev msgArr : S600064x128.Idx → EReal := V c main_v13
abbrev x0Arr : S53248x128.Idx → EReal := V c main_v11
abbrev wtArr : S128x128.Idx → EReal := V c main_v12

/-! ## The blocks, read off the arrays -/

/-- The destination words' block at point `t` is columns `1024 · (t % 586) …` of the one row. -/
theorem dstBlk_apply (t : Fin cfg1.N) (j : Fin 1024) (h : 1024 * (t.val % 586) + j.val < 600064) :
    Scatter.dstBlk V c t (ix2 (0 : Fin 1) j) = dstArr V c (ix2 (0 : Fin 1) ⟨1024 * (t.val % 586) + j.val, h⟩) := by
  obtain ⟨e00, e01, -⟩ := idx_facts t
  show dstArr V c (((cfg1.win 0).blk t).view.emb (ix2 (0 : Fin 1) j)) = _
  refine congrArg _ (funext fun a => Fin.ext ?_)
  match a with
  | ⟨0, _⟩ => show win1_0.index t (0 : Fin 2) * 1 + 1 * 0 = 0; omega
  | ⟨1, _⟩ => show win1_0.index t (1 : Fin 2) * 1024 + 1 * j.val = 1024 * (t.val % 586) + j.val; omega

/-- The messages' block at point `t` is rows `1024 · (t % 586) …`. -/
theorem msgBlk_apply (t : Fin cfg1.N) (j : Fin 1024) (q : Fin 128) (h : 1024 * (t.val % 586) + j.val < 600064) :
    Scatter.msgBlk V c t (ix2 j q) = msgArr V c (ix2 ⟨1024 * (t.val % 586) + j.val, h⟩ q) := by
  obtain ⟨-, -, e10, e11, -⟩ := idx_facts t
  show msgArr V c (((cfg1.win 1).blk t).view.emb (ix2 j q)) = _
  refine congrArg _ (funext fun a => Fin.ext ?_)
  match a with
  | ⟨0, _⟩ => show win1_1.index t (0 : Fin 2) * 1024 + 1 * j.val = 1024 * (t.val % 586) + j.val; omega
  | ⟨1, _⟩ => show win1_1.index t (1 : Fin 2) * 128 + 1 * q.val = q.val; omega

/-- The initial features' block at point `t` is rows `4096 · (t / 586) …`. -/
theorem x0Blk_apply (t : Fin cfg1.N) (r : Fin 4096) (q : Fin 128) (h : 4096 * (t.val / 586) + r.val < 53248) :
    Scatter.x0Blk V c t (ix2 r q) = x0Arr V c (ix2 ⟨4096 * (t.val / 586) + r.val, h⟩ q) := by
  obtain ⟨-, -, -, -, e20, e21, -⟩ := idx_facts t
  show x0Arr V c (((cfg1.win 2).blk t).view.emb (ix2 r q)) = _
  refine congrArg _ (funext fun a => Fin.ext ?_)
  match a with
  | ⟨0, _⟩ => show win1_2.index t (0 : Fin 2) * 4096 + 1 * r.val = 4096 * (t.val / 586) + r.val; omega
  | ⟨1, _⟩ => show win1_2.index t (1 : Fin 2) * 128 + 1 * q.val = q.val; omega

/-- The transposed weights' block is the whole matrix. -/
theorem wtBlk_apply (t : Fin cfg1.N) (k q : Fin 128) : Scatter.wtBlk V c t (ix2 k q) = wtArr V c (ix2 k q) := by
  obtain ⟨-, -, -, -, -, -, e30, e31, -⟩ := idx_facts t
  show wtArr V c (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-! ## The accumulator's recursion, case by case -/

/-- At a node tile's first point the accumulator is the update of zero. -/
theorem accAt_reset (n : ℕ) (h : n < cfg1.N) (hn : n % 586 = 0) :
    Scatter.accAt V c n h
      = k1_pay2 (grid1.coords ⟨n, h⟩) (Scatter.dstBlk V c ⟨n, h⟩) (Scatter.msgBlk V c ⟨n, h⟩) (k1_pay1 (F := Ideal)) := by
  cases n with
  | zero => rfl
  | succ n =>
    show k1_pay2 _ _ _ (if (n + 1) % 586 = 0 then _ else _) = _
    rw [if_pos hn]

/-- At every other point it is the update of what the point before left. -/
theorem accAt_step (n : ℕ) (h : n + 1 < cfg1.N) (hn : ¬(n + 1) % 586 = 0) :
    Scatter.accAt V c (n + 1) h
      = k1_pay2 (grid1.coords ⟨n + 1, h⟩) (Scatter.dstBlk V c ⟨n + 1, h⟩) (Scatter.msgBlk V c ⟨n + 1, h⟩)
          (Scatter.accAt V c n (Nat.lt_of_succ_lt h)) := by
  show k1_pay2 _ _ _ (if (n + 1) % 586 = 0 then _ else _) = _
  rw [if_neg hn]

/-! ## One point's addend -/

/-- Edge `e`'s term for node `n` and column `q`: its message's entry if its destination word is the node's number,
    zero otherwise (and zero past the last edge, so that sums over ranges of naturals need no bound). -/
def edgeTerm (dst : S1x600064.Idx → BitVec 32) (M : S600064x128.Idx → EReal) (n : ℕ) (q : Fin 128) (e : ℕ) : EReal :=
  if h : e < 600064 then (if dst (ix2 (0 : Fin 1) ⟨e, h⟩) = BitVec.ofNat 32 n then M (ix2 ⟨e, h⟩ q) else 0) else 0

/-- The update at point `t` adds the terms of the point's 1024 edges. -/
theorem point_add (t : Fin cfg1.N) (prev : Vec Ideal S4096x128 .f32) (r : Fin 4096) (q : Fin 128) :
    k1_pay2 (F := Ideal) (grid1.coords t) (Scatter.dstBlk V c t) (Scatter.msgBlk V c t) prev (ix2 r q)
      = prev (ix2 r q) + ∑ j ∈ Finset.range 1024,
          edgeTerm (dstArr V c) (msgArr V c) (4096 * (t.val / 586) + r.val) q (1024 * (t.val % 586) + j) := by
  refine (update_apply _ _ _ _ r q).trans ?_
  rw [(coords_facts t).1, Finset.sum_range]
  refine congrArg (prev (ix2 r q) + ·) (Finset.sum_congr rfl fun j _ => ?_)
  have ht : t.val % 586 < 586 := Nat.mod_lt _ (by decide)
  have hb : 1024 * (t.val % 586) + j.val < 600064 := by have := j.isLt; omega
  rw [dstBlk_apply V c t j hb, msgBlk_apply V c t j q hb]
  unfold edgeTerm
  rw [dif_pos hb]

/-! ## The accumulator after each edge tile -/

/-- After edge tile `te` of node tile `tn` the accumulator holds, at row `r` and column `q`, the terms of the first
    `1024 · (te + 1)` edges for node `4096 · tn + r`. -/
theorem acc_prefix (tn : ℕ) (r : Fin 4096) (q : Fin 128) :
    ∀ (te : ℕ) (hte : te < 586) (h : 586 * tn + te < cfg1.N),
      Scatter.accAt V c (586 * tn + te) h (ix2 r q)
        = ∑ e ∈ Finset.range (1024 * (te + 1)), edgeTerm (dstArr V c) (msgArr V c) (4096 * tn + r.val) q e
  | 0, _, h => by
    rw [accAt_reset V c _ h (by omega)]
    refine (point_add V c ⟨586 * tn + 0, h⟩ _ r q).trans ?_
    rw [reset_apply, zero_add]
    show ∑ j ∈ Finset.range 1024, edgeTerm _ _ (4096 * ((586 * tn + 0) / 586) + r.val) q (1024 * ((586 * tn + 0) % 586) + j) = _
    rw [show (586 * tn + 0) / 586 = tn by omega, show (586 * tn + 0) % 586 = 0 by omega]
    simp only [Nat.mul_zero, Nat.zero_add, Nat.mul_one]
  | te + 1, hte, h => by
    show Scatter.accAt V c (586 * tn + te + 1) h (ix2 r q) = _
    rw [accAt_step V c (586 * tn + te) h (by omega)]
    refine (point_add V c ⟨586 * tn + te + 1, h⟩ _ r q).trans ?_
    rw [acc_prefix tn r q te (by omega) (Nat.lt_of_succ_lt h)]
    show _ + ∑ j ∈ Finset.range 1024, edgeTerm _ _ (4096 * ((586 * tn + te + 1) / 586) + r.val) q (1024 * ((586 * tn + te + 1) % 586) + j) = _
    rw [show (586 * tn + te + 1) / 586 = tn by omega, show (586 * tn + te + 1) % 586 = te + 1 by omega,
      show 1024 * (te + 1 + 1) = 1024 * (te + 1) + 1024 by omega, Finset.sum_range_add]

/-- After the last edge tile it holds the row of `scatterSum`. -/
theorem acc_last (tn : ℕ) (h : 586 * tn + 585 < cfg1.N) (r : Fin 4096) (q : Fin 128) (hn : 4096 * tn + r.val < 53248) :
    Scatter.accAt V c (586 * tn + 585) h (ix2 r q)
      = scatterSum (dstArr V c) (msgArr V c) (ix2 ⟨4096 * tn + r.val, hn⟩ q) := by
  rw [acc_prefix V c tn r q 585 (by omega) h]
  show ∑ e ∈ Finset.range 600064, _ = ∑ e : Fin 600064, _
  rw [Finset.sum_range]
  refine Finset.sum_congr rfl fun e _ => ?_
  unfold edgeTerm
  rw [dif_pos e.isLt]

/-- The same at a point named by itself: a node tile's last point `t` (`t % 586 = 585`). -/
theorem acc_flush (t : Fin cfg1.N) (ht : t.val % 586 = 585) (r : Fin 4096) (q : Fin 128)
    (hn : 4096 * (t.val / 586) + r.val < 53248) :
    Scatter.accAt V c t.val t.isLt (ix2 r q)
      = scatterSum (dstArr V c) (msgArr V c) (ix2 ⟨4096 * (t.val / 586) + r.val, hn⟩ q) := by
  have key : ∀ (n : ℕ) (h : n < cfg1.N), n = 586 * (t.val / 586) + 585 →
      Scatter.accAt V c n h (ix2 r q) = scatterSum (dstArr V c) (msgArr V c) (ix2 ⟨4096 * (t.val / 586) + r.val, hn⟩ q) := by
    intro n h e; subst e; exact acc_last V c _ h r q hn
  exact key t.val t.isLt (by omega)

end Cert.KernelIdeal.ScatterValue

end
-- ==== Proof.ScatterValue.lean ====
/-
  What the second kernel region leaves in its output array, at the ideal instance: the dense layer over the padded
  node table (GraphConv.lean's `scatterMix`).  The accumulator's recursion over the 586 edge tiles of a node tile
  adds, per tile, the sum over the tile's 1024 edges of `[n = dst e] · M e`; regrouped, that is the sum over all
  600064 edges, a 0/1 factor selecting or killing its term on every extended real.
-/
import proofs.«401625_j82231443849285_1_alg».proof.Proof.GraphConv
import proofs.«401625_j82231443849285_1_alg».proof.Proof.ScatterFrame
import proofs.«401625_j82231443849285_1_alg».proof.Proof.ScatterValueIdx
import proofs.«401625_j82231443849285_1_alg».proof.Proof.ScatterValueTile
import proofs.«401625_j82231443849285_1_alg».proof.Proof.ScatterValueAcc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScatterValue

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

section Blocks

variable (V : (c : Dev nD) → (b : Ref sig .tc) → Buf (Elt Ideal) ((c : Thread nD τ).loc b)) (c : Dev nD)

/-- What a node tile's last point stores into the output block is the dense layer's rows of that tile: the
    accumulator is the row of `scatterSum`, the initial features' block the same rows of the padded table, the
    weights' block the whole matrix. -/
theorem out_apply (t : Fin cfg1.N) (ht : t.val % 586 = 585) (r : Fin 4096) (q : Fin 128)
    (hn : 4096 * (t.val / 586) + r.val < 53248) :
    Scatter.outAt V c t (ix2 r q)
      = scatterMix (dstArr V c) (msgArr V c) (x0Arr V c) (wtArr V c) (ix2 ⟨4096 * (t.val / 586) + r.val, hn⟩ q) := by
  unfold Scatter.outAt
  refine (blend_apply _ _ _ r q).trans ?_
  have hk : ∀ k : Fin 128,
      (cKeep * Scatter.accAt V c t.val t.isLt (ix2 r k) + cInit * Scatter.x0Blk V c t (ix2 r k)) * Scatter.wtBlk V c t (ix2 k q)
        = mixP (dstArr V c) (msgArr V c) (x0Arr V c) (ix2 ⟨4096 * (t.val / 586) + r.val, hn⟩ k) * wtArr V c (ix2 k q) :=
    fun k => by rw [acc_flush V c t ht r k hn, x0Blk_apply V c t r k hn, wtBlk_apply]; rfl
  rw [Finset.sum_congr rfl fun k _ => hk k, acc_flush V c t ht r q hn, x0Blk_apply V c t r q hn]
  rfl

/-- So what that point writes back is its block of the dense layer. -/
theorem flushed_eq (t : Fin cfg1.N) (hf : (cfg1.win 4).flush t = true) :
    (Scatter.dat1 V c).flushed 4 t
      = ((cfg1.win 4).blk t).view.read (Elt Ideal) (scatterMix (dstArr V c) (msgArr V c) (x0Arr V c) (wtArr V c)) := by
  have ht : t.val % 586 = 585 := (flush1_4 t).mp hf
  obtain ⟨-, -, -, -, -, -, -, -, e40, e41⟩ := idx_facts t
  show (cfg1.win 4).cut (grid1.coords t) ((Scatter.dat1 V c).after 4 t) = _
  rw [Scatter.after_4]
  refine funext fun (y : S4096x128.Idx) => ?_
  obtain ⟨r, q, rfl⟩ : ∃ (r : Fin 4096) (q : Fin 128), y = ix2 r q := ⟨y 0, y 1, eq_ix2 y⟩
  have hN : cfg1.N = 7618 := N_1
  have hn : 4096 * (t.val / 586) + r.val < 53248 := by have := t.isLt; have := r.isLt; omega
  show Scatter.outAt V c t (ix2 r q)
    = scatterMix (dstArr V c) (msgArr V c) (x0Arr V c) (wtArr V c) (((cfg1.win 4).blk t).view.emb (ix2 r q))
  rw [out_apply V c t ht r q hn]
  refine congrArg _ (funext fun a => Fin.ext ?_)
  match a with
  | ⟨0, _⟩ => show 4096 * (t.val / 586) + r.val = win1_4.index t (0 : Fin 2) * 4096 + 1 * r.val; omega
  | ⟨1, _⟩ => show q.val = win1_4.index t (1 : Fin 2) * 128 + 1 * q.val; omega

end Blocks

/-- An index of the output array is in point `t`'s block iff each coordinate is in the block's range on its axis. -/
theorem mem_blk (t : Fin cfg1.N) (i : S53248x128.Idx) :
    i ∈ ((cfg1.win 4).blk t).view.set ↔ ∀ a : Fin 2, win1_4.index t a * S4096x128.size a ≤ (i a).val
      ∧ (i a).val < win1_4.index t a * S4096x128.size a + S4096x128.size a := by
  show i ∈ ((View.whole main_v14).slice (win1_4.rect t)).set ↔ _
  rw [View.set_slice_whole, Rect.mem_set_unit]
  exact Iff.rfl

/-- Row `n` of the output array is in the block the last point of node tile `n / 4096` writes back. -/
theorem cover (i : S53248x128.Idx) :
    ∃ t : Fin cfg1.N, (cfg1.win 4).flush t = true ∧ i ∈ ((cfg1.win 4).blk t).view.set := by
  have hN : cfg1.N = 7618 := N_1
  have hi0 : (i 0).val < 53248 := idx2_lt0 i
  have hi1 : (i 1).val < 128 := idx2_lt1 i
  have ht : 586 * ((i 0).val / 4096) + 585 < cfg1.N := by rw [hN]; omega
  refine ⟨⟨586 * ((i 0).val / 4096) + 585, ht⟩, (flush1_4 _).mpr (by show (586 * ((i 0).val / 4096) + 585) % 586 = 585; omega), ?_⟩
  obtain ⟨-, -, -, -, -, -, -, -, e40, e41⟩ := idx_facts ⟨586 * ((i 0).val / 4096) + 585, ht⟩
  have e40' : win1_4.index ⟨586 * ((i 0).val / 4096) + 585, ht⟩ (0 : Fin 2) = (i 0).val / 4096 := by
    rw [e40]; show (586 * ((i 0).val / 4096) + 585) / 586 = _; omega
  rw [mem_blk]
  intro a
  match a with
  | ⟨0, _⟩ =>
    show win1_4.index ⟨586 * ((i 0).val / 4096) + 585, ht⟩ (0 : Fin 2) * 4096 ≤ (i 0).val
      ∧ (i 0).val < win1_4.index ⟨586 * ((i 0).val / 4096) + 585, ht⟩ (0 : Fin 2) * 4096 + 4096
    rw [e40']; omega
  | ⟨1, _⟩ =>
    show win1_4.index ⟨586 * ((i 0).val / 4096) + 585, ht⟩ (1 : Fin 2) * 128 ≤ (i 1).val
      ∧ (i 1).val < win1_4.index ⟨586 * ((i 0).val / 4096) + 585, ht⟩ (1 : Fin 2) * 128 + 128
    rw [e41]; omega

/-- The output array after the region's last write-back is the dense layer of the arrays the region was entered with. -/
theorem region_value (V : (c : Dev nD) → (b : Ref sig .tc) → Buf (Elt Ideal) ((c : Thread nD τ).loc b)) (c : Dev nD) :
    ((Scatter.dat1 (F := Ideal) V c).arrAt 4 cfg1.N : S53248x128.Idx → EReal)
      = scatterMix (V c main_v7) (V c main_v13) (V c main_v11) (V c main_v12) :=
  (Scatter.dat1 V c).arrAt_eq_of_cover 4 (scatterMix (dstArr V c) (msgArr V c) (x0Arr V c) (wtArr V c))
    (flushed_eq V c) cover

end Cert.KernelIdeal.ScatterValue

end
-- ==== Proof.HostValue.lean ====
/-
  The host operations around the two kernel regions, at the ideal instance, read at an index: the source and
  destination words sliced out of the edge list and padded with zero words, the edge weights and the two node tables
  padded with zeros, the weights transposed; and the closing slice, which keeps the first 50000 rows.
-/
import proofs.«401625_j82231443849285_1_alg».proof.Proof.GraphConv
import proofs.«401625_j82231443849285_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.HostValue

open Cert.KernelIdeal Cert.KernelIdeal.Gen Cert.GraphConv
open Idealize.ShloMosaic Idealize.ShloMosaic.TcCoe Idealize.SL.Sem Idealize.ShloMosaic.ValueIdx

variable (m : (ℓ : Loc nD τ sig) → Buf (Elt Ideal) ℓ) (c : Dev nD)

/-! ## A pad with trailing entries, read at an index -/

section PadRead
variable {α : Type}

/-- A vector of `n` entries padded at the end to `N` entries reads, at `j`, the operand's entry `j` below `n`
    and the padding value from `n` on. -/
theorem pad_tail1_apply {n N : Nat} (k : Nat) (x : (⟨1, ![n]⟩ : Shape).Idx → α) {u : Shape} (v : u.Idx → α)
    (hp : (⟨1, ![n]⟩ : Shape).Pads (![0] : Fin 1 → Nat) ![k] ![0] ⟨1, ![N]⟩) (hu : 0 < u.numel) (j : Fin N) :
    pad ⟨1, ![N]⟩ ![0] ![k] ![0] x v hp hu (ix1 j)
      = if h : j.val < n then x (ix1 ⟨j.val, h⟩) else v (Shape.Idx.first hu) := by
  by_cases h : j.val < n
  · rw [dif_pos h]
    exact pad_apply_of_inside _ _ _ x v hp hu _ (ix1 (⟨j.val, h⟩ : Fin n)) (fun a => by
      have ha : a = 0 := Subsingleton.elim _ _
      subst ha
      show j.val = 0 + j.val * (0 + 1); omega)
  · rw [dif_neg h]
    exact pad_apply_of_not_inside _ _ _ x v hp hu _ (0 : Fin 1) (fun hin => by
      have e : (j.val - 0) / (0 + 1) < n := hin.2.2
      rw [Nat.sub_zero, Nat.zero_add, Nat.div_one] at e
      exact h e)

/-- A matrix of `n` rows padded at the end to `N` rows reads, at `(i, j)`, the operand's entry `(i, j)` in a row below
    `n` and the padding value in the rows from `n` on. -/
theorem pad_tailRows_apply {n N w : Nat} (k : Nat) (x : (⟨2, ![n, w]⟩ : Shape).Idx → α) {u : Shape} (v : u.Idx → α)
    (hp : (⟨2, ![n, w]⟩ : Shape).Pads (![0, 0] : Fin 2 → Nat) ![k, 0] ![0, 0] ⟨2, ![N, w]⟩) (hu : 0 < u.numel)
    (i : Fin N) (j : Fin w) :
    pad ⟨2, ![N, w]⟩ ![0, 0] ![k, 0] ![0, 0] x v hp hu (ix2 i j)
      = if h : i.val < n then x (ix2 ⟨i.val, h⟩ j) else v (Shape.Idx.first hu) := by
  by_cases h : i.val < n
  · rw [dif_pos h]
    exact pad_apply_of_inside _ _ _ x v hp hu _ (ix2 (⟨i.val, h⟩ : Fin n) j) (fun a => by
      match a with
      | ⟨0, _⟩ => show i.val = 0 + i.val * (0 + 1); omega
      | ⟨1, _⟩ => show j.val = 0 + j.val * (0 + 1); omega)
  · rw [dif_neg h]
    exact pad_apply_of_not_inside _ _ _ x v hp hu _ (0 : Fin 2) (fun hin => by
      have e : (i.val - 0) / (0 + 1) < n := hin.2.2
      rw [Nat.sub_zero, Nat.zero_add, Nat.div_one] at e
      exact h e)

end PadRead

/-! ## The arguments reach every stretch as launched -/

theorem arg0_V7 : Gen.V7 m c (Proc.devRef .tc main_arg0) = m ((c : Thread nD τ).loc main_arg0) :=
  (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem arg1_V9 : Gen.V9 m c (Proc.devRef .tc main_arg1) = m ((c : Thread nD τ).loc main_arg1) :=
  (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem arg3_V5 : Gen.V5 m c (Proc.devRef .tc main_arg3) = m ((c : Thread nD τ).loc main_arg3) :=
  (V5_of m c main_arg3 (by decide)).trans <| (V4_of m c main_arg3 (by decide)).trans <| (V3_of m c main_arg3 (by decide)).trans <| (V2_of m c main_arg3 (by decide)).trans <| (V1_of m c main_arg3 (by decide)).trans rfl
theorem arg4_V10 : Gen.V10 m c (Proc.devRef .tc main_arg4) = m ((c : Thread nD τ).loc main_arg4) :=
  (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

/-! ## Each stretch's results as terms over the contents before it -/

/-- The first stretch: both rows of the edge list as vectors. -/
theorem v1_V1 : (Gen.V1 m c (Proc.devRef .tc main_v1) : S600000.Idx → BitVec 32)
    = shapeCast S600000 (extractStridedSlice S1x600000 ![0, 0] (m ((c : Thread nD τ).loc main_arg2) : S2x600000.Idx → BitVec 32) slices_S2x600000_S1x600000_0_0) shapeCasts_S1x600000_S600000 := by
  dsimp only [Gen.V1, Gen.hostOps0]
  after_results
  rfl
theorem v3_V1 : (Gen.V1 m c (Proc.devRef .tc main_v3) : S600000.Idx → BitVec 32)
    = shapeCast S600000 (extractStridedSlice S1x600000 ![1, 0] (m ((c : Thread nD τ).loc main_arg2) : S2x600000.Idx → BitVec 32) slices_S2x600000_S1x600000_1_0) shapeCasts_S1x600000_S600000 := by
  dsimp only [Gen.V1, Gen.hostOps0]
  after_results
  rfl

/-- A call of the padding function over the source words: the vector padded with the zero word. -/
theorem v4_V2 : (Gen.V2 m c (Proc.devRef .tc main_v4) : S600064.Idx → BitVec 32)
    = pad S600064 ![0] ![64] ![0] (Gen.V1 m c (Proc.devRef .tc main_v1) : S600000.Idx → BitVec 32) (constantI S_ 32 0#32) pads_S600000_S600064_0640 h_S_ := by
  dsimp only [Gen.V2, Gen.hostOps0_1]
  after_results
  rfl
/-- The padded source words as a column. -/
theorem v5_V3 : (Gen.V3 m c (Proc.devRef .tc main_v5) : S600064x1.Idx → BitVec 32)
    = shapeCast S600064x1 (Gen.V2 m c (Proc.devRef .tc main_v4) : S600064.Idx → BitVec 32) shapeCasts_S600064_S600064x1 := by
  dsimp only [Gen.V3, Gen.hostOps0_2]
  after_results
  rfl
/-- A call of the padding function over the destination words. -/
theorem v6_V4 : (Gen.V4 m c (Proc.devRef .tc main_v6) : S600064.Idx → BitVec 32)
    = pad S600064 ![0] ![64] ![0] (Gen.V3 m c (Proc.devRef .tc main_v3) : S600000.Idx → BitVec 32) (constantI S_ 32 0#32) pads_S600000_S600064_0640 h_S_ := by
  dsimp only [Gen.V4, Gen.hostOps0_3]
  after_results
  rfl
/-- The padded destination words as a row. -/
theorem v7_V5 : (Gen.V5 m c (Proc.devRef .tc main_v7) : S1x600064.Idx → BitVec 32)
    = shapeCast S1x600064 (Gen.V4 m c (Proc.devRef .tc main_v6) : S600064.Idx → BitVec 32) shapeCasts_S600064_S1x600064 := by
  dsimp only [Gen.V5, Gen.hostOps0_4]
  after_results
  rfl
/-- A call of the padding function over the edge weights: the padding value is the zero word converted. -/
theorem v8_V6 : (Gen.V6 m c (Proc.devRef .tc main_v8) : S600064.Idx → EReal)
    = pad S600064 ![0] ![64] ![0] (Gen.V5 m c (Proc.devRef .tc main_arg3) : S600000.Idx → EReal) (sitofp (F := Ideal) .f32 (constantI S_ 32 0#32)) pads_S600000_S600064_0640 h_S_ := by
  dsimp only [Gen.V6, Gen.hostOps0_5]
  after_results
  rfl
/-- The padded edge weights as a column. -/
theorem v9_V7 : (Gen.V7 m c (Proc.devRef .tc main_v9) : S600064x1.Idx → EReal)
    = shapeCast S600064x1 (Gen.V6 m c (Proc.devRef .tc main_v8) : S600064.Idx → EReal) shapeCasts_S600064_S600064x1 := by
  dsimp only [Gen.V7, Gen.hostOps0_6]
  after_results
  rfl
/-- A call of the padding function over the node features. -/
theorem v10_V8 : (Gen.V8 m c (Proc.devRef .tc main_v10) : S53248x128.Idx → EReal)
    = pad S53248x128 ![0, 0] ![3248, 0] ![0, 0] (Gen.V7 m c (Proc.devRef .tc main_arg0) : S50000x128.Idx → EReal) (sitofp (F := Ideal) .f32 (constantI S_ 32 0#32)) pads_S50000x128_S53248x128_032480_000 h_S_ := by
  dsimp only [Gen.V8, Gen.hostOps0_7]
  after_results
  rfl
/-- A call of the padding function over the initial features. -/
theorem v11_V10 : (Gen.V10 m c (Proc.devRef .tc main_v11) : S53248x128.Idx → EReal)
    = pad S53248x128 ![0, 0] ![3248, 0] ![0, 0] (Gen.V9 m c (Proc.devRef .tc main_arg1) : S50000x128.Idx → EReal) (sitofp (F := Ideal) .f32 (constantI S_ 32 0#32)) pads_S50000x128_S53248x128_032480_000 h_S_ := by
  dsimp only [Gen.V10, Gen.hostOps0_9]
  after_results
  rfl
/-- The last stretch before the regions: the weights transposed. -/
theorem v12_V11 : (Gen.V11 m c (Proc.devRef .tc main_v12) : S128x128.Idx → EReal)
    = transpose S128x128 [1, 0] (Gen.V10 m c (Proc.devRef .tc main_arg4) : S128x128.Idx → EReal) transposes_S128x128_S128x128_1_0 := by
  dsimp only [Gen.V11, Gen.hostOps0_10]
  after_results

/-! ## A result reaches the first region as its stretch left it -/

theorem v3_V3 : Gen.V3 m c (Proc.devRef .tc main_v3) = Gen.V1 m c (Proc.devRef .tc main_v3) :=
  (V3_of m c main_v3 (by decide)).trans (V2_of m c main_v3 (by decide))
theorem v5_V11 : Gen.V11 m c (Proc.devRef .tc main_v5) = Gen.V3 m c (Proc.devRef .tc main_v5) :=
  (V11_of m c main_v5 (by decide)).trans <| (V10_of m c main_v5 (by decide)).trans <| (V9_of m c main_v5 (by decide)).trans <| (V8_of m c main_v5 (by decide)).trans <| (V7_of m c main_v5 (by decide)).trans <| (V6_of m c main_v5 (by decide)).trans <| (V5_of m c main_v5 (by decide)).trans (V4_of m c main_v5 (by decide))
theorem v7_V11 : Gen.V11 m c (Proc.devRef .tc main_v7) = Gen.V5 m c (Proc.devRef .tc main_v7) :=
  (V11_of m c main_v7 (by decide)).trans <| (V10_of m c main_v7 (by decide)).trans <| (V9_of m c main_v7 (by decide)).trans <| (V8_of m c main_v7 (by decide)).trans <| (V7_of m c main_v7 (by decide)).trans (V6_of m c main_v7 (by decide))
theorem v9_V11 : Gen.V11 m c (Proc.devRef .tc main_v9) = Gen.V7 m c (Proc.devRef .tc main_v9) :=
  (V11_of m c main_v9 (by decide)).trans <| (V10_of m c main_v9 (by decide)).trans <| (V9_of m c main_v9 (by decide)).trans (V8_of m c main_v9 (by decide))
theorem v10_V11 : Gen.V11 m c (Proc.devRef .tc main_v10) = Gen.V8 m c (Proc.devRef .tc main_v10) :=
  (V11_of m c main_v10 (by decide)).trans <| (V10_of m c main_v10 (by decide)).trans (V9_of m c main_v10 (by decide))
theorem v11_V11 : Gen.V11 m c (Proc.devRef .tc main_v11) = Gen.V10 m c (Proc.devRef .tc main_v11) :=
  V11_of m c main_v11 (by decide)

/-! ## The padded column, row and table read at an index -/

section Reads
variable {α : Type}

/-- A padded vector laid as a column reads, at `i`, the vector's entry `i 0` below 600000 and the padding value from
    there on. -/
theorem col_pad_apply (x : S600000.Idx → α) (v : S_.Idx → α) (i : S600064x1.Idx) :
    shapeCast S600064x1 (pad S600064 ![0] ![64] ![0] x v pads_S600000_S600064_0640 h_S_) shapeCasts_S600064_S600064x1 i
      = if h : (i 0).val < 600000 then x (ix1 ⟨(i 0).val, h⟩) else v (Shape.Idx.first h_S_) := by
  rw [shapeCast_apply _ shapeCasts_S600064_S600064x1 i (ix1 (i 0)) (by
    rw [Shape.rowMajor_val_one, Shape.rowMajor_val_two]
    have h1 : (i 1).val < 1 := idx2_lt1 i
    show (i 0).val = (i 0).val * 1 + (i 1).val
    omega)]
  exact pad_tail1_apply 64 x v pads_S600000_S600064_0640 h_S_ (i 0)

/-- A padded vector laid as a row reads, at `i`, the vector's entry `i 1` below 600000 and the padding value from
    there on. -/
theorem row_pad_apply (x : S600000.Idx → α) (v : S_.Idx → α) (i : S1x600064.Idx) :
    shapeCast S1x600064 (pad S600064 ![0] ![64] ![0] x v pads_S600000_S600064_0640 h_S_) shapeCasts_S600064_S1x600064 i
      = if h : (i 1).val < 600000 then x (ix1 ⟨(i 1).val, h⟩) else v (Shape.Idx.first h_S_) := by
  rw [shapeCast_apply _ shapeCasts_S600064_S1x600064 i (ix1 (i 1)) (by
    rw [Shape.rowMajor_val_one, Shape.rowMajor_val_two]
    have h0 : (i 0).val < 1 := idx2_lt0 i
    show (i 1).val = (i 0).val * 600064 + (i 1).val
    omega)]
  exact pad_tail1_apply 64 x v pads_S600000_S600064_0640 h_S_ (i 1)

/-- Row `r` of the edge list as a vector reads, at `e`, the list's entry `(r, e)`. -/
theorem edgeRow_apply (r : Fin 2) (ei : S2x600000.Idx → α) (hs : S2x600000.Slices ![r.val, 0] S1x600000) (e : Fin 600000) :
    shapeCast S600000 (extractStridedSlice S1x600000 ![r.val, 0] ei hs) shapeCasts_S1x600000_S600000 (ix1 e) = ei (ix2 r e) := by
  rw [shapeCast_1a_a_apply]
  exact slice2_axis0_apply r.val ei hs (0 : Fin 1) e r (by show r.val = r.val + 0; omega)

/-- The padded node table reads, at `i`, the table's entry in a row below 50000 and the padding value below. -/
theorem nodes_pad_apply (x : S50000x128.Idx → α) (v : S_.Idx → α) (i : S53248x128.Idx) :
    pad S53248x128 ![0, 0] ![3248, 0] ![0, 0] x v pads_S50000x128_S53248x128_032480_000 h_S_ i
      = if h : (i 0).val < 50000 then x (ix2 ⟨(i 0).val, h⟩ (i 1)) else v (Shape.Idx.first h_S_) := by
  rw [eq_ix2 i]
  exact pad_tailRows_apply 3248 x v pads_S50000x128_S53248x128_032480_000 h_S_ (i 0) (i 1)

end Reads

/-- The float padding value: the zero word converted is zero. -/
theorem padValue_eq (j : S_.Idx) : (sitofp (F := Ideal) .f32 (constantI S_ 32 0#32) : S_.Idx → EReal) j = 0 :=
  sitofp_zero

/-! ## The seven facts -/

/-- The padded source words. -/
theorem src_eq : (Gen.V11 m c (Proc.devRef .tc main_v5) : S600064x1.Idx → BitVec 32) = padSrc (m ((c : Thread nD τ).loc main_arg2)) := by
  rw [v5_V11, v5_V3, v4_V2, v1_V1]
  funext i
  rw [col_pad_apply]
  unfold padSrc
  by_cases h : (i 0).val < 600000
  · rw [dif_pos h, dif_pos h]
    exact edgeRow_apply (0 : Fin 2) _ slices_S2x600000_S1x600000_0_0 ⟨(i 0).val, h⟩
  · rw [dif_neg h, dif_neg h]
    rfl
/-- The padded edge weights. -/
theorem nrm_eq : (Gen.V11 m c (Proc.devRef .tc main_v9) : S600064x1.Idx → EReal) = padNrm (m ((c : Thread nD τ).loc main_arg3)) := by
  rw [v9_V11, v9_V7, v8_V6, arg3_V5]
  funext i
  rw [col_pad_apply]
  unfold padNrm
  by_cases h : (i 0).val < 600000
  · rw [dif_pos h, dif_pos h]
  · rw [dif_neg h, dif_neg h]
    exact padValue_eq _
/-- The padded node features. -/
theorem x_eq : (Gen.V11 m c (Proc.devRef .tc main_v10) : S53248x128.Idx → EReal) = padNodes (m ((c : Thread nD τ).loc main_arg0)) := by
  rw [v10_V11, v10_V8, arg0_V7]
  funext i
  rw [nodes_pad_apply]
  unfold padNodes
  by_cases h : (i 0).val < 50000
  · rw [dif_pos h, dif_pos h]
  · rw [dif_neg h, dif_neg h]
    exact padValue_eq _
/-- The padded destination words. -/
theorem dst_eq : (Gen.V11 m c (Proc.devRef .tc main_v7) : S1x600064.Idx → BitVec 32) = padDst (m ((c : Thread nD τ).loc main_arg2)) := by
  rw [v7_V11, v7_V5, v6_V4, v3_V3, v3_V1]
  funext i
  rw [row_pad_apply]
  unfold padDst
  by_cases h : (i 1).val < 600000
  · rw [dif_pos h, dif_pos h]
    exact edgeRow_apply (1 : Fin 2) _ slices_S2x600000_S1x600000_1_0 ⟨(i 1).val, h⟩
  · rw [dif_neg h, dif_neg h]
    rfl
/-- The padded initial features. -/
theorem x0_eq : (Gen.V11 m c (Proc.devRef .tc main_v11) : S53248x128.Idx → EReal) = padNodes (m ((c : Thread nD τ).loc main_arg1)) := by
  rw [v11_V11, v11_V10, arg1_V9]
  funext i
  rw [nodes_pad_apply]
  unfold padNodes
  by_cases h : (i 0).val < 50000
  · rw [dif_pos h, dif_pos h]
  · rw [dif_neg h, dif_neg h]
    exact padValue_eq _
/-- The transposed weights. -/
theorem wt_eq : (Gen.V11 m c (Proc.devRef .tc main_v12) : S128x128.Idx → EReal) = transp (m ((c : Thread nD τ).loc main_arg4)) := by
  rw [v12_V11, arg4_V10]
  funext i
  unfold transp
  exact transpose_apply [1, 0] _ transposes_S128x128_S128x128_1_0 i (ix2 (i 1) (i 0)) (fun b => match b with
    | ⟨0, _⟩ => rfl
    | ⟨1, _⟩ => rfl)
/-- The closing slice keeps the first 50000 rows of the second region's output. -/
theorem result_eq (Wo : Valuation τ sig (Elt Ideal)) :
    (StableHlo.after hostOps2 Wo (Proc.devRef .tc main_v15) : S50000x128.Idx → EReal) = firstRows (Wo (Proc.devRef .tc main_v14)) := by
  have e : (StableHlo.after hostOps2 Wo (Proc.devRef .tc main_v15) : S50000x128.Idx → EReal)
      = extractStridedSlice S50000x128 ![0, 0] (Wo (Proc.devRef .tc main_v14) : S53248x128.Idx → EReal) slices_S53248x128_S50000x128_0_0 := by
    dsimp only [Gen.hostOps2]
    after_results
  rw [e]
  funext i
  unfold firstRows
  exact extractStridedSlice_apply (s := S53248x128) ![0, 0] _ slices_S53248x128_S50000x128_0_0 i _ (fun a => match a with
    | ⟨0, _⟩ => by show (i 0).val = 0 + (i 0).val; omega
    | ⟨1, _⟩ => by show (i 1).val = 0 + (i 1).val; omega)

end Cert.KernelIdeal.HostValue

end
-- ==== Proof.KernelResult.lean ====
/-
  The idealized kernel program's result as a function of its arguments: the closing slice of the second region's
  output, which is the dense layer of the first region's messages and the padded arguments; with every source word a
  node number that is the layer of GraphConv.lean.
-/
import proofs.«401625_j82231443849285_1_alg».proof.Proof.Run
import proofs.«401625_j82231443849285_1_alg».proof.Proof.GatherValue
import proofs.«401625_j82231443849285_1_alg».proof.Proof.ScatterValue
import proofs.«401625_j82231443849285_1_alg».proof.Proof.HostValue
import proofs.«401625_j82231443849285_1_alg».proof.Proof.GraphConv

noncomputable section

namespace Cert.KernelIdeal.Result

open Cert.KernelIdeal Cert.KernelIdeal.Gen Cert.GraphConv
open Idealize.ShloMosaic Idealize.ShloMosaic.TcCoe Idealize.SL.Sem Idealize.ShloMosaic.ValueIdx

variable (m : (ℓ : Loc nD τ sig) → Buf (Elt Ideal) ℓ) (c : Dev nD)

/-- The second region is entered with the destination words, the initial features and the transposed weights as the
    host operations left them (the first region does not touch them) and with the first region's messages. -/
theorem entry_dst : (Run.Vin1 m c main_v7 : S1x600064.Idx → BitVec 32) = padDst (m ((c : Thread nD τ).loc main_arg2)) :=
  (Run.Wmid_of_ne m c main_v7 (by decide)).trans (HostValue.dst_eq m c)
theorem entry_x0 : (Run.Vin1 m c main_v11 : S53248x128.Idx → EReal) = padNodes (m ((c : Thread nD τ).loc main_arg1)) :=
  (Run.Wmid_of_ne m c main_v11 (by decide)).trans (HostValue.x0_eq m c)
theorem entry_wt : (Run.Vin1 m c main_v12 : S128x128.Idx → EReal) = transp (m ((c : Thread nD τ).loc main_arg4)) :=
  (Run.Wmid_of_ne m c main_v12 (by decide)).trans (HostValue.wt_eq m c)
theorem entry_msgs : (Run.Vin1 m c main_v13 : S600064x128.Idx → EReal)
    = gatherScale (padSrc (m ((c : Thread nD τ).loc main_arg2))) (padNrm (m ((c : Thread nD τ).loc main_arg3))) (padNodes (m ((c : Thread nD τ).loc main_arg0))) := by
  refine (Run.Wmid_arr m c 3).trans ?_
  rw [GatherValue.region_value]
  show gatherScale (Gen.V11 m c (Proc.devRef .tc main_v5)) (Gen.V11 m c (Proc.devRef .tc main_v9)) (Gen.V11 m c (Proc.devRef .tc main_v10)) = _
  rw [HostValue.src_eq, HostValue.nrm_eq, HostValue.x_eq]

/-- THE RESULT: with every source word a node number, the program's result buffer ends at the layer of its arguments. -/
theorem result_eq (hsrc : ∀ e : Fin 600000, ((m ((c : Thread nD τ).loc main_arg2) : S2x600000.Idx → BitVec 32) (ix2 0 e)).toNat < 50000) :
    (Run.Wend m c (Proc.devRef .tc main_v15) : S50000x128.Idx → EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  refine (HostValue.result_eq (Run.Wout m c)).trans ?_
  rw [show (Run.Wout m c (Proc.devRef .tc main_v14) : S53248x128.Idx → EReal) = (Scatter.dat1 (Run.Vin1 m) c).arrAt 4 cfg1.N from Run.Wout_arr m c 4]
  rw [ScatterValue.region_value, entry_dst, entry_x0, entry_wt, entry_msgs]
  exact dense_eq_layer _ _ _ _ _ hsrc

end Cert.KernelIdeal.Result

end
-- ==== Proof.RefLayer.lean ====
/-
  The reference program's result is the layer of GraphConv.lean, index by index.
-/
import proofs.«401625_j82231443849285_1_alg».proof.Proof.Gen.ReferenceIdeal.Run
import proofs.«401625_j82231443849285_1_alg».proof.Proof.Gen.ReferenceIdeal.Read
import proofs.«401625_j82231443849285_1_alg».proof.Proof.GraphConv
import Idealize.ShloMosaic.Lib.ValueIdx
import Idealize.ShloMosaic.PureOps.Ideal.Laws

noncomputable section

namespace Cert.ReferenceIdeal.RefLayer

open Idealize.ShloMosaic Idealize.ShloMosaic.TcCoe Idealize.SL.Sem Idealize.ShloMosaic.ValueIdx
open Cert.ReferenceIdeal Cert.GraphConv
open Cert.ReferenceIdeal.Gen Cert.ReferenceIdeal.Read

/-- The gather's dimension numbers. -/
abbrev gd : GatherDims S50000x128 S600000x1 S600000x128 := gather_S50000x128_S600000x1_S600000x128_1_0_n_n_0_1_1128
/-- The scatter's dimension numbers. -/
abbrev sd : ScatterDims S50000x128 S600000x1 S600000x128 := scatter_S50000x128_S600000x1_S600000x128_1_0_0_1

/-- The gather at (e, d): row "start index of e, read signed and clamped" of the table, column d. -/
theorem gather_row {α : Type} {w : Nat} (x : S50000x128.Idx → α) (idx : IVec S600000x1 w) (j : S600000x128.Idx) :
    Host.gather gd x idx j
      = x (ix2 (⟨min (idx (ix2 (j 0) 0)).toInt.toNat 49999, by omega⟩ : Fin 50000) (j 1)) := by
  unfold Host.gather
  congr 1
  funext a
  refine Fin.ext ?_
  match a with
  | ⟨0, _⟩ =>
    show gd.start j idx 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx j ⟨List.idxOf (0 : Fin 2) gd.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show gd.start j idx 1 + gd.batchCoord j 1 + gd.offCoord j 1 = _
    rw [GatherDims.batchCoord_eq_zero _ _ _ List.not_mem_nil]
    unfold GatherDims.start
    rw [dif_neg (show ¬ (1 : Fin 2) ∈ gd.startIndexMap by decide)]
    unfold GatherDims.offCoord
    rw [dif_pos (show (1 : Fin 2) ∈ gd.sKept by decide)]
    simp only [Nat.add_zero, Nat.zero_add]
    rfl

section Scatter
variable {w : Nat} (j : S600000x128.Idx) (idx : IVec S600000x1 w)

theorem sd_start0 : sd.start j idx 0 = (idx (ix2 (j 0) 0)).toInt := by
  unfold ScatterDims.start
  rw [dif_pos (show (0 : Fin 2) ∈ sd.scatterDimsToOperandDims from List.mem_singleton.mpr rfl)]
  have hsi : sd.siIdx j ⟨List.idxOf (0 : Fin 2) sd.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem sd_start1 : sd.start j idx 1 = 0 := by
  unfold ScatterDims.start
  rw [dif_neg (show ¬ (1 : Fin 2) ∈ sd.scatterDimsToOperandDims by decide)]

theorem sd_window0 : sd.window j 0 = 0 := by
  unfold ScatterDims.window
  rw [dif_neg (show ¬ (0 : Fin 2) ∈ sd.sKept by decide)]

theorem sd_window1 : sd.window j 1 = (j 1).val := by
  unfold ScatterDims.window
  rw [dif_pos (show (1 : Fin 2) ∈ sd.sKept by decide)]
  rfl

/-- An update lands on node row i 0, column i 1 exactly when its edge's index word, read signed, is i 0 and its
    column is i 1. -/
theorem sd_resultIdx_iff (i : S50000x128.Idx) :
    sd.resultIdx? j idx = some i ↔ (idx (ix2 (j 0) 0)).toInt = ((i 0).val : ℤ) ∧ (j 1).val = (i 1).val := by
  have hj1 : (j 1).val < 128 := idx2_lt1 j
  have hi0 : (i 0).val < 50000 := idx2_lt0 i
  have hi1 : (i 1).val < 128 := idx2_lt1 i
  unfold ScatterDims.resultIdx?
  split
  · rename_i hall
    constructor
    · intro h
      have hf := Option.some.inj h
      have e0 : (sd.start j idx 0 + sd.window j 0).toNat = (i 0).val := congrArg (fun f : S50000x128.Idx => (f 0).val) hf
      have e1 : (sd.start j idx 1 + sd.window j 1).toNat = (i 1).val := congrArg (fun f : S50000x128.Idx => (f 1).val) hf
      have h0 := (hall 0).1
      rw [sd_start0, sd_window0] at e0 h0
      rw [sd_start1, sd_window1] at e1
      exact ⟨by omega, by omega⟩
    · rintro ⟨e0, e1⟩
      congr 1
      funext a
      refine Fin.ext ?_
      match a with
      | ⟨0, _⟩ =>
        show (sd.start j idx 0 + sd.window j 0).toNat = (i 0).val
        rw [sd_start0, sd_window0]; omega
      | ⟨1, _⟩ =>
        show (sd.start j idx 1 + sd.window j 1).toNat = (i 1).val
        rw [sd_start1, sd_window1]; omega
  · rename_i hall
    constructor
    · intro h; cases h
    · rintro ⟨e0, e1⟩
      exfalso; apply hall
      intro a
      match a with
      | ⟨0, _⟩ =>
        show 0 ≤ sd.start j idx 0 + (sd.window j 0 : ℤ) ∧ sd.start j idx 0 + (sd.window j 0 : ℤ) < (50000 : ℕ)
        rw [sd_start0, sd_window0]; omega
      | ⟨1, _⟩ =>
        show 0 ≤ sd.start j idx 1 + (sd.window j 1 : ℤ) ∧ sd.start j idx 1 + (sd.window j 1 : ℤ) < (128 : ℕ)
        rw [sd_start1, sd_window1]; omega

end Scatter

/-- The accumulating scatter at (n, c): the operand there plus the sum over the edges whose index word is n of the
    update at (e, c). -/
theorem scatter_segment {w : Nat} (x : S50000x128.Idx → EReal) (idx : IVec S600000x1 w)
    (upd : S600000x128.Idx → EReal) (n : Fin 50000) (c : Fin 128) :
    Ideal.hostScatterAdd sd x idx upd (ix2 n c)
      = x (ix2 n c) + ∑ e : Fin 600000, if (idx (ix2 e 0)).toInt = (n.val : ℤ) then upd (ix2 e c) else 0 := by
  unfold Ideal.hostScatterAdd
  refine congrArg (x (ix2 n c) + ·) ?_
  rw [Finset.sum_filter, sum_idx2]
  refine Finset.sum_congr rfl fun e _ => ?_
  simp only [sd_resultIdx_iff]
  by_cases h : (idx (ix2 e 0)).toInt = (n.val : ℤ)
  · rw [if_pos h]
    have hc : ∀ c' : Fin 128, (if (idx (ix2 (ix2 e c' 0) 0)).toInt = ((ix2 n c 0).val : ℤ) ∧ (ix2 e c' 1).val = (ix2 n c 1).val
        then upd (ix2 e c') else 0) = if c' = c then upd (ix2 e c') else 0 := by
      intro c'
      refine if_congr ?_ rfl rfl
      exact ⟨fun hc => Fin.ext hc.2, fun hc => ⟨h, congrArg Fin.val hc⟩⟩
    rw [Finset.sum_congr rfl fun c' _ => hc c', Finset.sum_ite_eq', if_pos (Finset.mem_univ _)]
  · rw [if_neg h]
    exact Finset.sum_eq_zero fun c' _ => if_neg fun hc => h hc.1

/-! ## The index words and the messages -/

section Words
variable (x x0 : S50000x128.Idx → EReal) (ei : S2x600000.Idx → BitVec 32) (nrm : S600000.Idx → EReal)
  (W : S128x128.Idx → EReal)

/-- The select of the signed comparison with zero is the `if` on it. -/
theorem wrap_word (w : BitVec 32) :
    Scalar.select (IntOp.cmpi .slt w 0#32) (IntOp.addi w 50000#32) w = if w.slt 0#32 then w + 50000#32 else w := by
  unfold Scalar.select IntOp.cmpi IntOp.addi
  cases h : w.slt 0#32 <;> simp

/-- The gather's start word of edge e: the source word, a negative one counted from the end. -/
theorem src_word (e : Fin 600000) :
    val_main_v9 (F := Ideal) ei (ix2 e 0)
      = if (ei (ix2 0 e)).slt 0#32 then ei (ix2 0 e) + 50000#32 else ei (ix2 0 e) := by
  have hidx : idx_main_v0 (idx_main_v1 (idx_main_v9 (ix2 e (0 : Fin 1)))) = ix2 0 e := by
    funext a; refine Fin.ext ?_
    match a with
    | ⟨0, _⟩ => rfl
    | ⟨1, _⟩ => exact Nat.mod_eq_of_lt e.isLt
  rw [val_main_v9_apply, val_main_v8_apply, val_main_v5_apply, val_main_v7_apply, val_main_v4_apply, val_main_v6_apply,
    val_main_c_apply, val_main_c_0_apply, val_main_v1_apply, val_main_v0_apply, hidx]
  exact wrap_word _

/-- The scatter's index word of edge e: the destination word. -/
theorem dst_word (e : Fin 600000) : val_main_v15 (F := Ideal) ei (ix2 e 0) = ei (ix2 1 e) := by
  have hidx : idx_main_v2 (idx_main_v3 (idx_main_v15 (ix2 e (0 : Fin 1)))) = ix2 1 e := by
    funext a; refine Fin.ext ?_
    match a with
    | ⟨0, _⟩ => rfl
    | ⟨1, _⟩ => exact Nat.mod_eq_of_lt e.isLt
  rw [val_main_v15_apply, val_main_v3_apply, val_main_v2_apply, hidx]

/-- The message of edge e at column c: the source node's feature times the edge's weight. -/
theorem msg_apply (e : Fin 600000) (c : Fin 128) :
    val_main_v13 (F := Ideal) x ei nrm (ix2 e c) = x (ix2 (srcNode (ei (ix2 0 e))) c) * nrm (ix1 e) := by
  have hidx : idx_main_v11 (idx_main_v12 (ix2 e c)) = ix1 e := by
    funext a; refine Fin.ext ?_
    match a with
    | ⟨0, _⟩ => rfl
  rw [val_main_v13_apply, Ideal.mulf_def, val_main_v12_apply, val_main_v11_apply, hidx]
  refine congrArg (· * nrm (ix1 e)) ?_
  unfold val_main_v10
  refine (gather_row x _ _).trans ?_
  show x (ix2 ⟨min (val_main_v9 (F := Ideal) ei (ix2 e 0)).toInt.toNat 49999, _⟩ c) = _
  simp only [src_word]
  rfl

/-- The scatter's result is the aggregate. -/
theorem val16_apply (n : Fin 50000) (c : Fin 128) :
    val_main_v16 (F := Ideal) x ei nrm (ix2 n c) = agg x ei nrm (ix2 n c) := by
  unfold val_main_v16 Host.scatterAdd
  rw [Ideal.hostScatterAdd_def]
  refine (scatter_segment _ _ _ n c).trans ?_
  rw [val_main_v14_apply, val_main_cst_apply, Ideal.ofBits_def, Ideal.ofBits_zero_f32, zero_add]
  unfold agg
  refine Finset.sum_congr rfl fun e _ => ?_
  rw [dst_word, msg_apply]

end Words

/-! ## The mix, the layer, and the run -/

section Layer
variable (x x0 : S50000x128.Idx → EReal) (ei : S2x600000.Idx → BitVec 32) (nrm : S600000.Idx → EReal)
  (W : S128x128.Idx → EReal)

/-- The sum of the two scaled arrays is the mix. -/
theorem val21_eq : val_main_v21 (F := Ideal) x x0 ei nrm = mix x x0 ei nrm := by
  funext i
  obtain ⟨n, c, rfl⟩ : ∃ n c, i = ix2 n c := ⟨i 0, i 1, eq_ix2 i⟩
  rw [val_main_v21_apply, val_main_v18_apply, val_main_v20_apply, val_main_v17_apply, val_main_v19_apply,
    val_main_cst_1_apply, val_main_cst_2_apply, val16_apply]
  rfl

/-- The reference's result term is the layer. -/
theorem val28_eq : val_main_v28 (F := Ideal) x x0 ei nrm W = layer x x0 ei nrm W := by
  funext i
  obtain ⟨n, c, rfl⟩ : ∃ n c, i = ix2 n c := ⟨i 0, i 1, eq_ix2 i⟩
  have hl : ∀ k : Fin 128, lidx_main_v25 (ix2 n c) k = ix2 n k := fun k => by
    funext a; refine Fin.ext ?_
    match a with
    | ⟨0, _⟩ => rfl
    | ⟨1, _⟩ => rfl
  have hr : ∀ k : Fin 128, idx_main_v24 (ridx_main_v25 (ix2 n c) k) = ix2 c k := fun k => by
    funext a; refine Fin.ext ?_
    match a with
    | ⟨0, _⟩ => rfl
    | ⟨1, _⟩ => rfl
  rw [val_main_v28_apply, val_main_v23_apply, val_main_v27_apply, val_main_v22_apply, val_main_v26_apply,
    val_main_cst_3_apply, val_main_cst_4_apply, val_main_v25_apply, val21_eq]
  simp only [val_main_v24_apply, hl, hr]
  rfl

end Layer

/-- Every weakly fair execution of the reference ends with its result at the layer of its arguments, the arguments unchanged. -/
theorem run_layer (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v28) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.ReferenceIdeal.defs (F := Ideal)) _ _).mono
    (fun _ h c => ⟨(h c).1.trans ((val_main_v28_eq (F := Ideal) _ _ _ _ _).trans (val28_eq _ _ _ _ _)), (h c).2⟩)
    (Cert.ReferenceIdeal.Value.run (F := Ideal) m ρ)

end Cert.ReferenceIdeal.RefLayer

end
-- ==== Proof.PreFacts.lean ====
/-
  What the precondition says of the edge list: every source word is a node number.

  The printed predicate is a conjunction; its last two conjuncts are `all (src ≥ 0)` and `all (src < 50000)` over the
  first row of the edge list, compared as signed words.  A word that is nonnegative as a signed number reads the same
  unsigned, so its unsigned value is below 50000.
-/
import proofs.«401625_j82231443849285_1_alg».proof.Defs
import proofs.«401625_j82231443849285_1_alg».proof.Proof.Gen.Pre_finite_inputs
import proofs.«401625_j82231443849285_1_alg».proof.Proof.GraphConv
import Idealize.ShloMosaic.Lib.ValueIdx
import Idealize.ShloMosaic.Lib.ReduceAll
import Idealize.ShloMosaic.Lib.Pipeline.Value

noncomputable section

namespace Cert.PreFacts

open Idealize.ShloMosaic Idealize.ShloMosaic.ValueIdx Cert.GraphConv Cert.Pre_finite_inputs

instance : Subsingleton S_.Idx := ⟨fun a b => funext fun d => d.elim0⟩

/-- The first row of the edge list, sliced out and flattened, read at an edge. -/
theorem src_read [hP : Cert.Pre_finite_inputs.Facts] (ei : IVec S2x600000 32) (e : Fin 600000) :
    shapeCast S600000 ((extractStridedSlice S1x600000 ![0, 0] · Facts.slices_S2x600000_S1x600000_0_0) ei) Facts.shapeCasts_S1x600000_S600000 (ix1 e)
      = ei (ix2 0 e) :=
  (shapeCast_apply _ Facts.shapeCasts_S1x600000_S600000 (ix1 e) (ix2 (0 : Fin 1) e)
    (by rewrite [Shape.rowMajor_val_two, Shape.rowMajor_val_one]; show 0 * 600000 + e.val = e.val; omega)).trans
  (extractStridedSlice_apply ![0, 0] ei Facts.slices_S2x600000_S1x600000_0_0 (ix2 (0 : Fin 1) e) (ix2 (0 : Fin 2) e) (fun a => match a with
    | ⟨0, _⟩ => by show (0 : ℕ) = 0 + 0; omega
    | ⟨1, _⟩ => by show e.val = 0 + e.val; omega))

/-- A signed-nonnegative word below 50000 as a signed number is below 50000 unsigned. -/
theorem toNat_lt_of_signed (w : BitVec 32) (h0 : (0#32 : BitVec 32).toInt ≤ w.toInt) (h1 : w.toInt < (50000#32 : BitVec 32).toInt) :
    w.toNat < 50000 := by
  have e0 : (0#32 : BitVec 32).toInt = 0 := by decide
  have e1 : (50000#32 : BitVec 32).toInt = 50000 := by decide
  rw [e0] at h0; rw [e1] at h1
  rw [BitVec.toInt_eq_toNat_cond] at h0 h1
  have := w.isLt
  split at h0 <;> omega

/-- From the printed precondition being all ones: every source word of the edge list, read unsigned, is below 50000. -/
theorem src_lt {F : FTy → Type} [FloatOps F] [hP : Cert.Pre_finite_inputs.Facts]
    (x x0 : FVec F Cert.Pre_finite_inputs.S50000x128 .f32) (ei : IVec Cert.Pre_finite_inputs.S2x600000 32)
    (nrm : FVec F Cert.Pre_finite_inputs.S600000 .f32) (W : FVec F Cert.Pre_finite_inputs.S128x128 .f32)
    (h : Cert.Pre_finite_inputs.fn (F := F) x x0 ei nrm W = (fun _ => 1#1)) (e : Fin 600000) :
    (ei (ix2 0 e)).toNat < 50000 := by
  have h0 := congrFun h ix0
  dsimp only [Cert.Pre_finite_inputs.fn, Cert.Pre_finite_inputs.fn_part1] at h0
  obtain ⟨h24, h29⟩ := IntOp.andi_eq_one.1 h0
  obtain ⟨-, h23⟩ := IntOp.andi_eq_one.1 h24
  have hge := Host.reduce_andi_all _ _ _ _ ix0 h23 (ix1 e)
  have hlt := Host.reduce_andi_all _ _ _ _ ix0 h29 (ix1 e)
  have hge' := IntOp.cmpi_sge.1 hge
  have hlt' := IntOp.cmpi_slt.1 hlt
  rw [src_read ei e] at hge' hlt'
  exact toNat_lt_of_signed _ hge' hlt'

end Cert.PreFacts

end
-- ==== Proof.lean ====
/-
  One graph-convolution layer with an initial residual: a Pallas kernel program against its jnp reference, over the
  extended reals.

  The kernel program pads its arguments to whole tiles and runs two kernel regions: the first gathers, for every
  edge, the source node's features as a product with a 0/1 matrix and scales them by the edge's weight; the second
  sums the edge messages into their destination nodes as another product with a 0/1 matrix, mixes the sums with the
  initial features and blends the mix with its product by the transposed weights.  The reference gathers, scales,
  segment-sums, mixes and blends directly.

  The three frames: both kernel programs (the word-level one and its idealization are the same text) run to the end
  with their arguments unchanged: the run of Run.lean / BitsRun.lean, which follows every unscoped buffer through the
  program; the reference's frame is its generated run.
  The idealization rewrote nothing, so `preserves` is `True`.
  The algebraic claim: the kernel program's result is the closing slice of the dense layer over the padded arrays
  (KernelResult.lean), the reference's is the layer (RefLayer.lean), and the two are one function when every source
  word of the edge list is a node number, which the precondition states (PreFacts.lean); a 0/1 factor selects or
  kills its term on every extended real, so no finiteness is used (GraphConv.lean).
-/
import proofs.«401625_j82231443849285_1_alg».proof.Defs
import proofs.«401625_j82231443849285_1_alg».proof.Proof.Gen.Kernel
import proofs.«401625_j82231443849285_1_alg».proof.Proof.Gen.KernelIdeal
import proofs.«401625_j82231443849285_1_alg».proof.Proof.Gen.ReferenceIdeal
import proofs.«401625_j82231443849285_1_alg».proof.Proof.Gen.Pre_finite_inputs
import proofs.«401625_j82231443849285_1_alg».proof.Proof.BitsRun
import proofs.«401625_j82231443849285_1_alg».proof.Proof.Run
import proofs.«401625_j82231443849285_1_alg».proof.Proof.KernelResult
import proofs.«401625_j82231443849285_1_alg».proof.Proof.RefLayer
import proofs.«401625_j82231443849285_1_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

section
variable [hK : Cert.Kernel.Facts] [hKI : Cert.KernelIdeal.Facts] [hR : Cert.ReferenceIdeal.Facts] [hP : Cert.Pre_finite_inputs.Facts]

theorem frame_kernel : Cert.frame_Kernel := fun m ρ _ => Cert.Kernel.Run.frame m ρ

theorem frame_kernelIdeal : Cert.frame_KernelIdeal := fun m ρ _ => Cert.KernelIdeal.Run.frame m ρ

theorem frame_reference : Cert.frame_ReferenceIdeal := fun m ρ _ =>
  (θ_run Cert.ReferenceIdeal.defs _ _).mono (fun _ h c => (h c).2) (Cert.ReferenceIdeal.RefLayer.run_layer m ρ)

/-- Both idealized programs end with their result at the layer of the (agreeing) arguments. -/
theorem algebraic : Cert.algebraic_KernelIdeal_ReferenceIdeal := by
  intro m ρ m' ρ' hpre hagree
  refine ⟨fun c => Cert.GraphConv.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Run.run_all m ρ)
    refine ⟨(h c _ (Cert.KernelIdeal.Run.mem_uc Cert.KernelIdeal.main_v15 (by decide))).trans
        (Cert.KernelIdeal.Result.result_eq m c fun e => Cert.PreFacts.src_lt (F := Ideal) _ _ _ _ _ (hpre c) e), ?_, ?_, ?_, ?_, ?_⟩
    · exact (h c _ (Cert.KernelIdeal.Run.mem_uc Cert.KernelIdeal.main_arg0 (by decide))).trans (Cert.KernelIdeal.Run.Wend_arg0 m c)
    · exact (h c _ (Cert.KernelIdeal.Run.mem_uc Cert.KernelIdeal.main_arg1 (by decide))).trans (Cert.KernelIdeal.Run.Wend_arg1 m c)
    · exact (h c _ (Cert.KernelIdeal.Run.mem_uc Cert.KernelIdeal.main_arg2 (by decide))).trans (Cert.KernelIdeal.Run.Wend_arg2 m c)
    · exact (h c _ (Cert.KernelIdeal.Run.mem_uc Cert.KernelIdeal.main_arg3 (by decide))).trans (Cert.KernelIdeal.Run.Wend_arg3 m c)
    · exact (h c _ (Cert.KernelIdeal.Run.mem_uc Cert.KernelIdeal.main_arg4 (by decide))).trans (Cert.KernelIdeal.Run.Wend_arg4 m c)
  · refine (θ_run Cert.ReferenceIdeal.defs _ _).mono (fun r h c => ⟨?_, (h c).2⟩) (Cert.ReferenceIdeal.RefLayer.run_layer m' ρ')
    rw [(h c).1, (hagree c).1, (hagree c).2.1, (hagree c).2.2.1, (hagree c).2.2.2.1, (hagree c).2.2.2.2]

end

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
